-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x7 : Shape := ⟨2, ![100000, 7]⟩
abbrev S100000 : Shape := ⟨1, ![100000]⟩
abbrev S2x3200000 : Shape := ⟨2, ![2, 3200000]⟩
abbrev S3000x192 : Shape := ⟨2, ![3000, 192]⟩
abbrev S199x32 : Shape := ⟨2, ![199, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S_ : Shape := ⟨0, ![]⟩

class Facts : Prop where
  bcast_S_S100000x7 : S_.BroadcastsInDim S100000x7 (![] : Fin 0 → Fin S100000x7.rank)
  reducesTo_S100000x7_S_d0_1 : S100000x7.ReducesTo [0, 1] S_
  h_S_ : 0 < S_.numel
  bcast_S_S3000x192 : S_.BroadcastsInDim S3000x192 (![] : Fin 0 → Fin S3000x192.rank)
  reducesTo_S3000x192_S_d0_1 : S3000x192.ReducesTo [0, 1] S_
  bcast_S_S199x32 : S_.BroadcastsInDim S199x32 (![] : Fin 0 → Fin S199x32.rank)
  reducesTo_S199x32_S_d0_1 : S199x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg9 : FVec F S32 .f32) (main_arg10 : FVec F S32x16 .f32) (main_arg11 : FVec F S16 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x16 .f32 := Host.absf main_arg10
  let main_cst_14 : FVec F S_ .f32 := constant S_ .f32 0x7F800000#32
  let main_v40 : FVec F S32x16 .f32 := broadcastInDim S32x16 ![] bcast_S_S32x16 main_cst_14
  let main_v41 : IVec S32x16 1 := cmpf .olt main_v39 main_v40
  let main_c_15 : IVec S_ 1 := constantI S_ 1 1#1
  let main_v42 : IVec S_ 1 := (fun x v => Host.reduce IntOp.andi x v reducesTo_S32x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg6 : FVec F S32x32 .f32) (main_arg7 : FVec F S32 .f32) (main_arg8 : FVec F S32x32 .f32) (main_arg9 : FVec F S32 .f32) (main_arg10 : FVec F S32x16 .f32) (main_arg11 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg6
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg8
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x7 .f32) (main_arg1 : IVec S100000 32) (main_arg2 : IVec S2x3200000 32) (main_arg3 : FVec F S3000x192 .f32) (main_arg4 : FVec F S199x32 .f32) (main_arg5 : FVec F S32 .f32) (main_arg6 : FVec F S32x32 .f32) (main_arg7 : FVec F S32 .f32) (main_arg8 : FVec F S32x32 .f32) (main_arg9 : FVec F S32 .f32) (main_arg10 : FVec F S32x16 .f32) (main_arg11 : FVec F S16 .f32) : IVec S_ 1 :=
  let main_v0 : FVec F S100000x7 .f32 := Host.absf main_arg0
  let main_cst : FVec F S_ .f32 := constant S_ .f32 0x7F800000#32
  let main_v1 : FVec F S100000x7 .f32 := broadcastInDim S100000x7 ![] bcast_S_S100000x7 main_cst
  let main_v2 : IVec S100000x7 1 := cmpf .olt main_v0 main_v1
  let main_c : IVec S_ 1 := constantI S_ 1 1#1
  let main_v3 : IVec S_ 1 := (fun x v => Host.reduce IntOp.andi x v reducesTo_S100000x7_S_d0_1 h_S_) main_v2 main_c
  let main_v4 : FVec F S3000x192 .f32 := Host.absf main_arg3
  let main_cst_0 : FVec F S_ .f32 := constant S_ .f32 0x7F800000#32
  let main_v5 : FVec F S3000x192 .f32 := broadcastInDim S3000x192 ![] bcast_S_S3000x192 main_cst_0
  let main_v6 : IVec S3000x192 1 := cmpf .olt main_v4 main_v5
  let main_c_1 : IVec S_ 1 := constantI S_ 1 1#1
  let main_v7 : IVec S_ 1 := (fun x v => Host.reduce IntOp.andi x v reducesTo_S3000x192_S_d0_1 h_S_) main_v6 main_c_1
  let main_v8 : IVec S_ 1 := andi main_v3 main_v7
  let main_v9 : FVec F S199x32 .f32 := Host.absf main_arg4
  let main_cst_2 : FVec F S_ .f32 := constant S_ .f32 0x7F800000#32
  let main_v10 : FVec F S199x32 .f32 := broadcastInDim S199x32 ![] bcast_S_S199x32 main_cst_2
  let main_v11 : IVec S199x32 1 := cmpf .olt main_v9 main_v10
  let main_c_3 : IVec S_ 1 := constantI S_ 1 1#1
  let main_v12 : IVec S_ 1 := (fun x v => Host.reduce IntOp.andi x v reducesTo_S199x32_S_d0_1 h_S_) main_v11 main_c_3
  let main_v13 : IVec S_ 1 := andi main_v8 main_v12
  let main_v14 : FVec F S32 .f32 := Host.absf main_arg5
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg6 main_arg7 main_arg8 main_arg9 main_arg10 main_arg11 main_v13 main_v16
-- ==== Kernel.lean ====
abbrev S100000x7 : Shape := ⟨2, ![100000, 7]⟩
abbrev S100000 : Shape := ⟨1, ![100000]⟩
abbrev S2x3200000 : Shape := ⟨2, ![2, 3200000]⟩
abbrev S3000x192 : Shape := ⟨2, ![3000, 192]⟩
abbrev S199x32 : Shape := ⟨2, ![199, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x1 : Shape := ⟨2, ![100000, 1]⟩
abbrev S7x32 : Shape := ⟨2, ![7, 32]⟩
abbrev S192x32 : Shape := ⟨2, ![192, 32]⟩
abbrev S3000x32 : Shape := ⟨2, ![3000, 32]⟩
abbrev S100000x32 : Shape := ⟨2, ![100000, 32]⟩
abbrev S5000x7 : Shape := ⟨2, ![5000, 7]⟩
abbrev S5000x32 : Shape := ⟨2, ![5000, 32]⟩
abbrev S5000x1 : Shape := ⟨2, ![5000, 1]⟩
abbrev S3300000x32 : Shape := ⟨2, ![3300000, 32]⟩
abbrev S1x32 : Shape := ⟨2, ![1, 32]⟩
abbrev S100000x16 : Shape := ⟨2, ![100000, 16]⟩
abbrev S5000x16 : Shape := ⟨2, ![5000, 16]⟩
abbrev S3300000x16 : Shape := ⟨2, ![3300000, 16]⟩
abbrev S1x16 : Shape := ⟨2, ![1, 16]⟩

abbrev nBuf : Space → Nat
  | .hbm => 116
  | .vmem => 33
  | .smem => 0
  | _ => 0

abbrev bufTy : (tb : Table) → Fin (tcTables nBuf tb) → BufTy
  | .hbm, ⟨0, _⟩ => ⟨S100000x7, .f32⟩
  | .hbm, ⟨1, _⟩ => ⟨S100000, .i32⟩
  | .hbm, ⟨2, _⟩ => ⟨S2x3200000, .i32⟩
  | .hbm, ⟨3, _⟩ => ⟨S3000x192, .f32⟩
  | .hbm, ⟨4, _⟩ => ⟨S199x32, .f32⟩
  | .hbm, ⟨5, _⟩ => ⟨S32, .f32⟩
  | .hbm, ⟨6, _⟩ => ⟨S32x32, .f32⟩
  | .hbm, ⟨7, _⟩ => ⟨S32, .f32⟩
  | .hbm, ⟨8, _⟩ => ⟨S32x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S100000, .i32⟩
  | .hbm, ⟨13, _⟩ => ⟨S1x3200000, .i32⟩
  | .hbm, ⟨14, _⟩ => ⟨S3200000, .i32⟩
  | .hbm, ⟨15, _⟩ => ⟨S3300000, .i32⟩
  | .hbm, ⟨16, _⟩ => ⟨S1x3200000, .i32⟩
  | .hbm, ⟨17, _⟩ => ⟨S3200000, .i32⟩
  | .hbm, ⟨18, _⟩ => ⟨S3300000, .i32⟩
  | .hbm, ⟨19, _⟩ => ⟨S_, .f32⟩
  | .hbm, ⟨20, _⟩ => ⟨S3300000, .f32⟩
  | .hbm, ⟨21, _⟩ => ⟨S_, .f32⟩
  | .hbm, ⟨22, _⟩ => ⟨S100000, .f32⟩
  | .hbm, ⟨23, _⟩ => ⟨S3300000x1, .i32⟩
  | .hbm, ⟨24, _⟩ => ⟨S100000, .f32⟩
  | .hbm, ⟨25, _⟩ => ⟨S100000, .f32⟩
  | .hbm, ⟨26, _⟩ => ⟨S100000x1, .f32⟩
  | .hbm, ⟨27, _⟩ => ⟨S7x32, .f32⟩
  | .hbm, ⟨28, _⟩ => ⟨S192x32, .f32⟩
  | .hbm, ⟨29, _⟩ => ⟨S3000x32, .f32⟩
  | .hbm, ⟨30, _⟩ => ⟨S100000x1, .i32⟩
  | .hbm, ⟨31, _⟩ => ⟨S_, .i32⟩
  | .hbm, ⟨32, _⟩ => ⟨S100000x1, .i32⟩
  | .hbm, ⟨33, _⟩ => ⟨S100000x1, .i1⟩
  | .hbm, ⟨34, _⟩ => ⟨S_, .i32⟩
  | .hbm, ⟨35, _⟩ => ⟨S100000, .i32⟩
  | .hbm, ⟨36, _⟩ => ⟨S100000, .i1⟩
  | .hbm, ⟨37, _⟩ => ⟨S_, .i32⟩
  | .hbm, ⟨38, _⟩ => ⟨S100000, .i32⟩
  | .hbm, ⟨39, _⟩ => ⟨S100000, .i32⟩
  | .hbm, ⟨40, _⟩ => ⟨S100000, .i32⟩
  | .hbm, ⟨41, _⟩ => ⟨S100000x1, .i32⟩
  | .hbm, ⟨42, _⟩ => ⟨S100000x32, .f32⟩
  | .hbm, ⟨43, _⟩ => ⟨S_, .f32⟩
  | .hbm, ⟨44, _⟩ => ⟨S_, .f32⟩
  | .hbm, ⟨45, _⟩ => ⟨S100000x32, .i1⟩
  | .hbm, ⟨46, _⟩ => ⟨S100000x32, .f32⟩
  | .hbm, ⟨47, _⟩ => ⟨S100000x32, .f32⟩
  | .hbm, ⟨48, _⟩ => ⟨S7x32, .bf16⟩
  | .hbm, ⟨49, _⟩ => ⟨S100000x32, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x32, .f32⟩
  | .hbm, ⟨59, _⟩ => ⟨S_, .f32⟩
  | .hbm, ⟨60, _⟩ => ⟨S100000x32, .f32⟩
  | .hbm, ⟨61, _⟩ => ⟨S3300000x1, .i32⟩
  | .hbm, ⟨62, _⟩ => ⟨S100000x32, .f32⟩
  | .hbm, ⟨63, _⟩ => ⟨S1x32, .f32⟩
  | .hbm, ⟨64, _⟩ => ⟨S32x32, .bf16⟩
  | .hbm, ⟨65, _⟩ => ⟨S100000x32, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x32, .f32⟩
  | .hbm, ⟨75, _⟩ => ⟨S_, .f32⟩
  | .hbm, ⟨76, _⟩ => ⟨S100000x32, .f32⟩
  | .hbm, ⟨77, _⟩ => ⟨S3300000x1, .i32⟩
  | .hbm, ⟨78, _⟩ => ⟨S100000x32, .f32⟩
  | .hbm, ⟨79, _⟩ => ⟨S1x32, .f32⟩
  | .hbm, ⟨80, _⟩ => ⟨S32x32, .bf16⟩
  | .hbm, ⟨81, _⟩ => ⟨S100000x32, .f32⟩
  | .hbm, ⟨82, _⟩ => ⟨S_, .i32⟩
  | .hbm, ⟨83, _⟩ => ⟨S3300000, .i32⟩
  | .hbm, ⟨84, _⟩ => ⟨S3300000, .i1⟩
  | .hbm, ⟨85, _⟩ => ⟨S_, .i32⟩
  | .hbm, ⟨86, _⟩ => ⟨S3300000, .i32⟩
  | .hbm, ⟨87, _⟩ => ⟨S3300000, .i32⟩
  | .hbm, ⟨88, _⟩ => ⟨S3300000, .i32⟩
  | .hbm, ⟨89, _⟩ => ⟨S3300000x1, .i32⟩
  | .hbm, ⟨90, _⟩ => ⟨S3300000x32, .f32⟩
  | .hbm, ⟨91, _⟩ => ⟨S_, .f32⟩
  | .hbm, ⟨92, _⟩ => ⟨S100000x32, .f32⟩
  | .hbm, ⟨93, _⟩ => ⟨S3300000x1, .i32⟩
  | .hbm, ⟨94, _⟩ => ⟨S100000x32, .f32⟩
  | .hbm, ⟨95, _⟩ => ⟨S1x32, .f32⟩
  | .hbm, ⟨96, _⟩ => ⟨S32x16, .bf16⟩
  | .hbm, ⟨97, _⟩ => ⟨S100000x16, .f32⟩
  | .hbm, ⟨98, _⟩ => ⟨S_, .i32⟩
  | .hbm, ⟨99, _⟩ => ⟨S3300000, .i32⟩
  | .hbm, ⟨100, _⟩ => ⟨S3300000, .i1⟩
  | .hbm, ⟨101, _⟩ => ⟨S_, .i32⟩
  | .hbm, ⟨102, _⟩ => ⟨S3300000, .i32⟩
  | .hbm, ⟨103, _⟩ => ⟨S3300000, .i32⟩
  | .hbm, ⟨104, _⟩ => ⟨S3300000, .i32⟩
  | .hbm, ⟨105, _⟩ => ⟨S3300000x1, .i32⟩
  | .hbm, ⟨106, _⟩ => ⟨S3300000x16, .f32⟩
  | .hbm, ⟨107, _⟩ => ⟨S_, .f32⟩
  | .hbm, ⟨108, _⟩ => ⟨S100000x16, .f32⟩
  | .hbm, ⟨109, _⟩ => ⟨S3300000x1, .i32⟩
  | .hbm, ⟨110, _⟩ => ⟨S100000x16, .f32⟩
  | .hbm, ⟨111, _⟩ => ⟨S100000x16, .f32⟩
  | .hbm, ⟨112, _⟩ => ⟨S100000x16, .f32⟩
  | .hbm, ⟨113, _⟩ => ⟨S1x16, .f32⟩
  | .hbm, ⟨114, _⟩ => ⟨S100000x16, .f32⟩
  | .hbm, ⟨115, _⟩ => ⟨S100000x16, .f32⟩
  | .local _ .vmem, ⟨0, _⟩ => ⟨S5000x7, .f32⟩
  | .local _ .vmem, ⟨1, _⟩ => ⟨S5000x7, .f32⟩
  | .local _ .vmem, ⟨2, _⟩ => ⟨S5000x32, .f32⟩
  | .local _ .vmem, ⟨3, _⟩ => ⟨S5000x32, .f32⟩
  | .local _ .vmem, ⟨4, _⟩ => ⟨S7x32, .bf16⟩
  | .local _ .vmem, ⟨5, _⟩ => ⟨S5000x1, .f32⟩
  | .local _ .vmem, ⟨6, _⟩ => ⟨S5000x1, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x1, .f32⟩
  | .local _ .vmem, ⟨12, _⟩ => ⟨S5000x1, .f32⟩
  | .local _ .vmem, ⟨13, _⟩ => ⟨S1x32, .f32⟩
  | .local _ .vmem, ⟨14, _⟩ => ⟨S32x32, .bf16⟩
  | .local _ .vmem, ⟨15, _⟩ => ⟨S5000x32, .f32⟩
  | .local _ .vmem, ⟨16, _⟩ => ⟨S5000x32, .f32⟩
  | .local _ .vmem, ⟨17, _⟩ => ⟨S5000x32, .f32⟩
  | .local _ .vmem, ⟨18, _⟩ => ⟨S5000x32, .f32⟩
  | .local _ .vmem, ⟨19, _⟩ => ⟨S5000x1, .f32⟩
  | .local _ .vmem, ⟨20, _⟩ => ⟨S5000x1, .f32⟩
  | .local _ .vmem, ⟨21, _⟩ => ⟨S1x32, .f32⟩
  | .local _ .vmem, ⟨22, _⟩ => ⟨S32x32, .bf16⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x1, .f32⟩
  | .local _ .vmem, ⟨28, _⟩ => ⟨S5000x1, .f32⟩
  | .local _ .vmem, ⟨29, _⟩ => ⟨S1x32, .f32⟩
  | .local _ .vmem, ⟨30, _⟩ => ⟨S32x16, .bf16⟩
  | .local _ .vmem, ⟨31, _⟩ => ⟨S5000x16, .f32⟩
  | .local _ .vmem, ⟨32, _⟩ => ⟨S5000x16, .f32⟩
  | _, _ => ⟨S100000x7, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_c_2 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_4 : Ref sig .tc := ⟨.hbm, 50, rfl⟩
abbrev main_v29 : Ref sig .tc := ⟨.hbm, 51, rfl⟩
abbrev main_v30 : Ref sig .tc := ⟨.hbm, 52, rfl⟩
abbrev main_c_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_7 : Ref sig .tc := ⟨.hbm, 66, rfl⟩
abbrev main_v42 : Ref sig .tc := ⟨.hbm, 67, rfl⟩
abbrev main_v43 : Ref sig .tc := ⟨.hbm, 68, rfl⟩
abbrev main_c_8 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_9 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_c_10 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_13 : Ref sig .tc := ⟨.hbm, 98, rfl⟩
abbrev main_v68 : Ref sig .tc := ⟨.hbm, 99, rfl⟩
abbrev main_v69 : Ref sig .tc := ⟨.hbm, 100, rfl⟩
abbrev main_c_14 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_15 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg4_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg4_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem4_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc3_sem4_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x7 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x32 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x32 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x32 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x16 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S100000_S100000x1 : S100000.ShapeCasts S100000x1
  slices_S199x32_S7x32_0_0 : S199x32.Slices ![0, 0] S7x32
  slices_S199x32_S192x32_7_0 : S199x32.Slices ![7, 0] S192x32
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S_S100000x32 : S_.BroadcastsInDim S100000x32 (![] : Fin 0 → Fin S100000x32.rank)
  bitsLt_bf16_f32 : FTy.bits .bf16 < FTy.bits .f32
  inb_S5000x7_S5000x7_0_0 : ∀ a, (![0, 0] : Fin 2 → Nat) a + S5000x7.size a ≤ S5000x7.size a
  h_S5000x7 : 0 < S5000x7.numel
  inb_S7x32_S7x32_0_0 : ∀ a, (![0, 0] : Fin 2 → Nat) a + S7x32.size a ≤ S7x32.size a
  h_S7x32 : 0 < S7x32.numel
  shapeCasts_S7x32_S7x32 : S7x32.ShapeCasts S7x32
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  shapeCasts_S32_S1x32 : S32.ShapeCasts S1x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  inb_S32x16_S32x16_0_0 : ∀ a, (![0, 0] : Fin 2 → Nat) a + S32x16.size a ≤ S32x16.size a
  h_S32x16 : 0 < S32x16.numel
  shapeCasts_S32x16_S32x16 : S32x16.ShapeCasts S32x16
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  shapeCasts_S16_S1x16 : S16.ShapeCasts S1x16
  bcast_S1x16_S100000x16_0_1 : S1x16.BroadcastsInDim S100000x16 (![0, 1] : Fin 2 → Fin S100000x16.rank)
  scatter_S100000_S3300000x1_S3300000_n_0_0_1_wf : ScatterDims.WF S100000 S3300000x1 S3300000 [] [0] [0] 1
  dot_S3000x192_S192x32_S3000x32_1_0_0_1_n_n_wf : DotDims.WF S3000x192 S192x32 S3000x32 [1] [0] [0] [1] [] []
  gather_S3000x32_S100000x1_S100000x32_1_0_n_n_0_1_132_wf : GatherDims.WF S3000x32 S100000x1 S100000x32 [1] [0] [] [0] [] 1 ![1, 32]
  dot_S5000x7_S7x32_S5000x32_1_0_0_1_n_n_wf : DotDims.WF S5000x7 S7x32 S5000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S5000x32_S32x32_S5000x32_1_0_0_1_n_n_wf : DotDims.WF S5000x32 S32x32 S5000x32 [1] [0] [0] [1] [] []
  dot_S5000x32_S32x16_S5000x16_1_0_0_1_n_n_wf : DotDims.WF S5000x32 S32x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x7.size a ≤ S100000x7.size a
  hwx0_0 : ∀ i : grid0.Coords, EltTy.bits .f32 = 32 ∨ (Rect.block (s := S100000x7) S5000x7.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x32.size a ≤ S100000x32.size a
  hwx0_1 : ∀ i : grid0.Coords, EltTy.bits .f32 = 32 ∨ (Rect.block (s := S100000x32) S5000x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x32.size a ≤ S7x32.size a
  hwx0_2 : ∀ i : grid0.Coords, EltTy.bits .bf16 = 32 ∨ (Rect.block (s := S7x32) S7x32.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x1.size a ≤ S100000x1.size a
  hwx0_3 : ∀ i : grid0.Coords, EltTy.bits .f32 = 32 ∨ (Rect.block (s := S100000x1) S5000x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x32.size a ≤ S100000x32.size a
  hwx0_4 : ∀ i : grid0.Coords, EltTy.bits .f32 = 32 ∨ (Rect.block (s := S100000x32) S5000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x32.size a ≤ S32x32.size a
  hwx1_3 : ∀ i : grid1.Coords, EltTy.bits .bf16 = 32 ∨ (Rect.block (s := S32x32) S32x32.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x32.size a ≤ S32x32.size a
  hwx2_3 : ∀ i : grid2.Coords, EltTy.bits .bf16 = 32 ∨ (Rect.block (s := S32x32) S32x32.size (cc2_transform_3 i) (hinb2_3 i)).WholeWords (EltTy.packing .bf16)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x32.size a ≤ S100000x32.size a
  hwx2_4 : ∀ i : grid2.Coords, EltTy.bits .f32 = 32 ∨ (Rect.block (s := S100000x32) S5000x32.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x16.size a ≤ S32x16.size a
  hwx3_3 : ∀ i : grid3.Coords, EltTy.bits .bf16 = 32 ∨ (Rect.block (s := S32x16) S32x16.size (cc3_transform_3 i) (hinb3_3 i)).WholeWords (EltTy.packing .bf16)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def dot_S3000x192_S192x32_S3000x32_1_0_0_1_n_n : DotDims S3000x192 S192x32 S3000x32 where
  lhsContracting := [1]
  rhsContracting := [0]
  lhsNonContracting := [0]
  rhsNonContracting := [1]
  lhsBatch := []
  rhsBatch := []
  wf := dot_S3000x192_S192x32_S3000x32_1_0_0_1_n_n_wf
def gather_S3000x32_S100000x1_S100000x32_1_0_n_n_0_1_132 : GatherDims S3000x32 S100000x1 S100000x32 where
  offsetDims := [1]
  collapsedSliceDims := [0]
  operandBatchingDims := []
  startIndicesBatchingDims := []
  startIndexMap := [0]
  indexVectorDim := 1
  sliceSizes := ![1, 32]
  wf := gather_S3000x32_S100000x1_S100000x32_1_0_n_n_0_1_132_wf
def dot_S5000x7_S7x32_S5000x32_1_0_0_1_n_n : DotDims S5000x7 S7x32 S5000x32 where
  lhsContracting := [1]
  rhsContracting := [0]
  lhsNonContracting := [0]
  rhsNonContracting := [1]
  lhsBatch := []
  rhsBatch := []
  wf := dot_S5000x7_S7x32_S5000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

abbrev win0_0 : Pipeline.Window sig grid0 :=
  Pipeline.Window.ofSpec (Memref.whole main_arg0) S5000x7.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S7x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v28) S5000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v38) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S32x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v41) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v51) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S32x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S5000x32.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v64) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v65) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v66) S32x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v67) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x7 : Shape := ⟨2, ![100000, 7]⟩
abbrev S100000 : Shape := ⟨1, ![100000]⟩
abbrev S2x3200000 : Shape := ⟨2, ![2, 3200000]⟩
abbrev S3000x192 : Shape := ⟨2, ![3000, 192]⟩
abbrev S199x32 : Shape := ⟨2, ![199, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S100000x1 : Shape := ⟨2, ![100000, 1]⟩
abbrev S_ : Shape := ⟨0, ![]⟩
abbrev S100000x192 : Shape := ⟨2, ![100000, 192]⟩
abbrev S100000x199 : Shape := ⟨2, ![100000, 199]⟩
abbrev S1x3200000 : Shape := ⟨2, ![1, 3200000]⟩
abbrev S3200000 : Shape := ⟨1, ![3200000]⟩
abbrev S3300000 : Shape := ⟨1, ![3300000]⟩
abbrev S3300000x1 : Shape := ⟨2, ![3300000, 1]⟩
abbrev S100000x32 : Shape := ⟨2, ![100000, 32]⟩
abbrev S3300000x32 : Shape := ⟨2, ![3300000, 32]⟩
abbrev S1x32 : Shape := ⟨2, ![1, 32]⟩
abbrev S100000x16 : Shape := ⟨2, ![100000, 16]⟩
abbrev S3300000x16 : Shape := ⟨2, ![3300000, 16]⟩
abbrev S1x16 : Shape := ⟨2, ![1, 16]⟩

abbrev nBuf : Space → Nat
  | .hbm => 153
  | .vmem => 0
  | .smem => 0
  | _ => 0

abbrev hbmTy0_0 (i : Nat) : BufTy := match i % 128 with
  | 0 => ⟨S100000x7, .f32⟩
  | 1 => ⟨S100000, .i32⟩
  | 2 => ⟨S2x3200000, .i32⟩
  | 3 => ⟨S3000x192, .f32⟩
  | 4 => ⟨S199x32, .f32⟩
  | 5 => ⟨S32, .f32⟩
  | 6 => ⟨S32x32, .f32⟩
  | 7 => ⟨S32, .f32⟩
  | 8 => ⟨S32x32, .f32⟩
  | 9 => ⟨S32, .f32⟩
  | 10 => ⟨S32x16, .f32⟩
  | 11 => ⟨S16, .f32⟩
  | 12 => ⟨S100000x1, .i32⟩
  | 13 => ⟨S_, .i32⟩
  | 14 => ⟨S100000x1, .i32⟩
  | 15 => ⟨S100000x1, .i1⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000x192, .f32⟩
  | 25 => ⟨S_, .f32⟩
  | 26 => ⟨S_, .f32⟩
  | 27 => ⟨S100000x192, .i1⟩
  | 28 => ⟨S100000x192, .f32⟩
  | 29 => ⟨S100000x192, .f32⟩
  | 30 => ⟨S100000x199, .f32⟩
  | 31 => ⟨S100000, .i32⟩
  | 32 => ⟨S1x3200000, .i32⟩
  | 33 => ⟨S3200000, .i32⟩
  | 34 => ⟨S3300000, .i32⟩
  | 35 => ⟨S1x3200000, .i32⟩
  | 36 => ⟨S3200000, .i32⟩
  | 37 => ⟨S3300000, .i32⟩
  | 38 => ⟨S_, .f32⟩
  | 39 => ⟨S3300000, .f32⟩
  | 40 => ⟨S_, .f32⟩
  | 41 => ⟨S100000, .f32⟩
  | 42 => ⟨S3300000x1, .i32⟩
  | 43 => ⟨S100000, .f32⟩
  | 44 => ⟨S100000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000, .f32⟩
  | 63 => ⟨S3300000, .f32⟩
  | 64 => ⟨S100000x32, .f32⟩
  | 65 => ⟨S_, .i32⟩
  | 66 => ⟨S3300000, .i32⟩
  | 67 => ⟨S3300000, .i1⟩
  | 68 => ⟨S_, .i32⟩
  | 69 => ⟨S3300000, .i32⟩
  | 70 => ⟨S3300000, .i32⟩
  | 71 => ⟨S3300000, .i32⟩
  | 72 => ⟨S3300000x1, .i32⟩
  | 73 => ⟨S3300000x32, .f32⟩
  | 74 => ⟨S3300000x1, .f32⟩
  | 75 => ⟨S3300000x32, .f32⟩
  | 76 => ⟨S3300000x32, .f32⟩
  | 77 => ⟨S_, .f32⟩
  | 78 => ⟨S100000x32, .f32⟩
  | 79 => ⟨S3300000x1, .i32⟩
  | 80 => ⟨S100000x32, .f32⟩
  | 81 => ⟨S1x32, .f32⟩
  | 82 => ⟨S100000x32, .f32⟩
  | 83 => ⟨S100000x32, .f32⟩
  | 84 => ⟨S_, .f32⟩
  | 85 => ⟨S100000x32, .f32⟩
  | 86 => ⟨S100000x32, .f32⟩
  | 87 => ⟨S100000x32, .f32⟩
  | 88 => ⟨S_, .i32⟩
  | 89 => ⟨S3300000, .i32⟩
  | 90 => ⟨S3300000, .i1⟩
  | 91 => ⟨S_, .i32⟩
  | 92 => ⟨S3300000, .i32⟩
  | 93 => ⟨S3300000, .i32⟩
  | 94 => ⟨S3300000, .i32⟩
  | 95 => ⟨S3300000x1, .i32⟩
  | 96 => ⟨S3300000x32, .f32⟩
  | 97 => ⟨S3300000x1, .f32⟩
  | 98 => ⟨S3300000x32, .f32⟩
  | 99 => ⟨S3300000x32, .f32⟩
  | 100 => ⟨S_, .f32⟩
  | 101 => ⟨S100000x32, .f32⟩
  | 102 => ⟨S3300000x1, .i32⟩
  | 103 => ⟨S100000x32, .f32⟩
  | 104 => ⟨S1x32, .f32⟩
  | 105 => ⟨S100000x32, .f32⟩
  | 106 => ⟨S100000x32, .f32⟩
  | 107 => ⟨S_, .f32⟩
  | 108 => ⟨S100000x32, .f32⟩
  | 109 => ⟨S100000x32, .f32⟩
  | 110 => ⟨S100000x32, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x32, .f32⟩
  | 120 => ⟨S3300000x1, .f32⟩
  | 121 => ⟨S3300000x32, .f32⟩
  | 122 => ⟨S3300000x32, .f32⟩
  | 123 => ⟨S_, .f32⟩
  | 124 => ⟨S100000x32, .f32⟩
  | 125 => ⟨S3300000x1, .i32⟩
  | 126 => ⟨S100000x32, .f32⟩
  | 127 => ⟨S1x32, .f32⟩
  | _ => ⟨S100000x7, .f32⟩

abbrev hbmTy0_1 (i : Nat) : BufTy := match i % 128 with
  | 0 => ⟨S100000x32, .f32⟩
  | 1 => ⟨S100000x32, .f32⟩
  | 2 => ⟨S_, .f32⟩
  | 3 => ⟨S100000x32, .f32⟩
  | 4 => ⟨S100000x32, .f32⟩
  | 5 => ⟨S100000x16, .f32⟩
  | 6 => ⟨S_, .i32⟩
  | 7 => ⟨S3300000, .i32⟩
  | 8 => ⟨S3300000, .i1⟩
  | 9 => ⟨S_, .i32⟩
  | 10 => ⟨S3300000, .i32⟩
  | 11 => ⟨S3300000, .i32⟩
  | 12 => ⟨S3300000, .i32⟩
  | 13 => ⟨S3300000x1, .i32⟩
  | 14 => ⟨S3300000x16, .f32⟩
  | 15 => ⟨S3300000x1, .f32⟩
  | 16 => ⟨S3300000x16, .f32⟩
  | 17 => ⟨S3300000x16, .f32⟩
  | 18 => ⟨S_, .f32⟩
  | 19 => ⟨S100000x16, .f32⟩
  | 20 => ⟨S3300000x1, .i32⟩
  | 21 => ⟨S100000x16, .f32⟩
  | 22 => ⟨S1x16, .f32⟩
  | 23 => ⟨S100000x16, .f32⟩
  | 24 => ⟨S100000x16, .f32⟩
  | _ => ⟨S100000x7, .f32⟩

abbrev hbmTy (i : Nat) : BufTy := match i / 128 with
  | 0 => hbmTy0_0 i
  | 1 => hbmTy0_1 i
  | _ => ⟨S100000x7, .f32⟩

abbrev bufTy : (tb : Table) → Fin (tcTables nBuf tb) → BufTy
  | .hbm, ⟨i, _⟩ => hbmTy i
  | _, _ => ⟨S100000x7, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_2 : Ref sig .tc := ⟨.hbm, 38, rfl⟩
abbrev main_v19 : Ref sig .tc := ⟨.hbm, 39, rfl⟩
abbrev main_cst_3 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_c_5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_c_8 : Ref sig .tc := ⟨.hbm, 65, rfl⟩
abbrev main_v40 : Ref sig .tc := ⟨.hbm, 66, rfl⟩
abbrev main_v41 : Ref sig .tc := ⟨.hbm, 67, rfl⟩
abbrev main_c_9 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_10 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_call1_cst : Ref sig .tc := ⟨.hbm, 84, rfl⟩
abbrev main_call1_v0 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_13 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_call2_cst : Ref sig .tc := ⟨.hbm, 107, rfl⟩
abbrev main_call2_v0 : Ref sig .tc := ⟨.hbm, 108, rfl⟩
abbrev main_v74 : Ref sig .tc := ⟨.hbm, 109, rfl⟩
abbrev main_v75 : Ref sig .tc := ⟨.hbm, 110, rfl⟩
abbrev main_c_14 : Ref sig .tc := ⟨.hbm, 111, rfl⟩
abbrev main_v76 : Ref sig .tc := ⟨.hbm, 112, rfl⟩
abbrev main_v77 : Ref sig .tc := ⟨.hbm, 113, rfl⟩
abbrev main_c_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_c_17 : Ref sig .tc := ⟨.hbm, 134, rfl⟩
abbrev main_v94 : Ref sig .tc := ⟨.hbm, 135, rfl⟩
abbrev main_v95 : Ref sig .tc := ⟨.hbm, 136, rfl⟩
abbrev main_c_18 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_cst_19 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩

abbrev nD : Nat := 1
abbrev τ : Topo := Topo.v7x

variable {F : FTy → Type} [FloatOps F]

class Facts₀ : Prop where
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S_S100000 : S_.BroadcastsInDim S100000 (![] : Fin 0 → Fin S100000.rank)
  bcast_S100000x1_S100000x192_0_1 : S100000x1.BroadcastsInDim S100000x192 (![0, 1] : Fin 2 → Fin S100000x192.rank)
  bcast_S_S100000x192 : S_.BroadcastsInDim S100000x192 (![] : Fin 0 → Fin S100000x192.rank)
  concatenates_S100000x7_S100000x192_S100000x199_d1 : Shape.Concatenates [S100000x7, S100000x192] S100000x199 1
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S3000x192_S100000x1_S100000x192_1_0_n_n_0_1_1192_wf : GatherDims.WF S3000x192 S100000x1 S100000x192 [1] [0] [] [0] [] 1 ![1, 192]
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x199_S199x32_S100000x32_1_0_0_1_n_n_wf : DotDims.WF S100000x199 S199x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x16_S100000x16_1_0_0_1_n_n_wf : DotDims.WF S100000x32 S32x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1

variable [Facts₀]

def gather_S3000x192_S100000x1_S100000x192_1_0_n_n_0_1_1192 : GatherDims S3000x192 S100000x1 S100000x192 where
  offsetDims := [1]
  collapsedSliceDims := [0]
  operandBatchingDims := []
  startIndicesBatchingDims := []
  startIndexMap := [0]
  indexVectorDim := 1
  sliceSizes := ![1, 192]
  wf := gather_S3000x192_S100000x1_S100000x192_1_0_n_n_0_1_1192_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x199_S199x32_S100000x32_1_0_0_1_n_n : DotDims S100000x199 S199x32 S100000x32 where
  lhsContracting := [1]
  rhsContracting := [0]
  lhsNonContracting := [0]
  rhsNonContracting := [1]
  lhsBatch := []
  rhsBatch := []
  wf := dot_S100000x199_S199x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf

class Facts : Prop extends Facts₀ where

variable [Facts]
-- ==== Proof.GcnBase.lean ====
import Idealize.ShloMosaic.PureOps.Ideal
import Idealize.ShloMosaic.PureOps.Ideal.Laws
import Idealize.ShloMosaic.Lib.ValueIdx
import Idealize.ShloMosaic.Lib.StableHlo.Predicate

/-! Matrices and vectors of extended reals over literal shapes, an edge list's index column, a start index clamped
into a table, and the set of edges landing on a row. -/

noncomputable section

namespace Cert.Gcn

open Idealize.ShloMosaic Idealize.ShloMosaic.StableHlo.Predicate

/-- A matrix of extended reals. -/
abbrev Mat (n m : ℕ) := (⟨2, ![n, m]⟩ : Shape).Idx → EReal
/-- A vector of extended reals. -/
abbrev Vct (n : ℕ) := (⟨1, ![n]⟩ : Shape).Idx → EReal
/-- A column of 32-bit indices, one per edge. -/
abbrev Col (n : ℕ) := IVec ⟨2, ![n, 1]⟩ 32

/-- A start index read signed and clamped into `[0, N - 1]`. -/
def clampTo (N : ℕ) (hN : 0 < N) (w : BitVec 32) : Fin N := ⟨min w.toInt.toNat (N - 1), by omega⟩

/-- The edges whose scatter index is exactly row `i`. -/
def into {n : ℕ} (dstS : Col n) (i : ℕ) : Finset (Fin n) :=
  Finset.univ.filter fun p => (dstS (ixP p)).toInt = (i : ℤ)

end Cert.Gcn

end
-- ==== Proof.Gcn.lean ====
import proofs.«412154_j24919400252010_3_alg».proof.Proof.GcnBase

/-!
# A graph convolution stack on the extended reals, in two arrangements

Nodes are rows `i < N`; an edge list of length `n` gives, per edge `p`, a scatter index (where its message lands) and
gather indices (which row it reads; read signed and clamped into the table). `dinv` is the per-node scale
`deg^(-1/2)`.

* The **weighted** neighbour sum multiplies every message by `dinv[src] * dinv[dst]` on the edge.
* The **plain** neighbour sum adds messages that were already scaled by `dinv` at their source row; the factor of the
  destination row is applied after the sum.

The two agree when the destination's gather index names the row the message lands on, and `dinv` is a nonnegative
real (so that multiplication by it distributes over a finite sum of extended reals).
-/

noncomputable section

open scoped BigOperators

namespace Cert.Gcn

open Idealize.ShloMosaic Idealize.ShloMosaic.StableHlo.Predicate

/-- Plain neighbour sum: row `i` collects `u` at the (clamped) source row of every edge landing on `i`. -/
def nbr {n N C : ℕ} (hN : 0 < N) (dstS srcG : Col n) (u : Mat N C) : Mat N C :=
  fun j => 0 + ∑ p ∈ into dstS (j 0).val, u (ij (clampTo N hN (srcG (ixP p))) (j 1))

/-- Weighted neighbour sum: each message is scaled on the edge by `dinv[src] * dinv[dst]`. -/
def nbrW {n N C : ℕ} (hN : 0 < N) (dstS srcG dstG : Col n) (dinv : Vct N) (h : Mat N C) : Mat N C :=
  fun j => 0 + ∑ p ∈ into dstS (j 0).val,
    h (ij (clampTo N hN (srcG (ixP p))) (j 1))
      * (dinv (Shape.Idx.ofFin (clampTo N hN (srcG (ixP p)))) * dinv (Shape.Idx.ofFin (clampTo N hN (dstG (ixP p)))))

/-- A node-side step in the plain arrangement: scale the aggregate by `dinv`, add the bias, clamp at zero, multiply
    by the weights, scale by `dinv` again (ready for the next plain neighbour sum). -/
def kstep {N K C : ℕ} (dinv : Vct N) (agg : Mat N K) (b : Vct K) (W : Mat K C) : Mat N C :=
  fun j => (∑ k : Fin K, max (agg (ij (j 0) k) * dinv (Shape.Idx.ofFin (j 0)) + b (Shape.Idx.ofFin k)) 0 * W (ij k (j 1)))
    * dinv (Shape.Idx.ofFin (j 0))

/-- The same step in the weighted arrangement: add the bias, clamp at zero, multiply by the weights. -/
def rstep {N K C : ℕ} (out : Mat N K) (b : Vct K) (W : Mat K C) : Mat N C :=
  fun j => ∑ k : Fin K, max (out (ij (j 0) k) + b (Shape.Idx.ofFin k)) 0 * W (ij k (j 1))

/-- The plain arrangement: three hidden layers and the output layer, from the pre-scaled first features `hp0`. -/
def kerOut {n N : ℕ} (hN : 0 < N) (dstS srcG : Col n) (dinv : Vct N)
    (hp0 : Mat N 32) (b0 : Vct 32) (W1 : Mat 32 32) (b1 : Vct 32) (W2 : Mat 32 32) (b2 : Vct 32) (Wmu : Mat 32 16)
    (bmu : Vct 16) : Mat N 16 :=
  fun j => nbr hN dstS srcG (kstep dinv (nbr hN dstS srcG (kstep dinv (nbr hN dstS srcG (kstep dinv
      (nbr hN dstS srcG hp0) b0 W1)) b1 W2)) b2 Wmu) j * dinv (Shape.Idx.ofFin (j 0)) + bmu (Shape.Idx.ofFin (j 1))

/-- The weighted arrangement, from the first features `h0`. -/
def refOut {n N : ℕ} (hN : 0 < N) (dstS srcG dstG : Col n) (dinv : Vct N)
    (h0 : Mat N 32) (b0 : Vct 32) (W1 : Mat 32 32) (b1 : Vct 32) (W2 : Mat 32 32) (b2 : Vct 32) (Wmu : Mat 32 16)
    (bmu : Vct 16) : Mat N 16 :=
  fun j => nbrW hN dstS srcG dstG dinv (rstep (nbrW hN dstS srcG dstG dinv (rstep (nbrW hN dstS srcG dstG dinv (rstep
      (nbrW hN dstS srcG dstG dinv h0) b0 W1)) b1 W2)) b2 Wmu) j + bmu (Shape.Idx.ofFin (j 1))

/-- (1) A nonnegative real factor distributes over a finite sum of extended reals. (The extended reals are not a
    semiring, so this is proved by induction on the index set from the two-term law for a nonnegative finite factor.) -/
theorem sum_mul_real {ι : Type} (S : Finset ι) (f : ι → EReal) (r : ℝ) (hr : 0 ≤ r) :
    (∑ p ∈ S, f p) * (r : EReal) = ∑ p ∈ S, f p * (r : EReal) := by
  classical
  induction S using Finset.induction_on with
  | empty => simp
  | insert a s ha ih =>
    rw [Finset.sum_insert ha, Finset.sum_insert ha,
      EReal.right_distrib_of_nonneg_of_ne_top (by exact_mod_cast hr) (EReal.coe_ne_top r), ih]

/-- (2) THE AGGREGATION LAW. If `hp` is `h` scaled by `dinv` at its own row, the weighted neighbour sum of `h` is the
    plain neighbour sum of `hp` scaled by `dinv` at the landing row: on every edge landing on row `i` the destination
    factor is `dinv i`, a nonnegative real, which is pulled out of the sum. -/
theorem nbrW_eq_nbr_mul {n N C : ℕ} (hN : 0 < N) (dstS srcG dstG : Col n) (dinv : Vct N)
    (hdst : ∀ (p : Fin n) (i : Fin N), (dstS (ixP p)).toInt = (i.val : ℤ) → clampTo N hN (dstG (ixP p)) = i)
    (hdinv : ∀ i : Fin N, ∃ r : ℝ, 0 ≤ r ∧ dinv (Shape.Idx.ofFin i) = (r : EReal))
    (h hp : Mat N C) (hhp : ∀ j, hp j = h j * dinv (Shape.Idx.ofFin (j 0)))
    (j : (⟨2, ![N, C]⟩ : Shape).Idx) :
    nbrW hN dstS srcG dstG dinv h j = nbr hN dstS srcG hp j * dinv (Shape.Idx.ofFin (j 0)) := by
  obtain ⟨r, hr, hrd⟩ := hdinv (j 0)
  unfold nbrW nbr
  rw [hrd, zero_add, zero_add, sum_mul_real _ _ r hr]
  refine Finset.sum_congr rfl fun p hp' => ?_
  have hmem : (dstS (ixP p)).toInt = ((j 0).val : ℤ) := by
    simpa [into] using hp'
  rw [hdst p (j 0) hmem, hrd, hhp, mul_assoc]
  rfl

/-- (3) ONE NODE-SIDE STEP. If `out` is `agg` scaled by `dinv` at its own row, the plain step on `agg` is the weighted
    step on `out` scaled by `dinv` at its own row: the two sums agree term by term. -/
theorem kstep_eq_rstep_mul {N K C : ℕ} (dinv : Vct N) (agg out : Mat N K) (b : Vct K) (W : Mat K C)
    (hout : ∀ j, out j = agg j * dinv (Shape.Idx.ofFin (j 0)))
    (j : (⟨2, ![N, C]⟩ : Shape).Idx) :
    kstep dinv agg b W j = rstep out b W j * dinv (Shape.Idx.ofFin (j 0)) := by
  have hk : ∀ k : Fin K, out (ij (j 0) k) = agg (ij (j 0) k) * dinv (Shape.Idx.ofFin (j 0)) := fun k => hout _
  unfold kstep rstep
  simp only [hk]

/-- THE TWO ARRANGEMENTS AGREE, when a landing edge's destination gather index names the row it lands on, `dinv` is a
    nonnegative real at every row, and the plain arrangement starts from the first features scaled by `dinv`. -/
theorem kerOut_eq_refOut {n N : ℕ} (hN : 0 < N) (dstS srcG dstG : Col n) (dinv : Vct N)
    (hdst : ∀ (p : Fin n) (i : Fin N), (dstS (ixP p)).toInt = (i.val : ℤ) → clampTo N hN (dstG (ixP p)) = i)
    (hdinv : ∀ i : Fin N, ∃ r : ℝ, 0 ≤ r ∧ dinv (Shape.Idx.ofFin i) = (r : EReal))
    (h0 hp0 : Mat N 32) (hhp : ∀ j, hp0 j = h0 j * dinv (Shape.Idx.ofFin (j 0)))
    (b0 : Vct 32) (W1 : Mat 32 32) (b1 : Vct 32) (W2 : Mat 32 32) (b2 : Vct 32) (Wmu : Mat 32 16) (bmu : Vct 16) :
    kerOut hN dstS srcG dinv hp0 b0 W1 b1 W2 b2 Wmu bmu = refOut hN dstS srcG dstG dinv h0 b0 W1 b1 W2 b2 Wmu bmu := by
  funext j
  unfold kerOut refOut
  -- the aggregation law and the step law alternate down the four layers
  have e0 := nbrW_eq_nbr_mul hN dstS srcG dstG dinv hdst hdinv h0 hp0 hhp
  have s1 := kstep_eq_rstep_mul dinv _ _ b0 W1 e0
  have e1 := nbrW_eq_nbr_mul hN dstS srcG dstG dinv hdst hdinv _ _ s1
  have s2 := kstep_eq_rstep_mul dinv _ _ b1 W2 e1
  have e2 := nbrW_eq_nbr_mul hN dstS srcG dstG dinv hdst hdinv _ _ s2
  have s3 := kstep_eq_rstep_mul dinv _ _ b2 Wmu e2
  have e3 := nbrW_eq_nbr_mul hN dstS srcG dstG dinv hdst hdinv _ _ s3
  rw [e3 j]

/-- The node-side step of the plain arrangement with `dinv` given as an `[N, 1]` column and the bias as a `[1, K]` row
    (the forms a tiled kernel is handed). -/
def kstepB {N K C : ℕ} (d2 : Mat N 1) (agg : Mat N K) (b2 : Mat 1 K) (W : Mat K C) : Mat N C :=
  fun j => (∑ k : Fin K, max (agg (ij (j 0) k) * d2 (ixP (j 0)) + b2 (i1q k)) 0 * W (ij k (j 1))) * d2 (ixP (j 0))

/-- The first node-side step of the plain arrangement: the dense features times their weight rows, plus a ready-made
    contribution `ec`, scaled by `dinv` (an `[N, 1]` column). -/
def kfirst {N K C : ℕ} (xf : Mat N K) (ec : Mat N C) (w : Mat K C) (d2 : Mat N 1) : Mat N C :=
  fun j => ((∑ k : Fin K, xf (ij (j 0) k) * w (ij k (j 1))) + ec j) * d2 (ixP (j 0))

end Cert.Gcn

end
-- ==== Proof.KRegion0.lean ====
import proofs.«412154_j24919400252010_3_alg».proof.Proof.Gen.KernelIdeal.Frame
import proofs.«412154_j24919400252010_3_alg».proof.Proof.Gcn
import Idealize.ShloMosaic.Lib.Pipeline.Value
import Idealize.ShloMosaic.Lib.ValueIdx
import Idealize.ShloMosaic.Lib.ValueLayout
import Idealize.ShloMosaic.PureOps.Ideal.Laws

/-!
# Region 0: the array its twenty blocks leave

Block `t` covers rows `5000 t … 5000 t + 4999` of every row-tiled window; the weights and the bias row are whole at
every point. The body's one store writes the whole output block, so the output array after the region is ONE
function of the arrays the region finds, index by index.
-/

set_option maxRecDepth 16384

noncomputable section

open scoped BigOperators

namespace Cert.Gcn

open Idealize.ShloMosaic Idealize.ShloMosaic.TcCoe Idealize.SL.Sem Idealize.ShloMosaic.StableHlo.Predicate
open Cert.KernelIdeal Cert.KernelIdeal.Gen

/-! ## Offsets and block indices -/

/-- A whole-block access starts at offset zero on both axes. -/
private theorem offsets_zero : (![0, 0] : Fin 2 → Nat) = fun _ => 0 :=
  funext fun a => by match a with | ⟨0, _⟩ => rfl | ⟨1, _⟩ => rfl

/-- The block indices at point `t`, decided over the twenty points: a row-tiled window is at block `(t, 0)`, the
    weights at block `(0, 0)`. -/
private theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The product `[5000, 7] × [7, 32]` at an index -/

/-- The left operand's row is the output's row. -/
private theorem product0_lhs_row (i : S5000x32.Idx) (q : dot_S5000x7_S7x32_S5000x32_1_0_0_1_n_n.contr.Idx) :
    (dot_S5000x7_S7x32_S5000x32_1_0_0_1_n_n.lhsIdx i q 0).val = (i 0).val := by
  unfold DotDims.lhsIdx
  rw [dif_neg (show ¬(0 : Fin S5000x7.rank) ∈ dot_S5000x7_S7x32_S5000x32_1_0_0_1_n_n.lhsBatch by decide), dif_pos (show (0 : Fin S5000x7.rank) ∈ dot_S5000x7_S7x32_S5000x32_1_0_0_1_n_n.lhsNonContracting by decide)]
  rfl
/-- The left operand's column is the contracted index. -/
private theorem product0_lhs_col (i : S5000x32.Idx) (q : dot_S5000x7_S7x32_S5000x32_1_0_0_1_n_n.contr.Idx) :
    (dot_S5000x7_S7x32_S5000x32_1_0_0_1_n_n.lhsIdx i q 1).val = (q ⟨0, by decide⟩).val :=
  dot_S5000x7_S7x32_S5000x32_1_0_0_1_n_n.lhsIdx_val_of_single rfl i q
/-- The right operand's row is the contracted index. -/
private theorem product0_rhs_row (i : S5000x32.Idx) (q : dot_S5000x7_S7x32_S5000x32_1_0_0_1_n_n.contr.Idx) :
    (dot_S5000x7_S7x32_S5000x32_1_0_0_1_n_n.rhsIdx i q 0).val = (q ⟨0, by decide⟩).val :=
  dot_S5000x7_S7x32_S5000x32_1_0_0_1_n_n.rhsIdx_val_of_single rfl i q
/-- The right operand's column is the output's column. -/
private theorem product0_rhs_col (i : S5000x32.Idx) (q : dot_S5000x7_S7x32_S5000x32_1_0_0_1_n_n.contr.Idx) :
    (dot_S5000x7_S7x32_S5000x32_1_0_0_1_n_n.rhsIdx i q 1).val = (i 1).val := by
  unfold DotDims.rhsIdx
  rw [dif_neg (show ¬(1 : Fin S7x32.rank) ∈ dot_S5000x7_S7x32_S5000x32_1_0_0_1_n_n.rhsBatch by decide), dif_pos (show (1 : Fin S7x32.rank) ∈ dot_S5000x7_S7x32_S5000x32_1_0_0_1_n_n.rhsNonContracting by decide)]
  rfl

/-- The product accumulated into zero, at row `p` and column `q`: the sum over the seven contracted indices. -/
private theorem product0_apply (a : FVec Ideal S5000x7 .bf16) (b : FVec Ideal S7x32 .bf16) (p : Fin 5000) (q : Fin 32) :
    matmul dot_S5000x7_S7x32_S5000x32_1_0_0_1_n_n none a b (constant (F := Ideal) S5000x32 .f32 0x00000000#32) (ij p q)
      = ∑ k : Fin 7, a (ij p k) * b (ij k q) := by
  simp only [matmul]
  rw [Ideal.matmul_constant_zero_apply, ← Equiv.sum_comp (ValueIdx.contrEquiv1 dot_S5000x7_S7x32_S5000x32_1_0_0_1_n_n 7 rfl rfl).symm]
  refine Finset.sum_congr rfl fun k _ => ?_
  have hk := ValueIdx.contrEquiv1_symm_val dot_S5000x7_S7x32_S5000x32_1_0_0_1_n_n 7 rfl rfl k
  have el : dot_S5000x7_S7x32_S5000x32_1_0_0_1_n_n.lhsIdx (ij p q) ((ValueIdx.contrEquiv1 dot_S5000x7_S7x32_S5000x32_1_0_0_1_n_n 7 rfl rfl).symm k) = ij p k := funext fun x => Fin.ext (by
    match x with
    | ⟨0, _⟩ => exact product0_lhs_row _ _
    | ⟨1, _⟩ => exact (product0_lhs_col _ _).trans hk)
  have er : dot_S5000x7_S7x32_S5000x32_1_0_0_1_n_n.rhsIdx (ij p q) ((ValueIdx.contrEquiv1 dot_S5000x7_S7x32_S5000x32_1_0_0_1_n_n 7 rfl rfl).symm k) = ij k q := funext fun x => Fin.ext (by
    match x with
    | ⟨0, _⟩ => exact (product0_rhs_row _ _).trans hk
    | ⟨1, _⟩ => exact product0_rhs_col _ _)
  rw [el, er]

/-! ## A column broadcast along the rows -/

/-- An `[a, 1]` column broadcast to `[a, b]` reads, at `(p, q)`, the column at row `p`. -/
private theorem column_broadcast_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ij p q) = v (ixP p) := by
  refine broadcastTo_apply v h (ij p q) (ixP p) fun ax => ?_
  match ax with
  | ⟨0, _⟩ =>
    show p.val = if a = 1 then 0 else p.val
    split
    · have := p.isLt; omega
    · rfl
  | ⟨1, _⟩ => rfl

/-! ## The body's value at an index -/

/-- The stored block at row `p`, column `q`: the features' row times the weights' column, plus the ready-made
    contribution, scaled by the row's factor. (Narrowing to the shorter format is the identity on extended reals.) -/
private theorem body0_apply (x0 : Vec Ideal S5000x7 .f32) (x2 : Vec Ideal S7x32 .bf16) (x1 : Vec Ideal S5000x32 .f32)
    (x3 : Vec Ideal S5000x1 .f32) (p : Fin 5000) (q : Fin 32) :
    k0_pay1 (F := Ideal) x0 x2 x1 x3 (ij p q) = ((∑ k : Fin 7, x0 (ij p k) * x2 (ij k q)) + x1 (ij p q)) * x3 (ixP p) := by
  have hM : matmul dot_S5000x7_S7x32_S5000x32_1_0_0_1_n_n none (truncf .bf16 x0 bitsLt_bf16_f32)
      (shapeCast S7x32 x2 shapeCasts_S7x32_S7x32) (constant (F := Ideal) S5000x32 .f32 0x00000000#32) (ij p q)
        = ∑ k : Fin 7, x0 (ij p k) * x2 (ij k q) :=
    (product0_apply _ _ p q).trans (Finset.sum_congr rfl fun k _ =>
      congrArg (x0 (ij p k) * ·) (congrFun (shapeCast_self x2 shapeCasts_S7x32_S7x32) (ij k q)))
  have hE : shapeCast S5000x32 x1 shapeCasts_S5000x32_S5000x32 (ij p q) = x1 (ij p q) :=
    congrFun (shapeCast_self x1 shapeCasts_S5000x32_S5000x32) (ij p q)
  have hD : broadcastTo S5000x32 (shapeCast S5000x1 x3 shapeCasts_S5000x1_S5000x1) broadcasts_S5000x1_S5000x32 (ij p q)
      = x3 (ixP p) :=
    (column_broadcast_apply _ _ p q).trans (congrFun (shapeCast_self x3 shapeCasts_S5000x1_S5000x1) (ixP p))
  unfold k0_pay1
  exact congrArg₂ (· * ·) (congrArg₂ (· + ·) hM hE) hD

/-! ## The input blocks, read off their arrays -/

section Blocks

variable (V : (c : Dev nD) → (b : Ref sig .tc) → Buf (Elt Ideal) ((c : Thread nD τ).loc b)) (c : Dev nD)

/-- The features' block at point `t` is rows `5000 t …` of the features, all seven columns. -/
private theorem features_block (t : Fin cfg0.N) (y : S5000x7.Idx) (i : S100000x7.Idx)
    (h0 : (i 0).val = 5000 * t.val + (y 0).val) (h1 : (i 1).val = (y 1).val) :
    (iblk0 (F := Ideal) V c 0 t : Vec Ideal S5000x7 .f32) y = (V c main_arg0 : S100000x7.Idx → EReal) i := by
  obtain ⟨e0, e1, -⟩ := block_index0 t
  show V c main_arg0 (((cfg0.win 0).blk t).view.emb y) = _
  refine congrArg (V c main_arg0) (funext fun a => Fin.ext ?_)
  match a with
  | ⟨0, _⟩ => show win0_0.index t (0 : Fin 2) * 5000 + 1 * (y 0).val = (i 0).val; omega
  | ⟨1, _⟩ => show win0_0.index t (1 : Fin 2) * 7 + 1 * (y 1).val = (i 1).val; omega

/-- The ready-made contribution's block at point `t` is rows `5000 t …` of it, all thirty-two columns. -/
private theorem contribution_block (t : Fin cfg0.N) (y : S5000x32.Idx) (i : S100000x32.Idx)
    (h0 : (i 0).val = 5000 * t.val + (y 0).val) (h1 : (i 1).val = (y 1).val) :
    (iblk0 (F := Ideal) V c 1 t : Vec Ideal S5000x32 .f32) y = (V c main_v26 : S100000x32.Idx → EReal) i := by
  obtain ⟨-, -, e0, e1, -⟩ := block_index0 t
  show V c main_v26 (((cfg0.win 1).blk t).view.emb y) = _
  refine congrArg (V c main_v26) (funext fun a => Fin.ext ?_)
  match a with
  | ⟨0, _⟩ => show win0_1.index t (0 : Fin 2) * 5000 + 1 * (y 0).val = (i 0).val; omega
  | ⟨1, _⟩ => show win0_1.index t (1 : Fin 2) * 32 + 1 * (y 1).val = (i 1).val; omega

/-- The weights' block is the whole weight slice at every point. -/
private theorem weights_block (t : Fin cfg0.N) (y : S7x32.Idx) :
    (iblk0 (F := Ideal) V c 2 t : Vec Ideal S7x32 .bf16) y = (V c main_v27 : S7x32.Idx → EReal) y := by
  obtain ⟨-, -, -, -, e0, e1, -⟩ := block_index0 t
  show V c main_v27 (((cfg0.win 2).blk t).view.emb y) = _
  refine congrArg (V c main_v27) (funext fun a => Fin.ext ?_)
  match a with
  | ⟨0, _⟩ => show win0_2.index t (0 : Fin 2) * 7 + 1 * (y 0).val = (y 0).val; omega
  | ⟨1, _⟩ => show win0_2.index t (1 : Fin 2) * 32 + 1 * (y 1).val = (y 1).val; omega

/-- The scale column's block at point `t` is rows `5000 t …` of the column. -/
private theorem scale_block (t : Fin cfg0.N) (y : S5000x1.Idx) (i : S100000x1.Idx)
    (h0 : (i 0).val = 5000 * t.val + (y 0).val) (h1 : (i 1).val = (y 1).val) :
    (iblk0 (F := Ideal) V c 3 t : Vec Ideal S5000x1 .f32) y = (V c main_v12 : S100000x1.Idx → EReal) i := by
  obtain ⟨-, -, -, -, -, -, e0, e1, -⟩ := block_index0 t
  show V c main_v12 (((cfg0.win 3).blk t).view.emb y) = _
  refine congrArg (V c main_v12) (funext fun a => Fin.ext ?_)
  match a with
  | ⟨0, _⟩ => show win0_3.index t (0 : Fin 2) * 5000 + 1 * (y 0).val = (i 0).val; omega
  | ⟨1, _⟩ => show win0_3.index t (1 : Fin 2) * 1 + 1 * (y 1).val = (i 1).val; omega

/-! ## What point `t` writes back -/

/-- Point `t` writes back block `t` of the first node-side step of the arrays the region finds. -/
private theorem written0 (t : Fin cfg0.N) :
    (dat0 (F := Ideal) V c).flushed 4 t = ((cfg0.win 4).blk t).view.read (Elt Ideal)
      (kfirst (V c main_arg0) (V c main_v26) (V c main_v27) (V c main_v12)) := by
  show (cfg0.win 4).cut (grid0.coords t) ((dat0 (F := Ideal) V c).after 4 t) = _
  rw [after0_4]
  unfold out0_4
  rw [View.canon_unit_zero offsets_zero]
  simp only [View.ld_unit_zero (S := S5000x7) offsets_zero, View.ld_unit_zero (S := S7x32) offsets_zero,
    View.ld_unit_zero (S := S5000x32) offsets_zero, View.ld_unit_zero (S := S5000x1) offsets_zero]
  obtain ⟨-, -, -, -, -, -, -, -, e0, e1⟩ := block_index0 t
  refine funext fun (j : S5000x32.Idx) => ?_
  -- where element `j` of the block sits in the array
  have hr : ((((cfg0.win 4).blk t).view.emb j) 0).val = 5000 * t.val + (j 0).val := by
    show win0_4.index t (0 : Fin 2) * 5000 + 1 * (j 0).val = _; omega
  have hc : ((((cfg0.win 4).blk t).view.emb j) 1).val = (j 1).val := by
    show win0_4.index t (1 : Fin 2) * 32 + 1 * (j 1).val = _; omega
  show k0_pay1 (F := Ideal) (iblk0 V c 0 t) (iblk0 V c 2 t) (iblk0 V c 1 t) (iblk0 V c 3 t) j
    = kfirst (V c main_arg0) (V c main_v26) (V c main_v27) (V c main_v12) (((cfg0.win 4).blk t).view.emb j)
  refine (congrArg (k0_pay1 (F := Ideal) (iblk0 V c 0 t) (iblk0 V c 2 t) (iblk0 V c 1 t) (iblk0 V c 3 t)) (ij_eta j).symm).trans ?_
  refine (body0_apply _ _ _ _ (j 0) (j 1)).trans ?_
  unfold kfirst
  refine congrArg₂ (· * ·) (congrArg₂ (· + ·) (Finset.sum_congr rfl fun k _ => congrArg₂ (· * ·) ?_ ?_) ?_) ?_
  · exact features_block V c t _ _ hr rfl
  · exact (weights_block V c t _).trans (congrArg (V c main_v27) (funext fun a => Fin.ext (by
      match a with
      | ⟨0, _⟩ => rfl
      | ⟨1, _⟩ => exact hc.symm)))
  · exact contribution_block V c t _ _ hr hc
  · exact scale_block V c t _ _ hr rfl

/-! ## The twenty blocks cover the array -/

/-- An index of the array is in point `t`'s block iff each coordinate is in the block's range on its axis. -/
private theorem mem_block0 (t : Fin cfg0.N) (i : S100000x32.Idx) :
    i ∈ ((cfg0.win 4).blk t).view.set ↔ ∀ a : Fin 2, win0_4.index t a * S5000x32.size a ≤ (i a).val
      ∧ (i a).val < win0_4.index t a * S5000x32.size a + S5000x32.size a := by
  show i ∈ ((View.whole main_v28).slice (win0_4.rect t)).set ↔ _
  rw [View.set_slice_whole, Rect.mem_set_unit]
  exact Iff.rfl

/-- Row `r` is in the block of point `r / 5000`. -/
private theorem cover0 (i : S100000x32.Idx) :
    ∃ t : Fin cfg0.N, (cfg0.win 4).flush t = true ∧ i ∈ ((cfg0.win 4).blk t).view.set := by
  have hi0 : (i 0).val < 100000 := (i 0).isLt
  have hi1 : (i 1).val < 32 := (i 1).isLt
  obtain ⟨t, ht⟩ : ∃ t : Fin cfg0.N, t.val = (i 0).val / 5000 :=
    ⟨⟨(i 0).val / 5000, lt_of_lt_of_eq (by omega) N_0.symm⟩, rfl⟩
  obtain ⟨-, -, -, -, -, -, -, -, e0, e1⟩ := block_index0 t
  refine ⟨t, flush0_4 t, ?_⟩
  rw [mem_block0]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 32 ≤ (i 1).val ∧ (i 1).val < win0_4.index t (1 : Fin 2) * 32 + 32
    omega

end Blocks

/-- The output array of region 0 after its last point, from the contents `V` the region is entered with. -/
theorem region0_arr (V : (c : Dev nD) → (b : Ref sig .tc) → Buf (Elt Ideal) ((c : Thread nD τ).loc b)) (c : Dev nD) :
    (dat0 (F := Ideal) V c).arrAt 4 cfg0.N = kfirst (V c main_arg0) (V c main_v26) (V c main_v27) (V c main_v12) :=
  (dat0 (F := Ideal) V c).arrAt_eq_of_cover 4 _ (fun t _ => written0 V c t) cover0

end Cert.Gcn

end
-- ==== Proof.KRegion1.lean ====
import proofs.«412154_j24919400252010_3_alg».proof.Proof.Gen.KernelIdeal.Frame
import proofs.«412154_j24919400252010_3_alg».proof.Proof.Gcn
import Idealize.ShloMosaic.Lib.Pipeline.Value
import Idealize.ShloMosaic.Lib.ValueIdx
import Idealize.ShloMosaic.Lib.ValueLayout
import Idealize.ShloMosaic.PureOps.Ideal.Laws

/-!
# Region 1: the array its twenty blocks leave

Block `t` covers rows `5000 t … 5000 t + 4999` of every row-tiled window; the weights and the bias row are whole at
every point. The body's one store writes the whole output block, so the output array after the region is ONE
function of the arrays the region finds, index by index.
-/

set_option maxRecDepth 16384

noncomputable section

open scoped BigOperators

namespace Cert.Gcn

open Idealize.ShloMosaic Idealize.ShloMosaic.TcCoe Idealize.SL.Sem Idealize.ShloMosaic.StableHlo.Predicate
open Cert.KernelIdeal Cert.KernelIdeal.Gen

/-- The pair of zero offsets is the constant zero. -/
private theorem zero_off : (![0, 0] : Fin 2 → Nat) = fun _ => 0 :=
  funext fun a => by match a with | ⟨0, _⟩ => rfl | ⟨1, _⟩ => rfl

/-! ## The body's value at an index -/

/-- A `[5000, 1]` column spread over 32 columns reads, at `(p, q)`, the column's entry of row `p`. -/
private theorem col_spread (x : Vec Ideal S5000x1 .f32) (p : Fin 5000) (q : Fin 32) :
    broadcastTo S5000x32 (shapeCast S5000x1 x shapeCasts_S5000x1_S5000x1) broadcasts_S5000x1_S5000x32 (ij p q)
      = x (ixP p) := by
  rw [shapeCast_self]
  refine broadcastTo_apply x _ (ij p q) (ixP p) fun a => ?_
  match a with
  | ⟨0, _⟩ => exact (if_neg (show ¬(5000 : ℕ) = 1 by decide)).symm
  | ⟨1, _⟩ => exact (if_pos rfl).symm

/-- A `[1, 32]` row spread over 5000 rows reads, at `(p, k)`, the row's entry of column `k`. -/
private theorem row_spread (x : Vec Ideal S1x32 .f32) (p : Fin 5000) (k : Fin 32) :
    broadcastTo S5000x32 (shapeCast S1x32 x shapeCasts_S1x32_S1x32) broadcasts_S1x32_S5000x32 (ij p k)
      = x (i1q k) := by
  rw [shapeCast_self]
  refine broadcastTo_apply x _ (ij p k) (i1q k) fun a => ?_
  match a with
  | ⟨0, _⟩ => exact (if_pos rfl).symm
  | ⟨1, _⟩ => exact (if_neg (show ¬(32 : ℕ) = 1 by decide)).symm

/-- The left factor of the product: the aggregate scaled by the column, plus the bias row, clamped at zero (the
    narrowing of the format is the identity on extended reals). -/
private theorem act_apply (x0 : Vec Ideal S5000x32 .f32) (x1 : Vec Ideal S5000x1 .f32) (x2 : Vec Ideal S1x32 .f32)
    (p : Fin 5000) (k : Fin 32) :
    (truncf .bf16 (maximumf (addf (mulf (shapeCast S5000x32 x0 shapeCasts_S5000x32_S5000x32)
          (broadcastTo S5000x32 (shapeCast S5000x1 x1 shapeCasts_S5000x1_S5000x1) broadcasts_S5000x1_S5000x32))
          (broadcastTo S5000x32 (shapeCast S1x32 x2 shapeCasts_S1x32_S1x32) broadcasts_S1x32_S5000x32))
        (broadcast S5000x32 (Scalar.ofBits (F := Ideal) .f32 0x00000000#32))) bitsLt_bf16_f32 : FVec Ideal S5000x32 .bf16) (ij p k)
      = max (x0 (ij p k) * x1 (ixP p) + x2 (i1q k)) 0 := by
  refine (ValueIdx.truncf_apply (φ := .f32) (ψ := .bf16) _ bitsLt_bf16_f32 (ij p k)).trans ((ValueIdx.maximumf_apply (φ := .f32) _ _ _).trans ?_)
  refine congrArg₂ max ((ValueIdx.addf_apply (φ := .f32) _ _ _).trans (congrArg₂ (· + ·) ((ValueIdx.mulf_apply (φ := .f32) _ _ _).trans ?_) (row_spread x2 p k))) ?_
  · exact congrArg₂ (· * ·) (congrFun (shapeCast_self x0 _) (ij p k)) (col_spread x1 p k)
  · exact (ValueIdx.broadcast_apply _ _).trans Ideal.ofBits_zero_f32

/-- Axis 0 of the left operand's index is the output's row. -/
private theorem lhs_axis0 (i : S5000x32.Idx) (u : dot_S5000x32_S32x32_S5000x32_1_0_0_1_n_n.contr.Idx) :
    (dot_S5000x32_S32x32_S5000x32_1_0_0_1_n_n.lhsIdx i u 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
/-- Axis 1 of the left operand's index is the contraction position. -/
private theorem lhs_axis1 (i : S5000x32.Idx) (u : dot_S5000x32_S32x32_S5000x32_1_0_0_1_n_n.contr.Idx) :
    (dot_S5000x32_S32x32_S5000x32_1_0_0_1_n_n.lhsIdx i u 1).val = (u ⟨0, by decide⟩).val :=
  dot_S5000x32_S32x32_S5000x32_1_0_0_1_n_n.lhsIdx_val_of_single rfl i u
/-- Axis 0 of the right operand's index is the contraction position. -/
private theorem rhs_axis0 (i : S5000x32.Idx) (u : dot_S5000x32_S32x32_S5000x32_1_0_0_1_n_n.contr.Idx) :
    (dot_S5000x32_S32x32_S5000x32_1_0_0_1_n_n.rhsIdx i u 0).val = (u ⟨0, by decide⟩).val :=
  dot_S5000x32_S32x32_S5000x32_1_0_0_1_n_n.rhsIdx_val_of_single rfl i u
/-- Axis 1 of the right operand's index is the output's column. -/
private theorem rhs_axis1 (i : S5000x32.Idx) (u : dot_S5000x32_S32x32_S5000x32_1_0_0_1_n_n.contr.Idx) :
    (dot_S5000x32_S32x32_S5000x32_1_0_0_1_n_n.rhsIdx i u 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- The product into a zero accumulator, at `(p, q)`: the sum over the 32 contraction positions of row `p` of the left
    factor against column `q` of the weights. -/
private theorem mm_apply (a : FVec Ideal S5000x32 .bf16) (w : Vec Ideal S32x32 .bf16) (p : Fin 5000) (q : Fin 32) :
    matmul dot_S5000x32_S32x32_S5000x32_1_0_0_1_n_n none a
        (shapeCast S32x32 w shapeCasts_S32x32_S32x32 : FVec Ideal S32x32 .bf16) (constant S5000x32 .f32 0x00000000#32) (ij p q)
      = ∑ k : Fin 32, a (ij p k) * w (ij k q) := by
  rw [shapeCast_self]
  simp only [matmul]
  rw [Ideal.matmul_constant_zero_apply,
    ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ij p q)
      ((ValueIdx.contrEquiv1 dot_S5000x32_S32x32_S5000x32_1_0_0_1_n_n 32 rfl rfl).symm k) = ij p k :=
    funext fun b => Fin.ext (by
      match b with
      | ⟨0, _⟩ => exact lhs_axis0 _ _
      | ⟨1, _⟩ => exact (lhs_axis1 _ _).trans hk)
  have er : dot_S5000x32_S32x32_S5000x32_1_0_0_1_n_n.rhsIdx (ij p q)
      ((ValueIdx.contrEquiv1 dot_S5000x32_S32x32_S5000x32_1_0_0_1_n_n 32 rfl rfl).symm k) = ij k q :=
    funext fun b => Fin.ext (by
      match b with
      | ⟨0, _⟩ => exact (rhs_axis0 _ _).trans hk
      | ⟨1, _⟩ => exact rhs_axis1 _ _)
  rw [el, er]

/-- THE BODY'S VALUE at `(p, q)`, from its five loaded blocks. -/
private theorem pay1_apply (x0 : Vec Ideal S5000x32 .f32) (x1 : Vec Ideal S5000x1 .f32) (x2 : Vec Ideal S1x32 .f32)
    (x3 : Vec Ideal S32x32 .bf16) (x4 : Vec Ideal S5000x1 .f32) (p : Fin 5000) (q : Fin 32) :
    k1_pay1 (F := Ideal) x0 x1 x2 x3 x4 (ij p q)
      = (∑ k : Fin 32, max (x0 (ij p k) * x1 (ixP p) + x2 (i1q k)) 0 * x3 (ij k q)) * x4 (ixP p) := by
  unfold k1_pay1
  refine (ValueIdx.mulf_apply (φ := .f32) _ _ _).trans (congrArg₂ (· * ·) ?_ (col_spread x4 p q))
  refine (mm_apply _ x3 p q).trans (Finset.sum_congr rfl fun k _ => ?_)
  exact congrArg (· * x3 (ij k q)) (act_apply x0 x1 x2 p k)

/-! ## The blocks the body reads and writes -/

/-- The block indices over the grid: the row-tiled windows sit at block `(t, 0)`, the bias row and the weights at block
    `(0, 0)`. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One block's value at `y` is the whole-array formula at `Y`, when the loaded blocks hold the arrays' entries of row
    `Y 0` (the aggregate's and the scale's), the whole bias row and column `Y 1` of the weights. -/
private theorem blk_val (d2 : Mat 100000 1) (agg : Mat 100000 32) (b2 : Mat 1 32) (W : Mat 32 32)
    (x0 : Vec Ideal S5000x32 .f32) (x1 : Vec Ideal S5000x1 .f32) (x2 : Vec Ideal S1x32 .f32) (x3 : Vec Ideal S32x32 .bf16)
    (y : S5000x32.Idx) (Y : S100000x32.Idx)
    (h0 : ∀ k : Fin 32, x0 (ij (y 0) k) = agg (ij (Y 0) k))
    (h1 : x1 (ixP (y 0)) = d2 (ixP (Y 0)))
    (h2 : ∀ k : Fin 32, x2 (i1q k) = b2 (i1q k))
    (h3 : ∀ k : Fin 32, x3 (ij k (y 1)) = W (ij k (Y 1))) :
    k1_pay1 (F := Ideal) x0 x1 x2 x3 x1 y = kstepB d2 agg b2 W Y := by
  refine (congrArg (k1_pay1 (F := Ideal) x0 x1 x2 x3 x1) (ij_eta y).symm).trans
    ((pay1_apply x0 x1 x2 x3 x1 (y 0) (y 1)).trans ?_)
  unfold kstepB
  rw [h1]
  refine congrArg (· * d2 (ixP (Y 0))) (Finset.sum_congr rfl fun k _ => ?_)
  rw [h0 k, h2 k, h3 k]

/-- WHAT POINT `t` WRITES BACK is block `t` of the whole-array formula of the arrays the region finds. -/
private theorem flushed_eq (V : (c : Dev nD) → (b : Ref sig .tc) → Buf (Elt Ideal) ((c : Thread nD τ).loc b)) (c : Dev nD) (t : Fin cfg1.N) :
    (dat1 (F := Ideal) V c).flushed 4 t
      = ((cfg1.win 4).blk t).view.read (Elt Ideal)
          (kstepB (V c main_v12) (V c main_v38) (V c main_v39) (V c main_v40)) := by
  show (cfg1.win 4).cut (grid1.coords t) ((dat1 (F := Ideal) V c).after 4 t) = _
  rw [after1_4]
  unfold out1_4
  rw [View.canon_unit_zero zero_off]
  simp only [View.ld_unit_zero (S := S5000x32) zero_off, View.ld_unit_zero (S := S5000x1) zero_off,
    View.ld_unit_zero (S := S1x32) zero_off, View.ld_unit_zero (S := S32x32) zero_off]
  obtain ⟨e00, e01, e10, e11, e20, e21, e30, e31, e40, e41⟩ := idx_facts t
  funext j
  have hj0 : (j 0).val < 5000 := (j 0).isLt
  have hj1 : (j 1).val < 32 := (j 1).isLt
  refine blk_val (V c main_v12) (V c main_v38) (V c main_v39) (V c main_v40)
    (iblk1 V c 0 t) (iblk1 V c 1 t) (iblk1 V c 2 t) (iblk1 V c 3 t)
    (win1_4.xinj (grid1.coords t) j) (((cfg1.win 4).blk t).view.emb j) ?_ ?_ ?_ ?_
  · -- the aggregate's block: row `5000 t + j 0`, column `k`
    intro k
    show V c main_v38 (((cfg1.win 0).blk t).view.emb (ij (win1_4.xinj (grid1.coords t) j 0) k)) = _
    refine congrArg (V c main_v38) (funext fun a => Fin.ext ?_)
    match a with
    | ⟨0, _⟩ =>
      show win1_0.index t (0 : Fin 2) * 5000 + 1 * (j 0).val = win1_4.index t (0 : Fin 2) * 5000 + 1 * (j 0).val
      omega
    | ⟨1, _⟩ =>
      show win1_0.index t (1 : Fin 2) * 32 + 1 * k.val = k.val
      omega
  · -- the scale's block: row `5000 t + j 0` of the column
    show V c main_v12 (((cfg1.win 1).blk t).view.emb (ixP (win1_4.xinj (grid1.coords t) j 0))) = _
    refine congrArg (V c main_v12) (funext fun a => Fin.ext ?_)
    match a with
    | ⟨0, _⟩ =>
      show win1_1.index t (0 : Fin 2) * 5000 + 1 * (j 0).val = win1_4.index t (0 : Fin 2) * 5000 + 1 * (j 0).val
      omega
    | ⟨1, _⟩ =>
      show win1_1.index t (1 : Fin 2) * 1 + 1 * 0 = 0
      omega
  · -- the bias row is whole at every point
    intro k
    show V c main_v39 (((cfg1.win 2).blk t).view.emb (i1q k)) = _
    refine congrArg (V c main_v39) (funext fun a => Fin.ext ?_)
    match a with
    | ⟨0, _⟩ =>
      show win1_2.index t (0 : Fin 2) * 1 + 1 * 0 = 0
      omega
    | ⟨1, _⟩ =>
      show win1_2.index t (1 : Fin 2) * 32 + 1 * k.val = k.val
      omega
  · -- the weights are whole at every point
    intro k
    show V c main_v40 (((cfg1.win 3).blk t).view.emb (ij k (win1_4.xinj (grid1.coords t) j 1))) = _
    refine congrArg (V c main_v40) (funext fun a => Fin.ext ?_)
    match a with
    | ⟨0, _⟩ =>
      show win1_3.index t (0 : Fin 2) * 32 + 1 * k.val = k.val
      omega
    | ⟨1, _⟩ =>
      show win1_3.index t (1 : Fin 2) * 32 + 1 * (j 1).val = win1_4.index t (1 : Fin 2) * 32 + 1 * (j 1).val
      omega

/-! ## From the blocks to the array -/

/-- An index of the array is in point `t`'s block iff each coordinate is in the block's range on its axis. -/
private theorem mem_blk (t : Fin cfg1.N) (i : S100000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v41).slice (win1_4.rect t)).set ↔ _
  rw [View.set_slice_whole, Rect.mem_set_unit]
  exact Iff.rfl

/-- THE TWENTY BLOCKS COVER THE ARRAY: row `r` lies in the block of point `r / 5000`, whatever the column. -/
private theorem cover (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hlt : (i 0).val / 5000 < cfg1.N := by rw [show cfg1.N = 20 from N_1]; omega
  obtain ⟨t, ht⟩ : ∃ t : Fin cfg1.N, t.val = (i 0).val / 5000 := ⟨⟨_, hlt⟩, rfl⟩
  obtain ⟨-, -, -, -, -, -, -, -, e40, e41⟩ := idx_facts t
  refine ⟨t, flush1_4 t, ?_⟩
  rw [mem_blk]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 32 ≤ (i 1).val ∧ (i 1).val < win1_4.index t (1 : Fin 2) * 32 + 32
    omega

/-- The output array of region 1 after its last point, from the contents `V` the region is entered with. -/
theorem region1_arr (V : (c : Dev nD) → (b : Ref sig .tc) → Buf (Elt Ideal) ((c : Thread nD τ).loc b)) (c : Dev nD) :
    (dat1 (F := Ideal) V c).arrAt 4 cfg1.N = kstepB (V c main_v12) (V c main_v38) (V c main_v39) (V c main_v40) :=
  (dat1 (F := Ideal) V c).arrAt_eq_of_cover 4 _ (fun t _ => flushed_eq V c t) cover

end Cert.Gcn

end
-- ==== Proof.KRegion2.lean ====
import proofs.«412154_j24919400252010_3_alg».proof.Proof.Gen.KernelIdeal.Frame
import proofs.«412154_j24919400252010_3_alg».proof.Proof.Gcn
import Idealize.ShloMosaic.Lib.Pipeline.Value
import Idealize.ShloMosaic.Lib.ValueIdx
import Idealize.ShloMosaic.Lib.ValueLayout
import Idealize.ShloMosaic.PureOps.Ideal.Laws

/-!
# Region 2: the array its twenty blocks leave

Block `t` covers rows `5000 t … 5000 t + 4999` of every row-tiled window; the weights and the bias row are whole at
every point. The body's one store writes the whole output block, so the output array after the region is ONE
function of the arrays the region finds, index by index.
-/

set_option maxRecDepth 16384

noncomputable section

open scoped BigOperators

namespace Cert.Gcn

open Idealize.ShloMosaic Idealize.ShloMosaic.TcCoe Idealize.SL.Sem Idealize.ShloMosaic.StableHlo.Predicate
open Cert.KernelIdeal Cert.KernelIdeal.Gen

/-- The pair of zero offsets is the constant zero. -/
private theorem zero_off : (![0, 0] : Fin 2 → Nat) = fun _ => 0 :=
  funext fun a => by match a with | ⟨0, _⟩ => rfl | ⟨1, _⟩ => rfl

/-! ## The body's value at an index -/

/-- A `[5000, 1]` column spread over 32 columns reads, at `(p, q)`, the column's entry of row `p`. -/
private theorem col_spread (x : Vec Ideal S5000x1 .f32) (p : Fin 5000) (q : Fin 32) :
    broadcastTo S5000x32 (shapeCast S5000x1 x shapeCasts_S5000x1_S5000x1) broadcasts_S5000x1_S5000x32 (ij p q)
      = x (ixP p) := by
  rw [shapeCast_self]
  refine broadcastTo_apply x _ (ij p q) (ixP p) fun a => ?_
  match a with
  | ⟨0, _⟩ => exact (if_neg (show ¬(5000 : ℕ) = 1 by decide)).symm
  | ⟨1, _⟩ => exact (if_pos rfl).symm

/-- A `[1, 32]` row spread over 5000 rows reads, at `(p, k)`, the row's entry of column `k`. -/
private theorem row_spread (x : Vec Ideal S1x32 .f32) (p : Fin 5000) (k : Fin 32) :
    broadcastTo S5000x32 (shapeCast S1x32 x shapeCasts_S1x32_S1x32) broadcasts_S1x32_S5000x32 (ij p k)
      = x (i1q k) := by
  rw [shapeCast_self]
  refine broadcastTo_apply x _ (ij p k) (i1q k) fun a => ?_
  match a with
  | ⟨0, _⟩ => exact (if_pos rfl).symm
  | ⟨1, _⟩ => exact (if_neg (show ¬(32 : ℕ) = 1 by decide)).symm

/-- The left factor of the product: the aggregate scaled by the column, plus the bias row, clamped at zero (the
    narrowing of the format is the identity on extended reals). -/
private theorem act_apply (x0 : Vec Ideal S5000x32 .f32) (x1 : Vec Ideal S5000x1 .f32) (x2 : Vec Ideal S1x32 .f32)
    (p : Fin 5000) (k : Fin 32) :
    (truncf .bf16 (maximumf (addf (mulf (shapeCast S5000x32 x0 shapeCasts_S5000x32_S5000x32)
          (broadcastTo S5000x32 (shapeCast S5000x1 x1 shapeCasts_S5000x1_S5000x1) broadcasts_S5000x1_S5000x32))
          (broadcastTo S5000x32 (shapeCast S1x32 x2 shapeCasts_S1x32_S1x32) broadcasts_S1x32_S5000x32))
        (broadcast S5000x32 (Scalar.ofBits (F := Ideal) .f32 0x00000000#32))) bitsLt_bf16_f32 : FVec Ideal S5000x32 .bf16) (ij p k)
      = max (x0 (ij p k) * x1 (ixP p) + x2 (i1q k)) 0 := by
  refine (ValueIdx.truncf_apply (φ := .f32) (ψ := .bf16) _ bitsLt_bf16_f32 (ij p k)).trans ((ValueIdx.maximumf_apply (φ := .f32) _ _ _).trans ?_)
  refine congrArg₂ max ((ValueIdx.addf_apply (φ := .f32) _ _ _).trans (congrArg₂ (· + ·) ((ValueIdx.mulf_apply (φ := .f32) _ _ _).trans ?_) (row_spread x2 p k))) ?_
  · exact congrArg₂ (· * ·) (congrFun (shapeCast_self x0 _) (ij p k)) (col_spread x1 p k)
  · exact (ValueIdx.broadcast_apply _ _).trans Ideal.ofBits_zero_f32

/-- Axis 0 of the left operand's index is the output's row. -/
private theorem lhs_axis0 (i : S5000x32.Idx) (u : dot_S5000x32_S32x32_S5000x32_1_0_0_1_n_n.contr.Idx) :
    (dot_S5000x32_S32x32_S5000x32_1_0_0_1_n_n.lhsIdx i u 0).val = (i 0).val := by
  unfold DotDims.lhsIdx
  rw [dif_neg (show ¬(0 : Fin S5000x32.rank) ∈ dot_S5000x32_S32x32_S5000x32_1_0_0_1_n_n.lhsBatch by decide),
    dif_pos (show (0 : Fin S5000x32.rank) ∈ dot_S5000x32_S32x32_S5000x32_1_0_0_1_n_n.lhsNonContracting by decide)]
  rfl
/-- Axis 1 of the left operand's index is the contraction position. -/
private theorem lhs_axis1 (i : S5000x32.Idx) (u : dot_S5000x32_S32x32_S5000x32_1_0_0_1_n_n.contr.Idx) :
    (dot_S5000x32_S32x32_S5000x32_1_0_0_1_n_n.lhsIdx i u 1).val = (u ⟨0, by decide⟩).val :=
  dot_S5000x32_S32x32_S5000x32_1_0_0_1_n_n.lhsIdx_val_of_single rfl i u
/-- Axis 0 of the right operand's index is the contraction position. -/
private theorem rhs_axis0 (i : S5000x32.Idx) (u : dot_S5000x32_S32x32_S5000x32_1_0_0_1_n_n.contr.Idx) :
    (dot_S5000x32_S32x32_S5000x32_1_0_0_1_n_n.rhsIdx i u 0).val = (u ⟨0, by decide⟩).val :=
  dot_S5000x32_S32x32_S5000x32_1_0_0_1_n_n.rhsIdx_val_of_single rfl i u
/-- Axis 1 of the right operand's index is the output's column. -/
private theorem rhs_axis1 (i : S5000x32.Idx) (u : dot_S5000x32_S32x32_S5000x32_1_0_0_1_n_n.contr.Idx) :
    (dot_S5000x32_S32x32_S5000x32_1_0_0_1_n_n.rhsIdx i u 1).val = (i 1).val := by
  unfold DotDims.rhsIdx
  rw [dif_neg (show ¬(1 : Fin S32x32.rank) ∈ dot_S5000x32_S32x32_S5000x32_1_0_0_1_n_n.rhsBatch by decide),
    dif_pos (show (1 : Fin S32x32.rank) ∈ dot_S5000x32_S32x32_S5000x32_1_0_0_1_n_n.rhsNonContracting by decide)]
  rfl

/-- The product into a zero accumulator, at `(p, q)`: the sum over the 32 contraction positions of row `p` of the left
    factor against column `q` of the weights. -/
private theorem mm_apply (a : FVec Ideal S5000x32 .bf16) (w : Vec Ideal S32x32 .bf16) (p : Fin 5000) (q : Fin 32) :
    matmul dot_S5000x32_S32x32_S5000x32_1_0_0_1_n_n none a
        (shapeCast S32x32 w shapeCasts_S32x32_S32x32 : FVec Ideal S32x32 .bf16) (constant S5000x32 .f32 0x00000000#32) (ij p q)
      = ∑ k : Fin 32, a (ij p k) * w (ij k q) := by
  rw [shapeCast_self]
  simp only [matmul]
  rw [Ideal.matmul_constant_zero_apply,
    ← Equiv.sum_comp (ValueIdx.contrEquiv1 dot_S5000x32_S32x32_S5000x32_1_0_0_1_n_n 32 rfl rfl).symm]
  refine Finset.sum_congr rfl fun k _ => ?_
  have hk := ValueIdx.contrEquiv1_symm_val dot_S5000x32_S32x32_S5000x32_1_0_0_1_n_n 32 rfl rfl k
  have el : dot_S5000x32_S32x32_S5000x32_1_0_0_1_n_n.lhsIdx (ij p q)
      ((ValueIdx.contrEquiv1 dot_S5000x32_S32x32_S5000x32_1_0_0_1_n_n 32 rfl rfl).symm k) = ij p k :=
    funext fun b => Fin.ext (by
      match b with
      | ⟨0, _⟩ => exact lhs_axis0 _ _
      | ⟨1, _⟩ => exact (lhs_axis1 _ _).trans hk)
  have er : dot_S5000x32_S32x32_S5000x32_1_0_0_1_n_n.rhsIdx (ij p q)
      ((ValueIdx.contrEquiv1 dot_S5000x32_S32x32_S5000x32_1_0_0_1_n_n 32 rfl rfl).symm k) = ij k q :=
    funext fun b => Fin.ext (by
      match b with
      | ⟨0, _⟩ => exact (rhs_axis0 _ _).trans hk
      | ⟨1, _⟩ => exact rhs_axis1 _ _)
  rw [el, er]

/-- THE BODY'S VALUE at `(p, q)`, from its five loaded blocks. -/
private theorem pay2_apply (x0 : Vec Ideal S5000x32 .f32) (x1 : Vec Ideal S5000x1 .f32) (x2 : Vec Ideal S1x32 .f32)
    (x3 : Vec Ideal S32x32 .bf16) (x4 : Vec Ideal S5000x1 .f32) (p : Fin 5000) (q : Fin 32) :
    k2_pay1 (F := Ideal) x0 x1 x2 x3 x4 (ij p q)
      = (∑ k : Fin 32, max (x0 (ij p k) * x1 (ixP p) + x2 (i1q k)) 0 * x3 (ij k q)) * x4 (ixP p) := by
  unfold k2_pay1
  refine (ValueIdx.mulf_apply (φ := .f32) _ _ _).trans (congrArg₂ (· * ·) ?_ (col_spread x4 p q))
  refine (mm_apply _ x3 p q).trans (Finset.sum_congr rfl fun k _ => ?_)
  exact congrArg (· * x3 (ij k q)) (act_apply x0 x1 x2 p k)

/-! ## The blocks the body reads and writes -/

/-- The block indices over the grid: the row-tiled windows sit at block `(t, 0)`, the bias row and the weights at block
    `(0, 0)`. -/
private theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- One block's value at `y` is the whole-array formula at `Y`, when the loaded blocks hold the arrays' entries of row
    `Y 0` (the aggregate's and the scale's), the whole bias row and column `Y 1` of the weights. -/
private theorem blk_val (d2 : Mat 100000 1) (agg : Mat 100000 32) (b2 : Mat 1 32) (W : Mat 32 32)
    (x0 : Vec Ideal S5000x32 .f32) (x1 : Vec Ideal S5000x1 .f32) (x2 : Vec Ideal S1x32 .f32) (x3 : Vec Ideal S32x32 .bf16)
    (y : S5000x32.Idx) (Y : S100000x32.Idx)
    (h0 : ∀ k : Fin 32, x0 (ij (y 0) k) = agg (ij (Y 0) k))
    (h1 : x1 (ixP (y 0)) = d2 (ixP (Y 0)))
    (h2 : ∀ k : Fin 32, x2 (i1q k) = b2 (i1q k))
    (h3 : ∀ k : Fin 32, x3 (ij k (y 1)) = W (ij k (Y 1))) :
    k2_pay1 (F := Ideal) x0 x1 x2 x3 x1 y = kstepB d2 agg b2 W Y := by
  refine (congrArg (k2_pay1 (F := Ideal) x0 x1 x2 x3 x1) (ij_eta y).symm).trans
    ((pay2_apply x0 x1 x2 x3 x1 (y 0) (y 1)).trans ?_)
  unfold kstepB
  rw [h1]
  refine congrArg (· * d2 (ixP (Y 0))) (Finset.sum_congr rfl fun k _ => ?_)
  rw [h0 k, h2 k, h3 k]

/-- WHAT POINT `t` WRITES BACK is block `t` of the whole-array formula of the arrays the region finds. -/
private theorem flushed_eq (V : (c : Dev nD) → (b : Ref sig .tc) → Buf (Elt Ideal) ((c : Thread nD τ).loc b)) (c : Dev nD) (t : Fin cfg2.N) :
    (dat2 (F := Ideal) V c).flushed 4 t
      = ((cfg2.win 4).blk t).view.read (Elt Ideal)
          (kstepB (V c main_v12) (V c main_v51) (V c main_v52) (V c main_v53)) := by
  show (cfg2.win 4).cut (grid2.coords t) ((dat2 (F := Ideal) V c).after 4 t) = _
  rw [after2_4]
  unfold out2_4
  rw [View.canon_unit_zero zero_off]
  simp only [View.ld_unit_zero (S := S5000x32) zero_off, View.ld_unit_zero (S := S5000x1) zero_off,
    View.ld_unit_zero (S := S1x32) zero_off, View.ld_unit_zero (S := S32x32) zero_off]
  obtain ⟨e00, e01, e10, e11, e20, e21, e30, e31, e40, e41⟩ := idx_facts t
  funext j
  have hj0 : (j 0).val < 5000 := (j 0).isLt
  have hj1 : (j 1).val < 32 := (j 1).isLt
  refine blk_val (V c main_v12) (V c main_v51) (V c main_v52) (V c main_v53)
    (iblk2 V c 0 t) (iblk2 V c 1 t) (iblk2 V c 2 t) (iblk2 V c 3 t)
    (win2_4.xinj (grid2.coords t) j) (((cfg2.win 4).blk t).view.emb j) ?_ ?_ ?_ ?_
  · -- the aggregate's block: row `5000 t + j 0`, column `k`
    intro k
    show V c main_v51 (((cfg2.win 0).blk t).view.emb (ij (win2_4.xinj (grid2.coords t) j 0) k)) = _
    refine congrArg (V c main_v51) (funext fun a => Fin.ext ?_)
    match a with
    | ⟨0, _⟩ =>
      show win2_0.index t (0 : Fin 2) * 5000 + 1 * (j 0).val = win2_4.index t (0 : Fin 2) * 5000 + 1 * (j 0).val
      omega
    | ⟨1, _⟩ =>
      show win2_0.index t (1 : Fin 2) * 32 + 1 * k.val = k.val
      omega
  · -- the scale's block: row `5000 t + j 0` of the column
    show V c main_v12 (((cfg2.win 1).blk t).view.emb (ixP (win2_4.xinj (grid2.coords t) j 0))) = _
    refine congrArg (V c main_v12) (funext fun a => Fin.ext ?_)
    match a with
    | ⟨0, _⟩ =>
      show win2_1.index t (0 : Fin 2) * 5000 + 1 * (j 0).val = win2_4.index t (0 : Fin 2) * 5000 + 1 * (j 0).val
      omega
    | ⟨1, _⟩ =>
      show win2_1.index t (1 : Fin 2) * 1 + 1 * 0 = 0
      omega
  · -- the bias row is whole at every point
    intro k
    show V c main_v52 (((cfg2.win 2).blk t).view.emb (i1q k)) = _
    refine congrArg (V c main_v52) (funext fun a => Fin.ext ?_)
    match a with
    | ⟨0, _⟩ =>
      show win2_2.index t (0 : Fin 2) * 1 + 1 * 0 = 0
      omega
    | ⟨1, _⟩ =>
      show win2_2.index t (1 : Fin 2) * 32 + 1 * k.val = k.val
      omega
  · -- the weights are whole at every point
    intro k
    show V c main_v53 (((cfg2.win 3).blk t).view.emb (ij k (win2_4.xinj (grid2.coords t) j 1))) = _
    refine congrArg (V c main_v53) (funext fun a => Fin.ext ?_)
    match a with
    | ⟨0, _⟩ =>
      show win2_3.index t (0 : Fin 2) * 32 + 1 * k.val = k.val
      omega
    | ⟨1, _⟩ =>
      show win2_3.index t (1 : Fin 2) * 32 + 1 * (j 1).val = win2_4.index t (1 : Fin 2) * 32 + 1 * (j 1).val
      omega

/-! ## From the blocks to the array -/

/-- An index of the array is in point `t`'s block iff each coordinate is in the block's range on its axis. -/
private theorem mem_blk (t : Fin cfg2.N) (i : S100000x32.Idx) :
    i ∈ ((cfg2.win 4).blk t).view.set ↔ ∀ a : Fin 2, win2_4.index t a * S5000x32.size a ≤ (i a).val
      ∧ (i a).val < win2_4.index t a * S5000x32.size a + S5000x32.size a := by
  show i ∈ ((View.whole main_v54).slice (win2_4.rect t)).set ↔ _
  rw [View.set_slice_whole, Rect.mem_set_unit]
  exact Iff.rfl

/-- THE TWENTY BLOCKS COVER THE ARRAY: row `r` lies in the block of point `r / 5000`, whatever the column. -/
private theorem cover (i : S100000x32.Idx) :
    ∃ t : Fin cfg2.N, (cfg2.win 4).flush t = true ∧ i ∈ ((cfg2.win 4).blk t).view.set := by
  have hi0 : (i 0).val < 100000 := (i 0).isLt
  have hi1 : (i 1).val < 32 := (i 1).isLt
  have hlt : (i 0).val / 5000 < cfg2.N := by rw [show cfg2.N = 20 from N_2]; omega
  obtain ⟨t, ht⟩ : ∃ t : Fin cfg2.N, t.val = (i 0).val / 5000 := ⟨⟨_, hlt⟩, rfl⟩
  obtain ⟨-, -, -, -, -, -, -, -, e40, e41⟩ := idx_facts t
  refine ⟨t, flush2_4 t, ?_⟩
  rw [mem_blk]
  intro a
  match a with
  | ⟨0, _⟩ =>
    show win2_4.index t (0 : Fin 2) * 5000 ≤ (i 0).val ∧ (i 0).val < win2_4.index t (0 : Fin 2) * 5000 + 5000
    omega
  | ⟨1, _⟩ =>
    show win2_4.index t (1 : Fin 2) * 32 ≤ (i 1).val ∧ (i 1).val < win2_4.index t (1 : Fin 2) * 32 + 32
    omega

/-- The output array of region 2 after its last point, from the contents `V` the region is entered with. -/
theorem region2_arr (V : (c : Dev nD) → (b : Ref sig .tc) → Buf (Elt Ideal) ((c : Thread nD τ).loc b)) (c : Dev nD) :
    (dat2 (F := Ideal) V c).arrAt 4 cfg2.N = kstepB (V c main_v12) (V c main_v51) (V c main_v52) (V c main_v53) :=
  (dat2 (F := Ideal) V c).arrAt_eq_of_cover 4 _ (fun t _ => flushed_eq V c t) cover

end Cert.Gcn

end
-- ==== Proof.KRegion3.lean ====
import proofs.«412154_j24919400252010_3_alg».proof.Proof.Gen.KernelIdeal.Frame
import proofs.«412154_j24919400252010_3_alg».proof.Proof.Gcn
import Idealize.ShloMosaic.Lib.Pipeline.Value
import Idealize.ShloMosaic.Lib.ValueIdx
import Idealize.ShloMosaic.Lib.ValueLayout
import Idealize.ShloMosaic.PureOps.Ideal.Laws

/-!
# Region 3: the array its twenty blocks leave

Block `t` covers rows `5000 t … 5000 t + 4999` of every row-tiled window; the weights and the bias row are whole at
every point. The body's one store writes the whole output block, so the output array after the region is ONE
function of the arrays the region finds, index by index.
-/

set_option maxRecDepth 16384

noncomputable section

open scoped BigOperators

namespace Cert.Gcn

open Idealize.ShloMosaic Idealize.ShloMosaic.TcCoe Idealize.SL.Sem Idealize.ShloMosaic.StableHlo.Predicate
open Cert.KernelIdeal Cert.KernelIdeal.Gen

/-- The pair of zero offsets is the constant zero. -/
private theorem zero_off : (![0, 0] : Fin 2 → Nat) = fun _ => 0 :=
  funext fun a => by match a with | ⟨0, _⟩ => rfl | ⟨1, _⟩ => rfl

/-! ## The body's value at an index -/

/-- A `[5000, 1]` column spread over 32 columns reads, at `(p, q)`, the column's entry of row `p`. -/
private theorem col_spread (x : Vec Ideal S5000x1 .f32) (p : Fin 5000) (q : Fin 32) :
    broadcastTo S5000x32 (shapeCast S5000x1 x shapeCasts_S5000x1_S5000x1) broadcasts_S5000x1_S5000x32 (ij p q)
      = x (ixP p) := by
  rw [shapeCast_self]
  refine broadcastTo_apply x _ (ij p q) (ixP p) fun a => ?_
  match a with
  | ⟨0, _⟩ => exact (if_neg (show ¬(5000 : ℕ) = 1 by decide)).symm
  | ⟨1, _⟩ => exact (if_pos rfl).symm

/-- A `[1, 32]` row spread over 5000 rows reads, at `(p, k)`, the row's entry of column `k`. -/
private theorem row_spread (x : Vec Ideal S1x32 .f32) (p : Fin 5000) (k : Fin 32) :
    broadcastTo S5000x32 (shapeCast S1x32 x shapeCasts_S1x32_S1x32) broadcasts_S1x32_S5000x32 (ij p k)
      = x (i1q k) := by
  rw [shapeCast_self]
  refine broadcastTo_apply x _ (ij p k) (i1q k) fun a => ?_
  match a with
  | ⟨0, _⟩ => exact (if_pos rfl).symm
  | ⟨1, _⟩ => exact (if_neg (show ¬(32 : ℕ) = 1 by decide)).symm

/-- A `[5000, 1]` column spread over 16 columns reads, at `(p, q)`, the column's entry of row `p`. -/
private theorem col_spread16 (x : Vec Ideal S5000x1 .f32) (p : Fin 5000) (q : Fin 16) :
    broadcastTo S5000x16 (shapeCast S5000x1 x shapeCasts_S5000x1_S5000x1) broadcasts_S5000x1_S5000x16 (ij p q)
      = x (ixP p) := by
  rw [shapeCast_self]
  refine broadcastTo_apply x _ (ij p q) (ixP p) fun a => ?_
  match a with
  | ⟨0, _⟩ => exact (if_neg (show ¬(5000 : ℕ) = 1 by decide)).symm
  | ⟨1, _⟩ => exact (if_pos rfl).symm

/-- The left factor of the product: the aggregate scaled by the column, plus the bias row, clamped at zero (the
    narrowing of the format is the identity on extended reals). -/
private theorem act_apply (x0 : Vec Ideal S5000x32 .f32) (x1 : Vec Ideal S5000x1 .f32) (x2 : Vec Ideal S1x32 .f32)
    (p : Fin 5000) (k : Fin 32) :
    (truncf .bf16 (maximumf (addf (mulf (shapeCast S5000x32 x0 shapeCasts_S5000x32_S5000x32)
          (broadcastTo S5000x32 (shapeCast S5000x1 x1 shapeCasts_S5000x1_S5000x1) broadcasts_S5000x1_S5000x32))
          (broadcastTo S5000x32 (shapeCast S1x32 x2 shapeCasts_S1x32_S1x32) broadcasts_S1x32_S5000x32))
        (broadcast S5000x32 (Scalar.ofBits (F := Ideal) .f32 0x00000000#32))) bitsLt_bf16_f32 : FVec Ideal S5000x32 .bf16) (ij p k)
      = max (x0 (ij p k) * x1 (ixP p) + x2 (i1q k)) 0 := by
  refine (ValueIdx.truncf_apply (φ := .f32) (ψ := .bf16) _ bitsLt_bf16_f32 (ij p k)).trans ((ValueIdx.maximumf_apply (φ := .f32) _ _ _).trans ?_)
  refine congrArg₂ max ((ValueIdx.addf_apply (φ := .f32) _ _ _).trans (congrArg₂ (· + ·) ((ValueIdx.mulf_apply (φ := .f32) _ _ _).trans ?_) (row_spread x2 p k))) ?_
  · exact congrArg₂ (· * ·) (congrFun (shapeCast_self x0 _) (ij p k)) (col_spread x1 p k)
  · exact (ValueIdx.broadcast_apply _ _).trans Ideal.ofBits_zero_f32

/-- Axis 0 of the left operand's index is the output's row. -/
private theorem lhs_axis0 (i : S5000x16.Idx) (u : dot_S5000x32_S32x16_S5000x16_1_0_0_1_n_n.contr.Idx) :
    (dot_S5000x32_S32x16_S5000x16_1_0_0_1_n_n.lhsIdx i u 0).val = (i 0).val := by
  unfold DotDims.lhsIdx
  rw [dif_neg (show ¬(0 : Fin S5000x32.rank) ∈ dot_S5000x32_S32x16_S5000x16_1_0_0_1_n_n.lhsBatch by decide),
    dif_pos (show (0 : Fin S5000x32.rank) ∈ dot_S5000x32_S32x16_S5000x16_1_0_0_1_n_n.lhsNonContracting by decide)]
  rfl
/-- Axis 1 of the left operand's index is the contraction position. -/
private theorem lhs_axis1 (i : S5000x16.Idx) (u : dot_S5000x32_S32x16_S5000x16_1_0_0_1_n_n.contr.Idx) :
    (dot_S5000x32_S32x16_S5000x16_1_0_0_1_n_n.lhsIdx i u 1).val = (u ⟨0, by decide⟩).val :=
  dot_S5000x32_S32x16_S5000x16_1_0_0_1_n_n.lhsIdx_val_of_single rfl i u
/-- Axis 0 of the right operand's index is the contraction position. -/
private theorem rhs_axis0 (i : S5000x16.Idx) (u : dot_S5000x32_S32x16_S5000x16_1_0_0_1_n_n.contr.Idx) :
    (dot_S5000x32_S32x16_S5000x16_1_0_0_1_n_n.rhsIdx i u 0).val = (u ⟨0, by decide⟩).val :=
  dot_S5000x32_S32x16_S5000x16_1_0_0_1_n_n.rhsIdx_val_of_single rfl i u
/-- Axis 1 of the right operand's index is the output's column. -/
private theorem rhs_axis1 (i : S5000x16.Idx) (u : dot_S5000x32_S32x16_S5000x16_1_0_0_1_n_n.contr.Idx) :
    (dot_S5000x32_S32x16_S5000x16_1_0_0_1_n_n.rhsIdx i u 1).val = (i 1).val := by
  unfold DotDims.rhsIdx
  rw [dif_neg (show ¬(1 : Fin S32x16.rank) ∈ dot_S5000x32_S32x16_S5000x16_1_0_0_1_n_n.rhsBatch by decide),
    dif_pos (show (1 : Fin S32x16.rank) ∈ dot_S5000x32_S32x16_S5000x16_1_0_0_1_n_n.rhsNonContracting by decide)]
  rfl

/-- The product into a zero accumulator, at `(p, q)`: the sum over the 32 contraction positions of row `p` of the left
    factor against column `q` of the weights. -/
private theorem mm_apply (a : FVec Ideal S5000x32 .bf16) (w : Vec Ideal S32x16 .bf16) (p : Fin 5000) (q : Fin 16) :
    matmul dot_S5000x32_S32x16_S5000x16_1_0_0_1_n_n none a
        (shapeCast S32x16 w shapeCasts_S32x16_S32x16 : FVec Ideal S32x16 .bf16) (constant S5000x16 .f32 0x00000000#32) (ij p q)
      = ∑ k : Fin 32, a (ij p k) * w (ij k q) := by
  rw [shapeCast_self]
  simp only [matmul]
  rw [Ideal.matmul_constant_zero_apply,
    ← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ij p q)
      ((ValueIdx.contrEquiv1 dot_S5000x32_S32x16_S5000x16_1_0_0_1_n_n 32 rfl rfl).symm k) = ij p k :=
    funext fun b => Fin.ext (by
      match b with
      | ⟨0, _⟩ => exact lhs_axis0 _ _
      | ⟨1, _⟩ => exact (lhs_axis1 _ _).trans hk)
  have er : dot_S5000x32_S32x16_S5000x16_1_0_0_1_n_n.rhsIdx (ij p q)
      ((ValueIdx.contrEquiv1 dot_S5000x32_S32x16_S5000x16_1_0_0_1_n_n 32 rfl rfl).symm k) = ij k q :=
    funext fun b => Fin.ext (by
      match b with
      | ⟨0, _⟩ => exact (rhs_axis0 _ _).trans hk
      | ⟨1, _⟩ => exact rhs_axis1 _ _)
  rw [el, er]

/-- THE BODY'S VALUE at `(p, q)`, from its five loaded blocks. -/
private theorem pay3_apply (x0 : Vec Ideal S5000x32 .f32) (x1 : Vec Ideal S5000x1 .f32) (x2 : Vec Ideal S1x32 .f32)
    (x3 : Vec Ideal S32x16 .bf16) (x4 : Vec Ideal S5000x1 .f32) (p : Fin 5000) (q : Fin 16) :
    k3_pay1 (F := Ideal) x0 x1 x2 x3 x4 (ij p q)
      = (∑ k : Fin 32, max (x0 (ij p k) * x1 (ixP p) + x2 (i1q k)) 0 * x3 (ij k q)) * x4 (ixP p) := by
  unfold k3_pay1
  refine (ValueIdx.mulf_apply (φ := .f32) _ _ _).trans (congrArg₂ (· * ·) ?_ (col_spread16 x4 p q))
  refine (mm_apply _ x3 p q).trans (Finset.sum_congr rfl fun k _ => ?_)
  exact congrArg (· * x3 (ij k q)) (act_apply x0 x1 x2 p k)

/-! ## The blocks the body reads and writes -/

/-- The block indices over the grid: the row-tiled windows sit at block `(t, 0)`, the bias row and the weights at block
    `(0, 0)`. -/
private theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One block's value at `y` is the whole-array formula at `Y`, when the loaded blocks hold the arrays' entries of row
    `Y 0` (the aggregate's and the scale's), the whole bias row and column `Y 1` of the weights. -/
private theorem blk_val (d2 : Mat 100000 1) (agg : Mat 100000 32) (b2 : Mat 1 32) (W : Mat 32 16)
    (x0 : Vec Ideal S5000x32 .f32) (x1 : Vec Ideal S5000x1 .f32) (x2 : Vec Ideal S1x32 .f32) (x3 : Vec Ideal S32x16 .bf16)
    (y : S5000x16.Idx) (Y : S100000x16.Idx)
    (h0 : ∀ k : Fin 32, x0 (ij (y 0) k) = agg (ij (Y 0) k))
    (h1 : x1 (ixP (y 0)) = d2 (ixP (Y 0)))
    (h2 : ∀ k : Fin 32, x2 (i1q k) = b2 (i1q k))
    (h3 : ∀ k : Fin 32, x3 (ij k (y 1)) = W (ij k (Y 1))) :
    k3_pay1 (F := Ideal) x0 x1 x2 x3 x1 y = kstepB d2 agg b2 W Y := by
  refine (congrArg (k3_pay1 (F := Ideal) x0 x1 x2 x3 x1) (ij_eta y).symm).trans
    ((pay3_apply x0 x1 x2 x3 x1 (y 0) (y 1)).trans ?_)
  unfold kstepB
  rw [h1]
  refine congrArg (· * d2 (ixP (Y 0))) (Finset.sum_congr rfl fun k _ => ?_)
  rw [h0 k, h2 k, h3 k]

/-- WHAT POINT `t` WRITES BACK is block `t` of the whole-array formula of the arrays the region finds. -/
private theorem flushed_eq (V : (c : Dev nD) → (b : Ref sig .tc) → Buf (Elt Ideal) ((c : Thread nD τ).loc b)) (c : Dev nD) (t : Fin cfg3.N) :
    (dat3 (F := Ideal) V c).flushed 4 t
      = ((cfg3.win 4).blk t).view.read (Elt Ideal)
          (kstepB (V c main_v12) (V c main_v64) (V c main_v65) (V c main_v66)) := by
  show (cfg3.win 4).cut (grid3.coords t) ((dat3 (F := Ideal) V c).after 4 t) = _
  rw [after3_4]
  unfold out3_4
  rw [View.canon_unit_zero zero_off]
  simp only [View.ld_unit_zero (S := S5000x32) zero_off, View.ld_unit_zero (S := S5000x1) zero_off,
    View.ld_unit_zero (S := S1x32) zero_off, View.ld_unit_zero (S := S32x16) zero_off]
  obtain ⟨e00, e01, e10, e11, e20, e21, e30, e31, e40, e41⟩ := idx_facts t
  funext j
  have hj0 : (j 0).val < 5000 := (j 0).isLt
  have hj1 : (j 1).val < 16 := (j 1).isLt
  refine blk_val (V c main_v12) (V c main_v64) (V c main_v65) (V c main_v66)
    (iblk3 V c 0 t) (iblk3 V c 1 t) (iblk3 V c 2 t) (iblk3 V c 3 t)
    (win3_4.xinj (grid3.coords t) j) (((cfg3.win 4).blk t).view.emb j) ?_ ?_ ?_ ?_
  · -- the aggregate's block: row `5000 t + j 0`, column `k`
    intro k
    show V c main_v64 (((cfg3.win 0).blk t).view.emb (ij (win3_4.xinj (grid3.coords t) j 0) k)) = _
    refine congrArg (V c main_v64) (funext fun a => Fin.ext ?_)
    match a with
    | ⟨0, _⟩ =>
      show win3_0.index t (0 : Fin 2) * 5000 + 1 * (j 0).val = win3_4.index t (0 : Fin 2) * 5000 + 1 * (j 0).val
      omega
    | ⟨1, _⟩ =>
      show win3_0.index t (1 : Fin 2) * 32 + 1 * k.val = k.val
      omega
  · -- the scale's block: row `5000 t + j 0` of the column
    show V c main_v12 (((cfg3.win 1).blk t).view.emb (ixP (win3_4.xinj (grid3.coords t) j 0))) = _
    refine congrArg (V c main_v12) (funext fun a => Fin.ext ?_)
    match a with
    | ⟨0, _⟩ =>
      show win3_1.index t (0 : Fin 2) * 5000 + 1 * (j 0).val = win3_4.index t (0 : Fin 2) * 5000 + 1 * (j 0).val
      omega
    | ⟨1, _⟩ =>
      show win3_1.index t (1 : Fin 2) * 1 + 1 * 0 = 0
      omega
  · -- the bias row is whole at every point
    intro k
    show V c main_v65 (((cfg3.win 2).blk t).view.emb (i1q k)) = _
    refine congrArg (V c main_v65) (funext fun a => Fin.ext ?_)
    match a with
    | ⟨0, _⟩ =>
      show win3_2.index t (0 : Fin 2) * 1 + 1 * 0 = 0
      omega
    | ⟨1, _⟩ =>
      show win3_2.index t (1 : Fin 2) * 32 + 1 * k.val = k.val
      omega
  · -- the weights are whole at every point
    intro k
    show V c main_v66 (((cfg3.win 3).blk t).view.emb (ij k (win3_4.xinj (grid3.coords t) j 1))) = _
    refine congrArg (V c main_v66) (funext fun a => Fin.ext ?_)
    match a with
    | ⟨0, _⟩ =>
      show win3_3.index t (0 : Fin 2) * 32 + 1 * k.val = k.val
      omega
    | ⟨1, _⟩ =>
      show win3_3.index t (1 : Fin 2) * 16 + 1 * (j 1).val = win3_4.index t (1 : Fin 2) * 16 + 1 * (j 1).val
      omega

/-! ## From the blocks to the array -/

/-- An index of the array is in point `t`'s block iff each coordinate is in the block's range on its axis. -/
private theorem mem_blk (t : Fin cfg3.N) (i : S100000x16.Idx) :
    i ∈ ((cfg3.win 4).blk t).view.set ↔ ∀ a : Fin 2, win3_4.index t a * S5000x16.size a ≤ (i a).val
      ∧ (i a).val < win3_4.index t a * S5000x16.size a + S5000x16.size a := by
  show i ∈ ((View.whole main_v67).slice (win3_4.rect t)).set ↔ _
  rw [View.set_slice_whole, Rect.mem_set_unit]
  exact Iff.rfl

/-- THE TWENTY BLOCKS COVER THE ARRAY: row `r` lies in the block of point `r / 5000`, whatever the column. -/
private theorem cover (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hlt : (i 0).val / 5000 < cfg3.N := by rw [show cfg3.N = 20 from N_3]; omega
  obtain ⟨t, ht⟩ : ∃ t : Fin cfg3.N, t.val = (i 0).val / 5000 := ⟨⟨_, hlt⟩, rfl⟩
  obtain ⟨-, -, -, -, -, -, -, -, e40, e41⟩ := idx_facts t
  refine ⟨t, flush3_4 t, ?_⟩
  rw [mem_blk]
  intro a
  match a with
  | ⟨0, _⟩ =>
    show win3_4.index t (0 : Fin 2) * 5000 ≤ (i 0).val ∧ (i 0).val < win3_4.index t (0 : Fin 2) * 5000 + 5000
    omega
  | ⟨1, _⟩ =>
    show win3_4.index t (1 : Fin 2) * 16 ≤ (i 1).val ∧ (i 1).val < win3_4.index t (1 : Fin 2) * 16 + 16
    omega

/-- The output array of region 3 after its last point, from the contents `V` the region is entered with. -/
theorem region3_arr (V : (c : Dev nD) → (b : Ref sig .tc) → Buf (Elt Ideal) ((c : Thread nD τ).loc b)) (c : Dev nD) :
    (dat3 (F := Ideal) V c).arrAt 4 cfg3.N = kstepB (V c main_v12) (V c main_v64) (V c main_v65) (V c main_v66) :=
  (dat3 (F := Ideal) V c).arrAt_eq_of_cover 4 _ (fun t _ => flushed_eq V c t) cover

end Cert.Gcn

end
-- ==== Proof.Graph.lean ====
import proofs.«412154_j24919400252010_3_alg».proof.KernelIdeal
import Idealize.ShloMosaic.PureOps.Ideal
import Idealize.ShloMosaic.Lib.StableHlo.Predicate

/-!
# The graph side of the program, as host terms of the edge list

Both programs build the same things from the edge list `ei : i32[2, 3200000]` before any feature arithmetic:
the source and destination of every edge with one self loop per node appended (`srcV`, `dstV`), the gather
indices (a negative index wrapped once by the table's height, then laid as a column: `srcG`, `dstG`), the scatter
index (`dstS`: the destination as a column, not wrapped), the in-degree with self loops as an accumulating scatter
of ones (`deg`), and `dinv = deg^(-1/2)`. They are spelt here once, with the operations the programs print, so
that each program's buffers can be matched against ONE term.

Beside them: the plain aggregation of a feature matrix as a whole-array term (`aggT32`, `aggT16`), and the first
layer's embedding contribution and weight slices in the arrangement that multiplies the embedding table by its
weight rows before the lookup.
-/

noncomputable section

open scoped BigOperators

namespace Cert.Gcn

open Idealize.ShloMosaic Cert.KernelIdeal Cert.KernelIdeal.Facts₀

variable [Cert.KernelIdeal.Facts]

/-- Row `r` of the edge list, with the self loops `0, 1, …, N-1` appended. -/
def edgeRow0 (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0
def edgeRow1 (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- The sources and the destinations of the edges, self loops included. -/
abbrev srcV (ei : IVec S2x3200000 32) : IVec S3300000 32 := edgeRow0 ei
abbrev dstV (ei : IVec S2x3200000 32) : IVec S3300000 32 := edgeRow1 ei

/-- A negative index wrapped once by the table's height `100000` (jnp's indexing). -/
def wrapN (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- A vector of edge indices as an `[n, 1]` column. -/
def col (v : IVec S3300000 32) : IVec S3300000x1 32 := broadcastInDim S3300000x1 ![0] bcast_S3300000_S3300000x1_0 v

/-- The gather column of the sources, of the destinations; the scatter column of the destinations. -/
def srcG (ei : IVec S2x3200000 32) : IVec S3300000x1 32 := col (wrapN (srcV ei))
def dstG (ei : IVec S2x3200000 32) : IVec S3300000x1 32 := col (wrapN (dstV ei))
def dstS (ei : IVec S2x3200000 32) : IVec S3300000x1 32 := col (dstV ei)

/-- The in-degree, self loops included: ones accumulated at the destinations. -/
def deg (ei : IVec S2x3200000 32) : FVec Ideal S100000 .f32 :=
  Host.scatterAdd scatter_S100000_S3300000x1_S3300000_n_0_0_1
    (broadcastInDim S100000 ![] bcast_S_S100000 (constant S_ .f32 0x00000000#32)) (dstS ei)
    (broadcastInDim S3300000 ![] bcast_S_S3300000 (constant S_ .f32 0x3F800000#32))

/-- `deg^(-1/2)`, per node; and the same as an `[N, 1]` column. -/
def dinv (ei : IVec S2x3200000 32) : FVec Ideal S100000 .f32 := Host.rsqrt (deg ei)
def dinv2 (ei : IVec S2x3200000 32) : FVec Ideal S100000x1 .f32 := shapeCast S100000x1 (dinv ei) shapeCasts_S100000_S100000x1

/-- The plain aggregation of a 32-column feature matrix: gather the source rows, accumulate at the destinations. -/
def aggT32 (ei : IVec S2x3200000 32) (u : FVec Ideal S100000x32 .f32) : FVec Ideal S100000x32 .f32 :=
  Host.scatterAdd scatter_S100000x32_S3300000x1_S3300000x32_1_0_0_1
    (broadcastInDim S100000x32 ![] bcast_S_S100000x32 (constant S_ .f32 0x00000000#32)) (dstS ei)
    (Host.gather gather_S100000x32_S3300000x1_S3300000x32_1_0_n_n_0_1_132 u (srcG ei))
/-- The same for 16 columns. -/
def aggT16 (ei : IVec S2x3200000 32) (u : FVec Ideal S100000x16 .f32) : FVec Ideal S100000x16 .f32 :=
  Host.scatterAdd scatter_S100000x16_S3300000x1_S3300000x16_1_0_0_1
    (broadcastInDim S100000x16 ![] bcast_S_S100000x16 (constant S_ .f32 0x00000000#32)) (dstS ei)
    (Host.gather gather_S100000x16_S3300000x1_S3300000x16_1_0_n_n_0_1_116 u (srcG ei))

/-- The gather column of the node ids into the embedding table (height `3000`). -/
def idG (ids : IVec S100000 32) : IVec S100000x1 32 :=
  broadcastInDim S100000x1 ![0] bcast_S100000_S100000x1_0
    (select (cmpi .slt ids (broadcastInDim S100000 ![] bcast_S_S100000 (constantI S_ 32 0#32)))
      (addi ids (broadcastInDim S100000 ![] bcast_S_S100000 (constantI S_ 32 3000#32))) ids)
/-- "This node's id is the padding id `0`", as an `[N, 1]` column of bits. -/
def idIsPad (ids : IVec S100000 32) : IVec S100000x1 1 :=
  cmpi .eq (broadcastInDim S100000x1 ![0] bcast_S100000_S100000x1_0 ids) (broadcastInDim S100000x1 ![] bcast_S_S100000x1 (constantI S_ 32 0#32))

/-- The embedding's contribution to the first layer, the table multiplied by its weight rows BEFORE the lookup:
    zero at a padding id, else row `id` of `emb · W0[7:]`. -/
def embContrib (ids : IVec S100000 32) (emb : FVec Ideal S3000x192 .f32) (W0 : FVec Ideal S199x32 .f32) : FVec Ideal S100000x32 .f32 :=
  select (broadcastInDim S100000x32 ![0, 1] bcast_S100000x1_S100000x32_0_1 (idIsPad ids))
    (broadcastInDim S100000x32 ![] bcast_S_S100000x32 (id (constant S_ .f32 0x00000000#32)))
    (Host.gather gather_S3000x32_S100000x1_S100000x32_1_0_n_n_0_1_132
      (Host.dotGeneral dot_S3000x192_S192x32_S3000x32_1_0_0_1_n_n none emb (extractStridedSlice S192x32 ![7, 0] W0 slices_S199x32_S192x32_7_0))
      (idG ids))

/-- The first seven weight rows, as the matrix unit's left-hand format. -/
def w0a (W0 : FVec Ideal S199x32 .f32) : FVec Ideal S7x32 .bf16 :=
  truncf .bf16 (extractStridedSlice S7x32 ![0, 0] W0 slices_S199x32_S7x32_0_0) bitsLt_bf16_f32

/-- A bias as a `[1, K]` row; a weight matrix in the matrix unit's left-hand format (the identity on extended reals). -/
def rowB32 (b : FVec Ideal S32 .f32) : FVec Ideal S1x32 .f32 := shapeCast S1x32 b shapeCasts_S32_S1x32
def rowB16 (b : FVec Ideal S16 .f32) : FVec Ideal S1x16 .f32 := shapeCast S1x16 b shapeCasts_S16_S1x16
def trW32 (W : FVec Ideal S32x32 .f32) : FVec Ideal S32x32 .bf16 := truncf .bf16 W bitsLt_bf16_f32
def trW16 (W : FVec Ideal S32x16 .f32) : FVec Ideal S32x16 .bf16 := truncf .bf16 W bitsLt_bf16_f32

/-- The looked-up embedding row of every node: zero at a padding id, else the table's row at the (wrapped, clamped) id. -/
def embRow (ids : IVec S100000 32) (emb : FVec Ideal S3000x192 .f32) : FVec Ideal (⟨2, ![100000, 192]⟩ : Shape) .f32 :=
  fun j => Scalar.select (idIsPad ids (StableHlo.Predicate.ixP (j 0))) (0 : EReal)
    (emb (StableHlo.Predicate.ij (⟨min (idG ids (StableHlo.Predicate.ixP (j 0))).toInt.toNat (3000 - 1), by omega⟩ : Fin 3000) (j 1)))

/-- THE FIRST FEATURES: the dense part times the first seven weight rows plus the embedding row times the other 192,
    as two sums (the concatenated row's product with all 199 weight rows, split where the two parts join). -/
def h0 (xf : FVec Ideal S100000x7 .f32) (ids : IVec S100000 32) (emb : FVec Ideal S3000x192 .f32) (W0 : FVec Ideal S199x32 .f32) :
    FVec Ideal S100000x32 .f32 :=
  fun j => (∑ k : Fin 7, xf (StableHlo.Predicate.ij (j 0) k) * W0 (StableHlo.Predicate.ij (⟨k.val, by omega⟩ : Fin 199) (j 1)))
    + ∑ k : Fin 192, embRow ids emb (StableHlo.Predicate.ij (j 0) k) * W0 (StableHlo.Predicate.ij (⟨7 + k.val, by omega⟩ : Fin 199) (j 1))

end Cert.Gcn

end
-- ==== Proof.KStages3.lean ====
import proofs.«412154_j24919400252010_3_alg».proof.Proof.Gen.KernelIdeal.Frame
import proofs.«412154_j24919400252010_3_alg».proof.Proof.Graph
import Idealize.ShloMosaic.Lib.StableHlo.Run

/-!
# What the first region finds

The host operations before the first region, read off the launch memory: the edges' sources and destinations, the
`dinv` column, the embedding contribution and the truncated weight slice; the dense features are an argument.
Each buffer's contents when region 0 is entered is the graph-side term of the arguments.
-/

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- A buffer that no operation of a stretch writes holds after the stretch what it held before it. -/
local macro "kept_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## After the first stretch: what the thirty-two operations leave, read off the launch memory -/

/-- The sources: row 0 of the edge list flattened, the node numbers appended. -/
private theorem w1_v3 : W1 (F := Ideal) m ρ c (Proc.devRef .tc main_v3) = srcV (m ((c : Thread nD τ).loc main_arg2)) := by
  show StableHlo.after hostOps0 _ (Proc.devRef .tc main_v3) = _
  after_results
  rfl

/-- The destinations: row 1 of the edge list flattened, the node numbers appended. -/
private theorem w1_v6 : W1 (F := Ideal) m ρ c (Proc.devRef .tc main_v6) = dstV (m ((c : Thread nD τ).loc main_arg2)) := by
  show StableHlo.after hostOps0 _ (Proc.devRef .tc main_v6) = _
  after_results
  rfl

/-- The degree is the scatter of ones at the destinations; its inverse square root, as a column. -/
private theorem w1_v12 : W1 (F := Ideal) m ρ c (Proc.devRef .tc main_v12) = dinv2 (m ((c : Thread nD τ).loc main_arg2)) := by
  show StableHlo.after hostOps0 _ (Proc.devRef .tc main_v12) = _
  after_results
  rfl

/-- The first seven weight rows, not yet truncated. -/
private theorem w1_v13 : W1 (F := Ideal) m ρ c (Proc.devRef .tc main_v13)
    = extractStridedSlice S7x32 ![0, 0] (m ((c : Thread nD τ).loc main_arg4)) slices_S199x32_S7x32_0_0 := by
  show StableHlo.after hostOps0 _ (Proc.devRef .tc main_v13) = _
  after_results

/-- "This node's id is the padding id", as a column of bits. -/
private theorem w1_v18 : W1 (F := Ideal) m ρ c (Proc.devRef .tc main_v18) = idIsPad (m ((c : Thread nD τ).loc main_arg1)) := by
  show StableHlo.after hostOps0 _ (Proc.devRef .tc main_v18) = _
  after_results
  rfl

/-- Row `id` (wrapped) of the embedding table times the last 192 weight rows: the lookup after the product. -/
private def embRows (ids : IVec S100000 32) (emb : FVec Ideal S3000x192 .f32) (W0 : FVec Ideal S199x32 .f32) :
    FVec Ideal S100000x32 .f32 :=
  Host.gather gather_S3000x32_S100000x1_S100000x32_1_0_n_n_0_1_132
    (Host.dotGeneral dot_S3000x192_S192x32_S3000x32_1_0_0_1_n_n none emb
      (extractStridedSlice S192x32 ![7, 0] W0 slices_S199x32_S192x32_7_0))
    (idG ids)

private theorem w1_v25 : W1 (F := Ideal) m ρ c (Proc.devRef .tc main_v25)
    = embRows (m ((c : Thread nD τ).loc main_arg1)) (m ((c : Thread nD τ).loc main_arg3)) (m ((c : Thread nD τ).loc main_arg4)) := by
  show StableHlo.after hostOps0 _ (Proc.devRef .tc main_v25) = _
  after_results_simp
  rfl

/-- The zero the padding rows take. -/
private theorem w1_cst3 : W1 (F := Ideal) m ρ c (Proc.devRef .tc main_cst_3)
    = (constant S_ .f32 0x00000000#32 : FVec Ideal S_ .f32) := by
  show StableHlo.after hostOps0 _ (Proc.devRef .tc main_cst_3) = _
  after_results

/-! ## At the first region's entry -/

/-- The dense features are as launched. -/
theorem s3_arg0 : W3 (F := Ideal) m ρ c (Proc.devRef .tc main_arg0) = m ((c : Thread nD τ).loc main_arg0) :=
  calc W3 (F := Ideal) m ρ c (Proc.devRef .tc main_arg0)
    _ = W2 (F := Ideal) m ρ c (Proc.devRef .tc main_arg0) := by kept_through hostOps0_2
    _ = W1 (F := Ideal) m ρ c (Proc.devRef .tc main_arg0) := by kept_through hostOps0_1
    _ = W0 (F := Ideal) m ρ c (Proc.devRef .tc main_arg0) := by kept_through hostOps0
    _ = m ((c : Thread nD τ).loc main_arg0) := rfl
/-- The edges' sources, self loops appended. -/
theorem s3_v3 : W3 (F := Ideal) m ρ c (Proc.devRef .tc main_v3) = srcV (m ((c : Thread nD τ).loc main_arg2)) :=
  calc W3 (F := Ideal) m ρ c (Proc.devRef .tc main_v3)
    _ = W2 (F := Ideal) m ρ c (Proc.devRef .tc main_v3) := by kept_through hostOps0_2
    _ = W1 (F := Ideal) m ρ c (Proc.devRef .tc main_v3) := by kept_through hostOps0_1
    _ = srcV (m ((c : Thread nD τ).loc main_arg2)) := w1_v3 m ρ c
/-- The edges' destinations, self loops appended. -/
theorem s3_v6 : W3 (F := Ideal) m ρ c (Proc.devRef .tc main_v6) = dstV (m ((c : Thread nD τ).loc main_arg2)) :=
  calc W3 (F := Ideal) m ρ c (Proc.devRef .tc main_v6)
    _ = W2 (F := Ideal) m ρ c (Proc.devRef .tc main_v6) := by kept_through hostOps0_2
    _ = W1 (F := Ideal) m ρ c (Proc.devRef .tc main_v6) := by kept_through hostOps0_1
    _ = dstV (m ((c : Thread nD τ).loc main_arg2)) := w1_v6 m ρ c
/-- `deg^(-1/2)` as a column. -/
theorem s3_v12 : W3 (F := Ideal) m ρ c (Proc.devRef .tc main_v12) = dinv2 (m ((c : Thread nD τ).loc main_arg2)) :=
  calc W3 (F := Ideal) m ρ c (Proc.devRef .tc main_v12)
    _ = W2 (F := Ideal) m ρ c (Proc.devRef .tc main_v12) := by kept_through hostOps0_2
    _ = W1 (F := Ideal) m ρ c (Proc.devRef .tc main_v12) := by kept_through hostOps0_1
    _ = dinv2 (m ((c : Thread nD τ).loc main_arg2)) := w1_v12 m ρ c

/-- The inlined `where`: zero at a padding id, else the gathered row. -/
private theorem w2_v26 : W2 (F := Ideal) m ρ c (Proc.devRef .tc main_v26)
    = embContrib (m ((c : Thread nD τ).loc main_arg1)) (m ((c : Thread nD τ).loc main_arg3)) (m ((c : Thread nD τ).loc main_arg4)) := by
  show StableHlo.after hostOps0_1 (W1 (F := Ideal) m ρ c) (Proc.devRef .tc main_v26) = _
  generalize hV : W1 (F := Ideal) m ρ c = V
  after_results
  subst hV
  rw [w1_v18, w1_v25, w1_cst3]
  rfl

/-- The embedding's contribution to the first layer. -/
theorem s3_v26 : W3 (F := Ideal) m ρ c (Proc.devRef .tc main_v26)
    = embContrib (m ((c : Thread nD τ).loc main_arg1)) (m ((c : Thread nD τ).loc main_arg3)) (m ((c : Thread nD τ).loc main_arg4)) :=
  calc W3 (F := Ideal) m ρ c (Proc.devRef .tc main_v26)
    _ = W2 (F := Ideal) m ρ c (Proc.devRef .tc main_v26) := by kept_through hostOps0_2
    _ = _ := w2_v26 m ρ c
/-- The first seven weight rows. -/
theorem s3_v27 : W3 (F := Ideal) m ρ c (Proc.devRef .tc main_v27) = w0a (m ((c : Thread nD τ).loc main_arg4)) := by
  show StableHlo.after hostOps0_2 (W2 (F := Ideal) m ρ c) (Proc.devRef .tc main_v27) = _
  generalize hV : W2 (F := Ideal) m ρ c = V
  after_results
  subst hV
  have h13 : W2 (F := Ideal) m ρ c (Proc.devRef .tc main_v13)
      = extractStridedSlice S7x32 ![0, 0] (m ((c : Thread nD τ).loc main_arg4)) slices_S199x32_S7x32_0_0 :=
    calc W2 (F := Ideal) m ρ c (Proc.devRef .tc main_v13)
      _ = W1 (F := Ideal) m ρ c (Proc.devRef .tc main_v13) := by kept_through hostOps0_1
      _ = _ := w1_v13 m ρ c
  rw [h13]
  rfl

end Cert.Gcn

end
-- ==== Proof.KStagesL.lean ====
import proofs.«412154_j24919400252010_3_alg».proof.Proof.Gen.KernelIdeal.Frame
import proofs.«412154_j24919400252010_3_alg».proof.Proof.Graph
import proofs.«412154_j24919400252010_3_alg».proof.Proof.KStages3
import Idealize.ShloMosaic.Lib.StableHlo.Run

/-!
# What the later regions find, and the result

Between two regions the host gathers the previous region's output at the sources and accumulates it at the
destinations (the plain aggregation), and prepares the next bias row and weight matrix; the edge lists and the
`dinv` column are carried unchanged through every region and stretch. After the last region the aggregate is scaled by
`dinv` and the output bias added.
-/

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- A buffer that none of a stretch's operations writes holds after the stretch what it held before it: every
    operation's result buffer is another reference. -/
local macro "host_keeps " ops:ident " at " r:ident : term =>
  `(StableHlo.after_of_forall_not_mem (b := Proc.devRef .tc $r) _ _ (List.forall_iff_forall_mem.mp (by
      simp only [$ops:ident, List.flatten_cons, List.flatten_nil, List.append_nil, List.cons_append, List.nil_append,
        List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-! ## Region 0's exit

The edges' sources and destinations are no array of region 0, so it leaves them as it found them; the `dinv` column
is one of its input windows, which a pipeline never writes back. The layer-1 bias and weight are arguments no earlier
stretch writes and no array of region 0: they are as launched. -/

private theorem src_4 : W4 (F := Ideal) m ρ c (Proc.devRef .tc main_v3) = srcV (m ((c : Thread nD τ).loc main_arg2)) :=
  (W4_of_ne m ρ c main_v3 (by decide)).trans (s3_v3 m ρ c)
private theorem dst_4 : W4 (F := Ideal) m ρ c (Proc.devRef .tc main_v6) = dstV (m ((c : Thread nD τ).loc main_arg2)) :=
  (W4_of_ne m ρ c main_v6 (by decide)).trans (s3_v6 m ρ c)
private theorem dinv_4 : W4 (F := Ideal) m ρ c (Proc.devRef .tc main_v12) = dinv2 (m ((c : Thread nD τ).loc main_arg2)) :=
  calc W4 (F := Ideal) m ρ c (Proc.devRef .tc main_v12)
    _ = W3 m ρ c (Proc.devRef .tc main_v12) :=
          (W4_arr m ρ c 3).trans (((dat0 (V3 m ρ) c).arrAt_in 3 rfl _).trans (A_eq0 (V3 m ρ) c 3))
    _ = dinv2 (m ((c : Thread nD τ).loc main_arg2)) := s3_v12 m ρ c
private theorem arg5_4 : W4 (F := Ideal) m ρ c (Proc.devRef .tc main_arg5) = m ((c : Thread nD τ).loc main_arg5) :=
  calc W4 (F := Ideal) m ρ c (Proc.devRef .tc main_arg5)
    _ = W3 m ρ c (Proc.devRef .tc main_arg5) := W4_of_ne m ρ c main_arg5 (by decide)
    _ = W2 m ρ c (Proc.devRef .tc main_arg5) := host_keeps hostOps0_2 at main_arg5
    _ = W1 m ρ c (Proc.devRef .tc main_arg5) := host_keeps hostOps0_1 at main_arg5
    _ = W0 m ρ c (Proc.devRef .tc main_arg5) := host_keeps hostOps0 at main_arg5
    _ = m ((c : Thread nD τ).loc main_arg5) := rfl
private theorem arg6_4 : W4 (F := Ideal) m ρ c (Proc.devRef .tc main_arg6) = m ((c : Thread nD τ).loc main_arg6) :=
  calc W4 (F := Ideal) m ρ c (Proc.devRef .tc main_arg6)
    _ = W3 m ρ c (Proc.devRef .tc main_arg6) := W4_of_ne m ρ c main_arg6 (by decide)
    _ = W2 m ρ c (Proc.devRef .tc main_arg6) := host_keeps hostOps0_2 at main_arg6
    _ = W1 m ρ c (Proc.devRef .tc main_arg6) := host_keeps hostOps0_1 at main_arg6
    _ = W0 m ρ c (Proc.devRef .tc main_arg6) := host_keeps hostOps0 at main_arg6
    _ = m ((c : Thread nD τ).loc main_arg6) := rfl

/-! ## Region 1's entry -/
theorem s5_v38 : W5 (F := Ideal) m ρ c (Proc.devRef .tc main_v38)
    = aggT32 (m ((c : Thread nD τ).loc main_arg2)) (W4 (F := Ideal) m ρ c (Proc.devRef .tc main_v28)) := by
  show StableHlo.after hostOps1 (W4 (F := Ideal) m ρ c) (Proc.devRef .tc main_v38) = _
  after_results_simp
  rw [src_4, dst_4]
  unfold aggT32 dstS srcG col wrapN
  rfl
theorem s5_v12 : W5 (F := Ideal) m ρ c (Proc.devRef .tc main_v12) = dinv2 (m ((c : Thread nD τ).loc main_arg2)) := by
  exact (host_keeps hostOps1 at main_v12).trans (dinv_4 m ρ c)
theorem s5_v39 : W5 (F := Ideal) m ρ c (Proc.devRef .tc main_v39)
    = rowB32 (m ((c : Thread nD τ).loc main_arg5)) := by
  show StableHlo.after hostOps1 (W4 (F := Ideal) m ρ c) (Proc.devRef .tc main_v39) = _
  after_results
  rw [arg5_4]
  rfl
theorem s5_v40 : W5 (F := Ideal) m ρ c (Proc.devRef .tc main_v40)
    = trW32 (m ((c : Thread nD τ).loc main_arg6)) := by
  show StableHlo.after hostOps1 (W4 (F := Ideal) m ρ c) (Proc.devRef .tc main_v40) = _
  after_results
  rw [arg6_4]
  rfl

/-! ## Region 1's exit

The stretch before region 1 writes neither edge list, and the region has neither among its arrays; the `dinv` column
is an input window of the region. The layer-2 bias and weight are arguments that nothing so far has written. -/

private theorem src_5 : W5 (F := Ideal) m ρ c (Proc.devRef .tc main_v3) = srcV (m ((c : Thread nD τ).loc main_arg2)) :=
  (host_keeps hostOps1 at main_v3).trans (src_4 m ρ c)
private theorem dst_5 : W5 (F := Ideal) m ρ c (Proc.devRef .tc main_v6) = dstV (m ((c : Thread nD τ).loc main_arg2)) :=
  (host_keeps hostOps1 at main_v6).trans (dst_4 m ρ c)
private theorem src_6 : W6 (F := Ideal) m ρ c (Proc.devRef .tc main_v3) = srcV (m ((c : Thread nD τ).loc main_arg2)) :=
  (W6_of_ne m ρ c main_v3 (by decide)).trans (src_5 m ρ c)
private theorem dst_6 : W6 (F := Ideal) m ρ c (Proc.devRef .tc main_v6) = dstV (m ((c : Thread nD τ).loc main_arg2)) :=
  (W6_of_ne m ρ c main_v6 (by decide)).trans (dst_5 m ρ c)
private theorem dinv_6 : W6 (F := Ideal) m ρ c (Proc.devRef .tc main_v12) = dinv2 (m ((c : Thread nD τ).loc main_arg2)) :=
  calc W6 (F := Ideal) m ρ c (Proc.devRef .tc main_v12)
    _ = W5 m ρ c (Proc.devRef .tc main_v12) :=
          (W6_arr m ρ c 1).trans (((dat1 (V5 m ρ) c).arrAt_in 1 rfl _).trans (A_eq1 (V5 m ρ) c 1))
    _ = dinv2 (m ((c : Thread nD τ).loc main_arg2)) := s5_v12 m ρ c
private theorem arg7_6 : W6 (F := Ideal) m ρ c (Proc.devRef .tc main_arg7) = m ((c : Thread nD τ).loc main_arg7) :=
  calc W6 (F := Ideal) m ρ c (Proc.devRef .tc main_arg7)
    _ = W5 m ρ c (Proc.devRef .tc main_arg7) := W6_of_ne m ρ c main_arg7 (by decide)
    _ = W4 m ρ c (Proc.devRef .tc main_arg7) := host_keeps hostOps1 at main_arg7
    _ = W3 m ρ c (Proc.devRef .tc main_arg7) := W4_of_ne m ρ c main_arg7 (by decide)
    _ = W2 m ρ c (Proc.devRef .tc main_arg7) := host_keeps hostOps0_2 at main_arg7
    _ = W1 m ρ c (Proc.devRef .tc main_arg7) := host_keeps hostOps0_1 at main_arg7
    _ = W0 m ρ c (Proc.devRef .tc main_arg7) := host_keeps hostOps0 at main_arg7
    _ = m ((c : Thread nD τ).loc main_arg7) := rfl
private theorem arg8_6 : W6 (F := Ideal) m ρ c (Proc.devRef .tc main_arg8) = m ((c : Thread nD τ).loc main_arg8) :=
  calc W6 (F := Ideal) m ρ c (Proc.devRef .tc main_arg8)
    _ = W5 m ρ c (Proc.devRef .tc main_arg8) := W6_of_ne m ρ c main_arg8 (by decide)
    _ = W4 m ρ c (Proc.devRef .tc main_arg8) := host_keeps hostOps1 at main_arg8
    _ = W3 m ρ c (Proc.devRef .tc main_arg8) := W4_of_ne m ρ c main_arg8 (by decide)
    _ = W2 m ρ c (Proc.devRef .tc main_arg8) := host_keeps hostOps0_2 at main_arg8
    _ = W1 m ρ c (Proc.devRef .tc main_arg8) := host_keeps hostOps0_1 at main_arg8
    _ = W0 m ρ c (Proc.devRef .tc main_arg8) := host_keeps hostOps0 at main_arg8
    _ = m ((c : Thread nD τ).loc main_arg8) := rfl

/-! ## Region 2's entry -/
theorem s7_v51 : W7 (F := Ideal) m ρ c (Proc.devRef .tc main_v51)
    = aggT32 (m ((c : Thread nD τ).loc main_arg2)) (W6 (F := Ideal) m ρ c (Proc.devRef .tc main_v41)) := by
  show StableHlo.after hostOps2 (W6 (F := Ideal) m ρ c) (Proc.devRef .tc main_v51) = _
  after_results_simp
  rw [src_6, dst_6]
  unfold aggT32 dstS srcG col wrapN
  rfl
theorem s7_v12 : W7 (F := Ideal) m ρ c (Proc.devRef .tc main_v12) = dinv2 (m ((c : Thread nD τ).loc main_arg2)) := by
  exact (host_keeps hostOps2 at main_v12).trans (dinv_6 m ρ c)
theorem s7_v52 : W7 (F := Ideal) m ρ c (Proc.devRef .tc main_v52)
    = rowB32 (m ((c : Thread nD τ).loc main_arg7)) := by
  show StableHlo.after hostOps2 (W6 (F := Ideal) m ρ c) (Proc.devRef .tc main_v52) = _
  after_results
  rw [arg7_6]
  rfl
theorem s7_v53 : W7 (F := Ideal) m ρ c (Proc.devRef .tc main_v53)
    = trW32 (m ((c : Thread nD τ).loc main_arg8)) := by
  show StableHlo.after hostOps2 (W6 (F := Ideal) m ρ c) (Proc.devRef .tc main_v53) = _
  after_results
  rw [arg8_6]
  rfl

/-! ## Region 2's exit

The same once more: the edge lists pass the stretch and the region untouched, the `dinv` column is an input window of
the region, and the layer-3 bias and weight are arguments nothing writes, up to the end of the run. -/

private theorem src_7 : W7 (F := Ideal) m ρ c (Proc.devRef .tc main_v3) = srcV (m ((c : Thread nD τ).loc main_arg2)) :=
  (host_keeps hostOps2 at main_v3).trans (src_6 m ρ c)
private theorem dst_7 : W7 (F := Ideal) m ρ c (Proc.devRef .tc main_v6) = dstV (m ((c : Thread nD τ).loc main_arg2)) :=
  (host_keeps hostOps2 at main_v6).trans (dst_6 m ρ c)
private theorem src_8 : W8 (F := Ideal) m ρ c (Proc.devRef .tc main_v3) = srcV (m ((c : Thread nD τ).loc main_arg2)) :=
  (W8_of_ne m ρ c main_v3 (by decide)).trans (src_7 m ρ c)
private theorem dst_8 : W8 (F := Ideal) m ρ c (Proc.devRef .tc main_v6) = dstV (m ((c : Thread nD τ).loc main_arg2)) :=
  (W8_of_ne m ρ c main_v6 (by decide)).trans (dst_7 m ρ c)
private theorem dinv_8 : W8 (F := Ideal) m ρ c (Proc.devRef .tc main_v12) = dinv2 (m ((c : Thread nD τ).loc main_arg2)) :=
  calc W8 (F := Ideal) m ρ c (Proc.devRef .tc main_v12)
    _ = W7 m ρ c (Proc.devRef .tc main_v12) :=
          (W8_arr m ρ c 1).trans (((dat2 (V7 m ρ) c).arrAt_in 1 rfl _).trans (A_eq2 (V7 m ρ) c 1))
    _ = dinv2 (m ((c : Thread nD τ).loc main_arg2)) := s7_v12 m ρ c
private theorem arg9_8 : W8 (F := Ideal) m ρ c (Proc.devRef .tc main_arg9) = m ((c : Thread nD τ).loc main_arg9) :=
  calc W8 (F := Ideal) m ρ c (Proc.devRef .tc main_arg9)
    _ = W9 m ρ c (Proc.devRef .tc main_arg9) := (host_keeps hostOps3 at main_arg9).symm
    _ = W10 m ρ c (Proc.devRef .tc main_arg9) := (W10_of_ne m ρ c main_arg9 (by decide)).symm
    _ = W11 m ρ c (Proc.devRef .tc main_arg9) := (host_keeps hostOps4 at main_arg9).symm
    _ = m ((c : Thread nD τ).loc main_arg9) := W11_main_arg9 m ρ c
private theorem arg10_8 : W8 (F := Ideal) m ρ c (Proc.devRef .tc main_arg10) = m ((c : Thread nD τ).loc main_arg10) :=
  calc W8 (F := Ideal) m ρ c (Proc.devRef .tc main_arg10)
    _ = W9 m ρ c (Proc.devRef .tc main_arg10) := (host_keeps hostOps3 at main_arg10).symm
    _ = W10 m ρ c (Proc.devRef .tc main_arg10) := (W10_of_ne m ρ c main_arg10 (by decide)).symm
    _ = W11 m ρ c (Proc.devRef .tc main_arg10) := (host_keeps hostOps4 at main_arg10).symm
    _ = m ((c : Thread nD τ).loc main_arg10) := W11_main_arg10 m ρ c

/-! ## Region 3's entry -/
theorem s9_v64 : W9 (F := Ideal) m ρ c (Proc.devRef .tc main_v64)
    = aggT32 (m ((c : Thread nD τ).loc main_arg2)) (W8 (F := Ideal) m ρ c (Proc.devRef .tc main_v54)) := by
  show StableHlo.after hostOps3 (W8 (F := Ideal) m ρ c) (Proc.devRef .tc main_v64) = _
  after_results_simp
  rw [src_8, dst_8]
  unfold aggT32 dstS srcG col wrapN
  rfl
theorem s9_v12 : W9 (F := Ideal) m ρ c (Proc.devRef .tc main_v12) = dinv2 (m ((c : Thread nD τ).loc main_arg2)) := by
  exact (host_keeps hostOps3 at main_v12).trans (dinv_8 m ρ c)
theorem s9_v65 : W9 (F := Ideal) m ρ c (Proc.devRef .tc main_v65)
    = rowB32 (m ((c : Thread nD τ).loc main_arg9)) := by
  show StableHlo.after hostOps3 (W8 (F := Ideal) m ρ c) (Proc.devRef .tc main_v65) = _
  after_results
  rw [arg9_8]
  rfl
theorem s9_v66 : W9 (F := Ideal) m ρ c (Proc.devRef .tc main_v66)
    = trW16 (m ((c : Thread nD τ).loc main_arg10)) := by
  show StableHlo.after hostOps3 (W8 (F := Ideal) m ρ c) (Proc.devRef .tc main_v66) = _
  after_results
  rw [arg10_8]
  rfl

/-! ## Region 3's exit

The edge lists and the `dinv` column as before; the output bias is an argument the last stretch does not write, so it
holds here what it holds at the end of the run, which is what was launched. -/

private theorem src_9 : W9 (F := Ideal) m ρ c (Proc.devRef .tc main_v3) = srcV (m ((c : Thread nD τ).loc main_arg2)) :=
  (host_keeps hostOps3 at main_v3).trans (src_8 m ρ c)
private theorem dst_9 : W9 (F := Ideal) m ρ c (Proc.devRef .tc main_v6) = dstV (m ((c : Thread nD τ).loc main_arg2)) :=
  (host_keeps hostOps3 at main_v6).trans (dst_8 m ρ c)
private theorem src_10 : W10 (F := Ideal) m ρ c (Proc.devRef .tc main_v3) = srcV (m ((c : Thread nD τ).loc main_arg2)) :=
  (W10_of_ne m ρ c main_v3 (by decide)).trans (src_9 m ρ c)
private theorem dst_10 : W10 (F := Ideal) m ρ c (Proc.devRef .tc main_v6) = dstV (m ((c : Thread nD τ).loc main_arg2)) :=
  (W10_of_ne m ρ c main_v6 (by decide)).trans (dst_9 m ρ c)
private theorem dinv_10 : W10 (F := Ideal) m ρ c (Proc.devRef .tc main_v12) = dinv2 (m ((c : Thread nD τ).loc main_arg2)) :=
  calc W10 (F := Ideal) m ρ c (Proc.devRef .tc main_v12)
    _ = W9 m ρ c (Proc.devRef .tc main_v12) :=
          (W10_arr m ρ c 1).trans (((dat3 (V9 m ρ) c).arrAt_in 1 rfl _).trans (A_eq3 (V9 m ρ) c 1))
    _ = dinv2 (m ((c : Thread nD τ).loc main_arg2)) := s9_v12 m ρ c
private theorem arg11_10 : W10 (F := Ideal) m ρ c (Proc.devRef .tc main_arg11) = m ((c : Thread nD τ).loc main_arg11) :=
  calc W10 (F := Ideal) m ρ c (Proc.devRef .tc main_arg11)
    _ = W11 m ρ c (Proc.devRef .tc main_arg11) := (host_keeps hostOps4 at main_arg11).symm
    _ = m ((c : Thread nD τ).loc main_arg11) := W11_main_arg11 m ρ c

/-! ## The result -/
theorem s11_v82 : W11 (F := Ideal) m ρ c (Proc.devRef .tc main_v82)
    = addf (mulf (aggT16 (m ((c : Thread nD τ).loc main_arg2)) (W10 (F := Ideal) m ρ c (Proc.devRef .tc main_v67)))
          (broadcastInDim S100000x16 ![0, 1] bcast_S100000x1_S100000x16_0_1 (dinv2 (m ((c : Thread nD τ).loc main_arg2)))))
        (broadcastInDim S100000x16 ![0, 1] bcast_S1x16_S100000x16_0_1 (rowB16 (m ((c : Thread nD τ).loc main_arg11)))) := by
  show StableHlo.after hostOps4 (W10 (F := Ideal) m ρ c) (Proc.devRef .tc main_v82) = _
  after_results_simp
  rw [src_10, dst_10, dinv_10, arg11_10]
  unfold aggT16 dstS srcG col wrapN rowB16
  rfl

end Cert.Gcn

end
-- ==== Proof.LibRowOps.lean ====
import proofs.«412154_j24919400252010_3_alg».proof.Proof.GcnBase

/-!
# Row gathers and accumulating row scatters, read at an index

What jnp's `table[idx]` over the rows of a matrix (or the entries of a vector) and `segment_sum` lower to:
a `stablehlo.gather` / `stablehlo.scatter` whose indices are an `[n, 1]` column, one scalar index per edge, naming
axis 0 of the operand. A gather reads the row its start index names, read signed and clamped into the table. An
accumulating scatter at the ideal instance leaves, at row `i`, the operand plus the sum of the update rows whose
index is exactly `i` (read signed, not clamped: an index outside the table drops its update).

The dimension numbers are hypotheses (each closed by `rfl` at a printed record), so the lemmas serve every record
of the shape, whichever program printed it.
-/

noncomputable section

open scoped BigOperators

namespace Cert.Gcn

open Idealize.ShloMosaic Idealize.ShloMosaic.StableHlo.Predicate

/-- A row gather: result `(p, q)` is the operand at `(clamped start index of edge p, q)`. -/
theorem gather_row {α : Type} {N n C : ℕ} (hN : 0 < N)
    (d : GatherDims ⟨2, ![N, C]⟩ ⟨2, ![n, 1]⟩ ⟨2, ![n, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : Col n) (p : Fin n) (q : Fin C) :
    Host.gather d x idx (ij p q) = x (ij (clampTo N hN (idx (ixP p))) q) := by
  unfold Host.gather
  congr 1
  funext a
  apply Fin.ext
  have hb : ∀ a : Fin 2, a ∉ d.operandBatchingDims := by intro a; rw [hob]; exact List.not_mem_nil
  -- the result's one batch axis is axis 0, its one offset axis is axis 1
  have hbd : ∀ X ∈ d.batchDims, X = (0 : Fin 2) := by
    intro X hX
    have e : d.batchDims = [0] := by
      show Shape.kept _ d.offsetDims = _
      rw [hoff]; rfl
    rw [e] at hX; exact List.mem_singleton.mp hX
  have hod : ∀ X ∈ d.offsetDims, X = (1 : Fin 2) := by
    intro X hX; rw [hoff] at hX; exact List.mem_singleton.mp hX
  have hlen : d.startIndexMap.length = 1 := by rw [hsim]; rfl
  match a with
  | ⟨0, _⟩ =>
    -- axis 0: collapsed and start-indexed: the clamped start index of edge p, no batch or offset coordinate
    have hk : (0 : Fin 2) ∉ d.sKept := by rw [GatherDims.mem_sKept, hcoll]; simp
    have hm : (0 : Fin 2) ∈ d.startIndexMap := by rw [hsim]; exact List.mem_singleton.mpr rfl
    have hsl : d.sliceSizes 0 = 1 := d.slice_collapsed 0 (by rw [hcoll]; exact List.mem_singleton.mpr rfl)
    have hsi : ∀ c : Fin d.startIndexMap.length, d.siIdx (ij p q) c = ixP p := by
      intro c
      funext b
      match b with
      | ⟨0, _⟩ =>
        unfold GatherDims.siIdx
        rw [dif_neg (by rw [hivd]; simp)]
        unfold GatherDims.siCoord
        apply Fin.ext
        simp only [Fin.val_cast]
        have e : ∀ X : Fin 2, X ∈ d.batchDims → ((ij p q : (⟨2, ![n, C]⟩ : Shape).Idx) X).val = p.val :=
          fun X hX => by rw [hbd X hX]
        exact e _ (List.getElem_mem _)
      | ⟨1, _⟩ =>
        unfold GatherDims.siIdx
        rw [dif_pos (by rw [hivd])]
        apply Fin.ext
        show c.val = 0
        have := c.isLt; omega
    show d.start (ij p q) idx 0 + d.batchCoord (ij p q) 0 + d.offCoord (ij p q) 0 = min (idx (ixP p)).toInt.toNat (N - 1)
    rw [GatherDims.batchCoord_eq_zero _ _ _ (hb 0), GatherDims.offCoord_eq_zero _ _ _ hk]
    simp only [Nat.add_zero]
    unfold GatherDims.start
    rw [dif_pos hm, hsi]
    show min (idx (ixP p)).toInt.toNat (N - d.sliceSizes 0) = _
    rw [hsl]
  | ⟨1, _⟩ =>
    -- axis 1: an offset axis off the start index map: start 0, the offset coordinate is the result's column
    have hk : (1 : Fin 2) ∈ d.sKept := by rw [GatherDims.mem_sKept, hcoll, hob]; simp
    have hm : (1 : Fin 2) ∉ d.startIndexMap := by rw [hsim]; simp
    show d.start (ij p q) idx 1 + d.batchCoord (ij p q) 1 + d.offCoord (ij p q) 1 = q.val
    rw [GatherDims.batchCoord_eq_zero _ _ _ (hb 1)]
    unfold GatherDims.start GatherDims.offCoord
    rw [dif_neg hm, dif_pos hk]
    simp only [Nat.zero_add, Nat.add_zero]
    have e : ∀ X : Fin 2, X ∈ d.offsetDims → ((ij p q : (⟨2, ![n, C]⟩ : Shape).Idx) X).val = q.val :=
      fun X hX => by rw [hod X hX]
    exact e _ (List.getElem_mem _)

/-- A gather from a vector: result `p` is the operand at the clamped start index of edge `p`. -/
theorem gather_vec {α : Type} {N n : ℕ} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : Col n) (p : Fin n) :
    Host.gather d x idx (Shape.Idx.ofFin p) = x (Shape.Idx.ofFin (clampTo N hN (idx (ixP p)))) := by
  unfold clampTo
  exact gather_take d hcoll hob hsim hivd x idx p hN

/-- An update lands on operand index `i` exactly when, on every axis, its start (read signed) plus its window
    coordinate is `i`'s coordinate: in range is then automatic, and out of range lands nowhere. -/
private theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h a
    split at h
    · rename_i hr
      have ha := congrArg Fin.val (congrFun (Option.some.inj h) a)
      simp only at ha
      have h0 := (hr a).1
      omega
    · exact absurd h (by simp)
  · intro h
    have hr : ∀ a, 0 ≤ d.start j idx a + d.window j a ∧ d.start j idx a + d.window j a < s.size a := by
      intro a
      rw [h a]
      exact ⟨Int.natCast_nonneg _, by exact_mod_cast (i a).isLt⟩
    rw [dif_pos hr]
    congr 1
    funext a
    apply Fin.ext
    show (d.start j idx a + d.window j a).toNat = (i a).val
    rw [h a]
    exact Int.toNat_natCast _

/-- Where update `(p, q)` of a row scatter lands: on `(i, c)` exactly when edge `p`'s index, read signed, is `i`
    and the columns agree. -/
theorem scatter_row_resultIdx {N n C : ℕ}
    (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (idx : Col n) (p : Fin n) (q : Fin C) (i : Fin N) (c : Fin C) :
    d.resultIdx? (ij p q) idx = some (ij i c) ↔ (idx (ixP p)).toInt = (i.val : ℤ) ∧ q = c := by
  rw [resultIdx?_eq_some_iff]
  have hlen : d.scatterDimsToOperandDims.length = 1 := by rw [hsd]; rfl
  -- the update's one scatter axis is axis 0, its one window axis is axis 1
  have hus : ∀ X ∈ d.uScatter, X = (0 : Fin 2) := by
    intro X hX
    have e : d.uScatter = [0] := by
      show Shape.kept _ d.updateWindowDims = _
      rw [huw]; rfl
    rw [e] at hX; exact List.mem_singleton.mp hX
  have hwd : ∀ X ∈ d.updateWindowDims, X = (1 : Fin 2) := by
    intro X hX; rw [huw] at hX; exact List.mem_singleton.mp hX
  -- the scatter-indices index update (p, q) reads is row p of the column
  have hsi : ∀ c' : Fin d.scatterDimsToOperandDims.length, d.siIdx (ij p q) c' = ixP p := by
    intro c'
    funext b
    match b with
    | ⟨0, _⟩ =>
      unfold ScatterDims.siIdx
      rw [dif_neg (by rw [hivd]; simp)]
      unfold ScatterDims.siCoord
      apply Fin.ext
      simp only [Fin.val_cast]
      have e : ∀ X : Fin 2, X ∈ d.uScatter → ((ij p q : (⟨2, ![n, C]⟩ : Shape).Idx) X).val = p.val :=
        fun X hX => by rw [hus X hX]
      exact e _ (List.getElem_mem _)
    | ⟨1, _⟩ =>
      unfold ScatterDims.siIdx
      rw [dif_pos (by rw [hivd])]
      apply Fin.ext
      show c'.val = 0
      have := c'.isLt; omega
  -- axis 0 is start-indexed and inserted: the start is edge p's index read signed, the window coordinate 0
  have hst0 : d.start (ij p q) idx 0 = (idx (ixP p)).toInt := by
    have hm : (0 : Fin 2) ∈ d.scatterDimsToOperandDims := by rw [hsd]; exact List.mem_singleton.mpr rfl
    unfold ScatterDims.start
    rw [dif_pos hm, hsi]
  have hw0 : d.window (ij p q) 0 = 0 := by
    have hk : (0 : Fin 2) ∉ d.sKept := by
      show (0 : Fin 2) ∉ Shape.kept _ d.insertedWindowDims
      rw [hins]; simp [Shape.kept]
    unfold ScatterDims.window
    rw [dif_neg hk]
  -- axis 1 is the window axis off the index map: start 0, the window coordinate is the update's column
  have hst1 : d.start (ij p q) idx 1 = 0 := by
    have hm : (1 : Fin 2) ∉ d.scatterDimsToOperandDims := by rw [hsd]; simp
    unfold ScatterDims.start
    rw [dif_neg hm]
  have hw1 : d.window (ij p q) 1 = q.val := by
    have hk : (1 : Fin 2) ∈ d.sKept := by
      show (1 : Fin 2) ∈ Shape.kept _ d.insertedWindowDims
      rw [hins]; simp [Shape.kept]
    unfold ScatterDims.window
    rw [dif_pos hk]
    have e : ∀ X : Fin 2, X ∈ d.updateWindowDims → ((ij p q : (⟨2, ![n, C]⟩ : Shape).Idx) X).val = q.val :=
      fun X hX => by rw [hwd X hX]
    exact e _ (List.getElem_mem _)
  constructor
  · intro h
    have h0 : d.start (ij p q) idx 0 + (d.window (ij p q) 0 : ℤ) = (i.val : ℤ) := h 0
    have h1 : d.start (ij p q) idx 1 + (d.window (ij p q) 1 : ℤ) = (c.val : ℤ) := h 1
    rw [hst0, hw0] at h0
    rw [hst1, hw1] at h1
    refine ⟨by simpa using h0, Fin.ext ?_⟩
    have h1' : ((q.val : ℕ) : ℤ) = ((c.val : ℕ) : ℤ) := by simpa using h1
    exact_mod_cast h1'
  · rintro ⟨h, rfl⟩ a
    match a with
    | ⟨0, _⟩ =>
      show d.start (ij p q) idx 0 + (d.window (ij p q) 0 : ℤ) = (i.val : ℤ)
      rw [hst0, hw0]; simpa using h
    | ⟨1, _⟩ =>
      show d.start (ij p q) idx 1 + (d.window (ij p q) 1 : ℤ) = (q.val : ℤ)
      rw [hst1, hw1]; simp

/-- Where update `p` of a scatter into a vector lands: on `i` exactly when edge `p`'s index, read signed, is `i`. -/
theorem scatter_vec_resultIdx {N n : ℕ}
    (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1)
    (idx : Col n) (p : Fin n) (i : Fin N) :
    d.resultIdx? (Shape.Idx.ofFin p) idx = some (Shape.Idx.ofFin i) ↔ (idx (ixP p)).toInt = (i.val : ℤ) := by
  rw [resultIdx?_eq_some_iff]
  have hlen : d.scatterDimsToOperandDims.length = 1 := by rw [hsd]; rfl
  -- the scatter-indices index update p reads is row p of the column
  have hsi : ∀ c : Fin d.scatterDimsToOperandDims.length, d.siIdx (Shape.Idx.ofFin p) c = ixP p := by
    intro c
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((Shape.Idx.ofFin p : (⟨1, ![n]⟩ : Shape).Idx) X).val = p.val := fun X => by
        have hX : X = 0 := Subsingleton.elim _ _
        subst hX; rfl
      exact e _
    | ⟨1, _⟩ =>
      unfold ScatterDims.siIdx
      rw [dif_pos (by rw [hivd])]
      apply Fin.ext
      show c.val = 0
      have := c.isLt; omega
  -- axis 0 is start-indexed and inserted: the start is edge p's index read signed, the window coordinate 0
  have hst : d.start (Shape.Idx.ofFin p) idx 0 = (idx (ixP p)).toInt := by
    have hm : (0 : Fin 1) ∈ d.scatterDimsToOperandDims := by rw [hsd]; exact List.mem_singleton.mpr rfl
    unfold ScatterDims.start
    rw [dif_pos hm, hsi]
  have hw : d.window (Shape.Idx.ofFin p) 0 = 0 := by
    have hk : (0 : Fin 1) ∉ d.sKept := by
      show (0 : Fin 1) ∉ Shape.kept _ d.insertedWindowDims
      rw [hins]; simp [Shape.kept]
    unfold ScatterDims.window
    rw [dif_neg hk]
  constructor
  · intro h
    have h0 := h 0
    rw [hst, hw, Shape.Idx.ofFin_zero] at h0
    simpa using h0
  · intro h a
    obtain rfl : a = 0 := Subsingleton.elim _ _
    rw [hst, hw, Shape.Idx.ofFin_zero]
    simpa using h

/-- The accumulating row scatter at an index: the operand plus the update rows of the edges landing on that row. -/
theorem scatterAdd_row_apply {N n C : ℕ}
    (d : ScatterDims ⟨2, ![N, C]⟩ ⟨2, ![n, 1]⟩ ⟨2, ![n, C]⟩)
    (huw : d.updateWindowDims = [1]) (hins : d.insertedWindowDims = [0]) (hsd : d.scatterDimsToOperandDims = [0])
    (hivd : d.indexVectorDim = 1)
    (x : Mat N C) (idx : Col n) (upd : Mat n C) (j : (⟨2, ![N, C]⟩ : Shape).Idx) :
    Ideal.hostScatterAdd d x idx upd j = x j + ∑ p ∈ into idx (j 0).val, upd (ij p (j 1)) := by
  unfold Ideal.hostScatterAdd into
  congr 1
  -- an update index landing on j is (an edge whose index is j's row, j's column): re-index by the edge
  have hland : ∀ k : (⟨2, ![n, C]⟩ : Shape).Idx, d.resultIdx? k idx = some j →
      (idx (ixP (k 0))).toInt = ((j 0).val : ℤ) ∧ k 1 = j 1 := by
    intro k hk
    have h : d.resultIdx? (ij (k 0) (k 1)) idx = some (ij (j 0) (j 1)) :=
      (congrArg (fun z => d.resultIdx? z idx) (ij_eta k)).trans (hk.trans (congrArg some (ij_eta j).symm))
    exact (scatter_row_resultIdx d huw hins hsd hivd idx (k 0) (k 1) (j 0) (j 1)).1 h
  have hback : ∀ k : (⟨2, ![n, C]⟩ : Shape).Idx, k 1 = j 1 → ij (k 0) (j 1) = k := fun k h1 => by
    funext b
    match b with
    | ⟨0, _⟩ => rfl
    | ⟨1, _⟩ => exact h1.symm
  refine Finset.sum_bij' (fun k _ => k 0) (fun p _ => ij p (j 1)) ?_ ?_ ?_ ?_ ?_
  · intro k hk
    exact Finset.mem_filter.2 ⟨Finset.mem_univ _, (hland k (Finset.mem_filter.1 hk).2).1⟩
  · intro p hp
    refine Finset.mem_filter.2 ⟨Finset.mem_univ _, ?_⟩
    have h := (scatter_row_resultIdx d huw hins hsd hivd idx p (j 1) (j 0) (j 1)).2 ⟨(Finset.mem_filter.1 hp).2, rfl⟩
    exact h.trans (congrArg some (ij_eta j))
  · intro k hk
    exact hback k (hland k (Finset.mem_filter.1 hk).2).2
  · intro p _; rfl
  · intro k hk
    exact congrArg upd (hback k (hland k (Finset.mem_filter.1 hk).2).2).symm

/-- The accumulating scatter into a vector at an index: the operand plus the updates of the edges landing there. -/
theorem scatterAdd_vec_apply {N n : ℕ}
    (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1)
    (x : Vct N) (idx : Col n) (upd : Vct n) (i : Fin N) :
    Ideal.hostScatterAdd d x idx upd (Shape.Idx.ofFin i) = x (Shape.Idx.ofFin i) + ∑ p ∈ into idx i.val, upd (Shape.Idx.ofFin p) := by
  unfold Ideal.hostScatterAdd into
  congr 1
  -- an update index is its one coordinate, an edge: it lands on i exactly when the edge's index is i
  have hland : ∀ k : (⟨1, ![n]⟩ : Shape).Idx, d.resultIdx? k idx = some (Shape.Idx.ofFin i) →
      (idx (ixP (k 0))).toInt = (i.val : ℤ) := by
    intro k hk
    have h : d.resultIdx? (Shape.Idx.ofFin (k 0)) idx = some (Shape.Idx.ofFin i) :=
      (congrArg (fun z => d.resultIdx? z idx) (Shape.Idx.eq_ofFin k).symm).trans hk
    exact (scatter_vec_resultIdx d huw hins hsd hivd idx (k 0) i).1 h
  refine Finset.sum_bij' (fun k _ => k 0) (fun p _ => Shape.Idx.ofFin p) ?_ ?_ ?_ ?_ ?_
  · intro k hk
    exact Finset.mem_filter.2 ⟨Finset.mem_univ _, hland k (Finset.mem_filter.1 hk).2⟩
  · intro p hp
    exact Finset.mem_filter.2 ⟨Finset.mem_univ _,
      (scatter_vec_resultIdx d huw hins hsd hivd idx p i).2 (Finset.mem_filter.1 hp).2⟩
  · intro k _
    exact (Shape.Idx.eq_ofFin k).symm
  · intro p _
    exact Shape.Idx.ofFin_zero p
  · intro k _
    exact congrArg upd (Shape.Idx.eq_ofFin k)

end Cert.Gcn

end
-- ==== Proof.KRead.lean ====
import proofs.«412154_j24919400252010_3_alg».proof.Proof.Graph
import proofs.«412154_j24919400252010_3_alg».proof.Proof.Gcn
import proofs.«412154_j24919400252010_3_alg».proof.Proof.LibRowOps
import Idealize.ShloMosaic.Lib.Pipeline.Value
import Idealize.ShloMosaic.Lib.ValueIdx
import Idealize.ShloMosaic.Lib.ValueLayout

/-!
# The graph side's whole-array terms, read at an index

The plain aggregation term is the plain neighbour sum; the `dinv` column, the bias row and the truncated weights
read back as the vector, the bias and the weights; so a node-side step handed those forms is the step over the plain
ones, and the last host line is "aggregate times `dinv` plus bias" entry by entry.
-/

noncomputable section

open scoped BigOperators

namespace Cert.Gcn

open Idealize.ShloMosaic Idealize.ShloMosaic.StableHlo.Predicate Cert.KernelIdeal Cert.KernelIdeal.Facts₀

variable [Cert.KernelIdeal.Facts]

/-- A vector cast to an `[a, 1]` column reads, at row `i`, the vector at `i` (the same row-major position). -/
private theorem col_apply {a : ℕ} (x : (⟨1, ![a]⟩ : Shape).Idx → EReal) (h : (⟨1, ![a]⟩ : Shape).ShapeCasts ⟨2, ![a, 1]⟩)
    (i : Fin a) : shapeCast ⟨2, ![a, 1]⟩ x h (ixP i) = x (Shape.Idx.ofFin i) :=
  shapeCast_apply x h _ _ (by
    rw [Shape.rowMajor_val_one, Shape.rowMajor_val_two]
    show i.val = i.val * 1 + 0
    omega)

/-- A vector cast to a `[1, a]` row reads, at column `k`, the vector at `k`. -/
private theorem row_apply {a : ℕ} (x : (⟨1, ![a]⟩ : Shape).Idx → EReal) (h : (⟨1, ![a]⟩ : Shape).ShapeCasts ⟨2, ![1, a]⟩)
    (k : Fin a) : shapeCast ⟨2, ![1, a]⟩ x h (i1q k) = x (Shape.Idx.ofFin k) :=
  shapeCast_apply x h _ _ (by
    rw [Shape.rowMajor_val_one, Shape.rowMajor_val_two]
    show k.val = 0 * a + k.val
    omega)

/-- A column laid along the rows of a rectangle reads, at `j`, the column at `j`'s row. -/
private theorem bcast_col_apply {n m : ℕ} (h₂ : (⟨2, ![n, 1]⟩ : Shape).BroadcastsInDim ⟨2, ![n, m]⟩ ![0, 1])
    (v : (⟨2, ![n, 1]⟩ : Shape).Idx → EReal) (j : (⟨2, ![n, m]⟩ : Shape).Idx) :
    broadcastInDim ⟨2, ![n, m]⟩ ![0, 1] h₂ v j = v (ixP (j 0)) :=
  (congrArg (broadcastInDim ⟨2, ![n, m]⟩ ![0, 1] h₂ v) (ij_eta j).symm).trans (bcast_of_col h₂ v (j 0) (j 1))

/-- A row laid down the columns of a rectangle reads, at `j`, the row at `j`'s column. -/
private theorem bcast_row_apply {n m : ℕ} (h₂ : (⟨2, ![1, m]⟩ : Shape).BroadcastsInDim ⟨2, ![n, m]⟩ ![0, 1])
    (v : (⟨2, ![1, m]⟩ : Shape).Idx → EReal) (j : (⟨2, ![n, m]⟩ : Shape).Idx) :
    broadcastInDim ⟨2, ![n, m]⟩ ![0, 1] h₂ v j = v (i1q (j 1)) :=
  (congrArg (broadcastInDim ⟨2, ![n, m]⟩ ![0, 1] h₂ v) (ij_eta j).symm).trans (bcast_of_row h₂ v (j 0) (j 1))

/-- Gather the source rows, accumulate them at the destinations onto zero: the plain neighbour sum, at any sizes and for
    any records of the row shape. -/
private theorem agg_eq {N n C : ℕ} (hN : 0 < N)
    (sd : ScatterDims ⟨2, ![N, C]⟩ ⟨2, ![n, 1]⟩ ⟨2, ![n, C]⟩)
    (huw : sd.updateWindowDims = [1]) (hins : sd.insertedWindowDims = [0]) (hsd : sd.scatterDimsToOperandDims = [0])
    (hivd : sd.indexVectorDim = 1)
    (gd : GatherDims ⟨2, ![N, C]⟩ ⟨2, ![n, 1]⟩ ⟨2, ![n, C]⟩)
    (hoff : gd.offsetDims = [1]) (hcoll : gd.collapsedSliceDims = [0]) (hob : gd.operandBatchingDims = [])
    (hsim : gd.startIndexMap = [0]) (hgivd : gd.indexVectorDim = 1)
    (hz : (⟨0, ![]⟩ : Shape).BroadcastsInDim ⟨2, ![N, C]⟩ (![] : Fin 0 → Fin (⟨2, ![N, C]⟩ : Shape).rank))
    (dS sG : IVec ⟨2, ![n, 1]⟩ 32) (u : FVec Ideal ⟨2, ![N, C]⟩ .f32) :
    Host.scatterAdd sd (broadcastInDim ⟨2, ![N, C]⟩ ![] hz (constant (⟨0, ![]⟩ : Shape) .f32 0x00000000#32)) dS
        (Host.gather gd u sG)
      = nbr hN dS sG u := by
  funext j
  unfold nbr
  show Ideal.hostScatterAdd sd _ dS _ j = _
  rw [scatterAdd_row_apply sd huw hins hsd hivd]
  refine congrArg₂ (· + ·) ?_ (Finset.sum_congr rfl fun p _ => ?_)
  · -- the zero operand
    rw [bcast_scalar _ (by decide)]
    exact Ideal.ofBits_zero_f32
  · -- the gathered row of edge p at j's column
    exact gather_row hN gd hoff hcoll hob hsim hgivd u sG p (j 1)

/-- The plain aggregation of 32 columns is the plain neighbour sum. -/
theorem aggT32_eq (ei : IVec S2x3200000 32) (u : FVec Ideal S100000x32 .f32) :
    aggT32 ei u = nbr (N := 100000) (by decide) (dstS ei) (srcG ei) u := by
  unfold aggT32
  exact agg_eq (by decide) scatter_S100000x32_S3300000x1_S3300000x32_1_0_0_1 rfl rfl rfl rfl
    gather_S100000x32_S3300000x1_S3300000x32_1_0_n_n_0_1_132 rfl rfl rfl rfl rfl bcast_S_S100000x32 (dstS ei) (srcG ei) u

/-- The plain aggregation of 16 columns is the plain neighbour sum. -/
theorem aggT16_eq (ei : IVec S2x3200000 32) (u : FVec Ideal S100000x16 .f32) :
    aggT16 ei u = nbr (N := 100000) (by decide) (dstS ei) (srcG ei) u := by
  unfold aggT16
  exact agg_eq (by decide) scatter_S100000x16_S3300000x1_S3300000x16_1_0_0_1 rfl rfl rfl rfl
    gather_S100000x16_S3300000x1_S3300000x16_1_0_n_n_0_1_116 rfl rfl rfl rfl rfl bcast_S_S100000x16 (dstS ei) (srcG ei) u

/-- The `dinv` column at row `i` is `dinv` at `i`. -/
theorem dinv2_apply (ei : IVec S2x3200000 32) (i : Fin 100000) : dinv2 ei (ixP i) = dinv ei (Shape.Idx.ofFin i) := by
  unfold dinv2
  exact col_apply (dinv ei) shapeCasts_S100000_S100000x1 i

/-- A node-side step handed the `dinv` column, the bias as a row and the weights in the matrix unit's format is the step
    over `dinv`, the bias and the weights (32 output columns). -/
theorem kstepB_eq32 (ei : IVec S2x3200000 32) (agg : FVec Ideal S100000x32 .f32) (b : FVec Ideal S32 .f32) (W : FVec Ideal S32x32 .f32) :
    kstepB (dinv2 ei) agg (rowB32 b) (trW32 W) = kstep (dinv ei) agg b W := by
  funext j
  unfold kstepB kstep
  -- the column reads back dinv at the row, the row reads back the bias, the format change is the identity
  have hd := dinv2_apply ei (j 0)
  have hb : ∀ k : Fin 32, rowB32 b (i1q k) = b (Shape.Idx.ofFin k) := fun k => by
    unfold rowB32
    exact row_apply b shapeCasts_S32_S1x32 k
  refine congrArg₂ (· * ·) (Finset.sum_congr rfl fun k _ => ?_) hd
  rw [hd, hb k]
  rfl

/-- The same with 16 output columns. -/
theorem kstepB_eq16 (ei : IVec S2x3200000 32) (agg : FVec Ideal S100000x32 .f32) (b : FVec Ideal S32 .f32) (W : FVec Ideal S32x16 .f32) :
    kstepB (dinv2 ei) agg (rowB32 b) (trW16 W) = kstep (dinv ei) agg b W := by
  funext j
  unfold kstepB kstep
  have hd := dinv2_apply ei (j 0)
  have hb : ∀ k : Fin 32, rowB32 b (i1q k) = b (Shape.Idx.ofFin k) := fun k => by
    unfold rowB32
    exact row_apply b shapeCasts_S32_S1x32 k
  refine congrArg₂ (· * ·) (Finset.sum_congr rfl fun k _ => ?_) hd
  rw [hd, hb k]
  rfl

/-- The last host line, entry by entry: the aggregate times `dinv` of its row plus the bias of its column. -/
theorem result_apply (ei : IVec S2x3200000 32) (a : FVec Ideal S100000x16 .f32) (bmu : FVec Ideal S16 .f32) (j : S100000x16.Idx) :
    addf (mulf a (broadcastInDim S100000x16 ![0, 1] bcast_S100000x1_S100000x16_0_1 (dinv2 ei)))
        (broadcastInDim S100000x16 ![0, 1] bcast_S1x16_S100000x16_0_1 (rowB16 bmu)) j
      = a j * dinv ei (Shape.Idx.ofFin (j 0)) + bmu (Shape.Idx.ofFin (j 1)) := by
  -- the column laid along the rows reads dinv at j's row, the row laid down the columns reads the bias at j's column
  have e1 : broadcastInDim S100000x16 ![0, 1] bcast_S100000x1_S100000x16_0_1 (dinv2 ei) j = dinv ei (Shape.Idx.ofFin (j 0)) :=
    (bcast_col_apply bcast_S100000x1_S100000x16_0_1 (dinv2 ei) j).trans (dinv2_apply ei (j 0))
  have e2 : broadcastInDim S100000x16 ![0, 1] bcast_S1x16_S100000x16_0_1 (rowB16 bmu) j = bmu (Shape.Idx.ofFin (j 1)) :=
    (bcast_row_apply bcast_S1x16_S100000x16_0_1 (rowB16 bmu) j).trans (by
      unfold rowB16
      exact row_apply bmu shapeCasts_S16_S1x16 (j 1))
  exact congrArg₂ (· + ·) (congrArg (a j * ·) e1) e2

end Cert.Gcn

end
-- ==== Proof.KValue.lean ====
import proofs.«412154_j24919400252010_3_alg».proof.Proof.KRegion0
import proofs.«412154_j24919400252010_3_alg».proof.Proof.KRegion1
import proofs.«412154_j24919400252010_3_alg».proof.Proof.KRegion2
import proofs.«412154_j24919400252010_3_alg».proof.Proof.KRegion3
import proofs.«412154_j24919400252010_3_alg».proof.Proof.KStages3
import proofs.«412154_j24919400252010_3_alg».proof.Proof.KStagesL
import proofs.«412154_j24919400252010_3_alg».proof.Proof.KRead

/-!
# The kernel program's result is the plain arrangement

Region by region: what a region is entered with is the graph side's term of the arguments and of the previous
region's output; what it leaves is the node-side step of those; the host's gather-and-accumulate between two regions
is the plain neighbour sum. After the last region the aggregate is scaled by `dinv` and the output bias added.
-/

set_option maxRecDepth 16384

noncomputable section

namespace Cert.Gcn

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-- The first node-side step, from the arguments. -/
abbrev hp0Of : FVec Ideal S100000x32 .f32 :=
  kfirst (m ((c : Thread nD τ).loc main_arg0))
    (embContrib (m ((c : Thread nD τ).loc main_arg1)) (m ((c : Thread nD τ).loc main_arg3)) (m ((c : Thread nD τ).loc main_arg4)))
    (w0a (m ((c : Thread nD τ).loc main_arg4))) (dinv2 (m ((c : Thread nD τ).loc main_arg2)))

/-- Region 0 leaves the first node-side step. -/
theorem out0_eq : W4 (F := Ideal) m ρ c (Proc.devRef .tc main_v28) = hp0Of m c := by
  refine (W4_arr (F := Ideal) m ρ c 4).trans ?_
  rw [region0_arr]
  show kfirst (W3 (F := Ideal) m ρ c (Proc.devRef .tc main_arg0)) (W3 (F := Ideal) m ρ c (Proc.devRef .tc main_v26))
    (W3 (F := Ideal) m ρ c (Proc.devRef .tc main_v27)) (W3 (F := Ideal) m ρ c (Proc.devRef .tc main_v12)) = _
  rw [s3_arg0, s3_v26, s3_v27, s3_v12]

/-- Region 1 leaves the second node-side step of the plain neighbour sum of the first. -/
theorem out1_eq : W6 (F := Ideal) m ρ c (Proc.devRef .tc main_v41)
    = kstep (dinv (m ((c : Thread nD τ).loc main_arg2)))
        (nbr (N := 100000) (by decide) (dstS (m ((c : Thread nD τ).loc main_arg2))) (srcG (m ((c : Thread nD τ).loc main_arg2))) (hp0Of m c))
        (m ((c : Thread nD τ).loc main_arg5)) (m ((c : Thread nD τ).loc main_arg6)) := by
  refine (W6_arr (F := Ideal) m ρ c 4).trans ?_
  rw [region1_arr]
  show kstepB (W5 (F := Ideal) m ρ c (Proc.devRef .tc main_v12)) (W5 (F := Ideal) m ρ c (Proc.devRef .tc main_v38))
    (W5 (F := Ideal) m ρ c (Proc.devRef .tc main_v39)) (W5 (F := Ideal) m ρ c (Proc.devRef .tc main_v40)) = _
  rw [s5_v12, s5_v38, s5_v39, s5_v40, out0_eq, kstepB_eq32, aggT32_eq]

/-- Region 2 likewise. -/
theorem out2_eq : W8 (F := Ideal) m ρ c (Proc.devRef .tc main_v54)
    = kstep (dinv (m ((c : Thread nD τ).loc main_arg2)))
        (nbr (N := 100000) (by decide) (dstS (m ((c : Thread nD τ).loc main_arg2))) (srcG (m ((c : Thread nD τ).loc main_arg2)))
          (W6 (F := Ideal) m ρ c (Proc.devRef .tc main_v41)))
        (m ((c : Thread nD τ).loc main_arg7)) (m ((c : Thread nD τ).loc main_arg8)) := by
  refine (W8_arr (F := Ideal) m ρ c 4).trans ?_
  rw [region2_arr]
  show kstepB (W7 (F := Ideal) m ρ c (Proc.devRef .tc main_v12)) (W7 (F := Ideal) m ρ c (Proc.devRef .tc main_v51))
    (W7 (F := Ideal) m ρ c (Proc.devRef .tc main_v52)) (W7 (F := Ideal) m ρ c (Proc.devRef .tc main_v53)) = _
  rw [s7_v12, s7_v51, s7_v52, s7_v53, kstepB_eq32, aggT32_eq]

/-- Region 3 likewise, with 16 output columns. -/
theorem out3_eq : W10 (F := Ideal) m ρ c (Proc.devRef .tc main_v67)
    = kstep (dinv (m ((c : Thread nD τ).loc main_arg2)))
        (nbr (N := 100000) (by decide) (dstS (m ((c : Thread nD τ).loc main_arg2))) (srcG (m ((c : Thread nD τ).loc main_arg2)))
          (W8 (F := Ideal) m ρ c (Proc.devRef .tc main_v54)))
        (m ((c : Thread nD τ).loc main_arg9)) (m ((c : Thread nD τ).loc main_arg10)) := by
  refine (W10_arr (F := Ideal) m ρ c 4).trans ?_
  rw [region3_arr]
  show kstepB (W9 (F := Ideal) m ρ c (Proc.devRef .tc main_v12)) (W9 (F := Ideal) m ρ c (Proc.devRef .tc main_v64))
    (W9 (F := Ideal) m ρ c (Proc.devRef .tc main_v65)) (W9 (F := Ideal) m ρ c (Proc.devRef .tc main_v66)) = _
  rw [s9_v12, s9_v64, s9_v65, s9_v66, kstepB_eq16, aggT32_eq]

/-- THE KERNEL PROGRAM'S RESULT: the plain arrangement over the graph side's terms of the edge list, from the first
    node-side step. -/
theorem kernel_value : W11 (F := Ideal) m ρ c (Proc.devRef .tc main_v82)
    = kerOut (N := 100000) (by decide) (dstS (m ((c : Thread nD τ).loc main_arg2))) (srcG (m ((c : Thread nD τ).loc main_arg2)))
        (dinv (m ((c : Thread nD τ).loc main_arg2))) (hp0Of m c)
        (m ((c : Thread nD τ).loc main_arg5)) (m ((c : Thread nD τ).loc main_arg6)) (m ((c : Thread nD τ).loc main_arg7))
        (m ((c : Thread nD τ).loc main_arg8)) (m ((c : Thread nD τ).loc main_arg9)) (m ((c : Thread nD τ).loc main_arg10))
        (m ((c : Thread nD τ).loc main_arg11)) := by
  rw [s11_v82]
  funext j
  rw [result_apply, aggT16_eq, out3_eq, out2_eq, out1_eq]
  rfl

end Cert.Gcn

end
-- ==== Proof.RefH0.lean ====
import proofs.«412154_j24919400252010_3_alg».proof.Proof.Gen.ReferenceIdeal.Read
import proofs.«412154_j24919400252010_3_alg».proof.Proof.Graph
import proofs.«412154_j24919400252010_3_alg».proof.Proof.Gcn
import proofs.«412154_j24919400252010_3_alg».proof.Proof.LibRowOps
import Idealize.ShloMosaic.Lib.Pipeline.Value
import Idealize.ShloMosaic.Lib.ValueIdx

/-!
# The reference's first product is the first features

The concatenated row `[x_feat | embedded]` times all 199 weight rows is the sum over the first seven columns plus the
sum over the other 192, each read from its own part; the embedded part is zero at a padding id and the table's row
at the (wrapped, clamped) id elsewhere.
-/

set_option maxRecDepth 16384

noncomputable section

open scoped BigOperators

namespace Cert.Gcn

open Idealize.ShloMosaic Idealize.ShloMosaic.TcCoe Idealize.SL.Sem Idealize.ShloMosaic.StableHlo.Predicate

/-! ## A sum over a joined axis splits where the two parts join -/

/-- A sum over `c = a + b` positions is the sum over the first `a` plus the sum over the other `b`. -/
private theorem sum_split {M : Type} [AddCommMonoid M] (a b c : ℕ) (h : a + b = c) (f : Fin c → M) :
    ∑ k : Fin c, f k = (∑ k : Fin a, f ⟨k.val, by omega⟩) + ∑ k : Fin b, f ⟨a + k.val, by omega⟩ := by
  subst h
  exact Fin.sum_univ_add f

/-! ## A concatenation of two matrices along the columns, read at an index -/

/-- A column below the first width comes from the first matrix, same row and column. -/
private theorem concat_cols_left {α : Type} {n a b c : ℕ}
    (h : Shape.Concatenates [(⟨2, ![n, a]⟩ : Shape), ⟨2, ![n, b]⟩] ⟨2, ![n, c]⟩ 1)
    (x₁ : (⟨2, ![n, a]⟩ : Shape).Idx → α) (x₂ : (⟨2, ![n, b]⟩ : Shape).Idx → α)
    (p : Fin n) (k : Fin a) (hk : k.val < c) :
    concatenate ⟨2, ![n, c]⟩ 1 [⟨⟨2, ![n, a]⟩, x₁⟩, ⟨⟨2, ![n, b]⟩, x₂⟩] h (ij p ⟨k.val, hk⟩) = x₁ (ij p k) :=
  concatenate_pair_apply_left 1 x₁ x₂ h (ij p ⟨k.val, hk⟩) rfl (ij p k)
    (fun b => match b with | ⟨0, _⟩ => rfl | ⟨1, _⟩ => rfl)

/-- A column at or past the first width comes from the second matrix, same row, the first width less. -/
private theorem concat_cols_right {α : Type} {n a b c : ℕ}
    (h : Shape.Concatenates [(⟨2, ![n, a]⟩ : Shape), ⟨2, ![n, b]⟩] ⟨2, ![n, c]⟩ 1)
    (x₁ : (⟨2, ![n, a]⟩ : Shape).Idx → α) (x₂ : (⟨2, ![n, b]⟩ : Shape).Idx → α)
    (p : Fin n) (k : Fin b) (hk : a + k.val < c) :
    concatenate ⟨2, ![n, c]⟩ 1 [⟨⟨2, ![n, a]⟩, x₁⟩, ⟨⟨2, ![n, b]⟩, x₂⟩] h (ij p ⟨a + k.val, hk⟩) = x₂ (ij p k) :=
  concatenate_pair_apply_right 1 x₁ x₂ h (ij p ⟨a + k.val, hk⟩) rfl rfl (ij p k)
    (fun b hb => match b, hb with
      | ⟨0, _⟩, _ => rfl
      | ⟨1, _⟩, hb => absurd rfl hb)
    (by show k.val + a = a + k.val; omega)

/-! ## The product's two indices, as (row, column) pairs -/

private theorem lidx_eq (i : Cert.ReferenceIdeal.S100000x32.Idx) (k : Fin 199) :
    Cert.ReferenceIdeal.Read.lidx_main_v39 i k = ij (i 0) k := by
  funext a
  match a with
  | ⟨0, _⟩ => rfl
  | ⟨1, _⟩ => rfl

private theorem ridx_eq (i : Cert.ReferenceIdeal.S100000x32.Idx) (k : Fin 199) :
    Cert.ReferenceIdeal.Read.ridx_main_v39 i k = ij k (i 1) := by
  funext a
  match a with
  | ⟨0, _⟩ => rfl
  | ⟨1, _⟩ => rfl

variable [Cert.KernelIdeal.Facts]

/-! ## The embedded part, read at an index -/

/-- The padding bit of the reference is the padding bit of the ids: the same comparison of the same column. -/
private theorem pad_eq (ids : IVec Cert.KernelIdeal.S100000 32) :
    Cert.ReferenceIdeal.Read.val_main_v2 (F := Ideal) ids = idIsPad ids := rfl

/-- The gather column of the reference is the gather column of the ids: the same wrap of the same vector. -/
private theorem idG_eq (ids : IVec Cert.KernelIdeal.S100000 32) :
    Cert.ReferenceIdeal.Read.val_main_v8 (F := Ideal) ids = idG ids := rfl

/-- The padding bit, broadcast along the row, is the row's bit. -/
private theorem pad_read (ids : IVec Cert.KernelIdeal.S100000 32) (p : Fin 100000) (k : Fin 192) :
    Cert.ReferenceIdeal.Read.val_main_call0_v1 (F := Ideal) ids (ij p k) = idIsPad ids (ixP p) := by
  rw [Cert.ReferenceIdeal.Read.val_main_call0_v1_apply, pad_eq]
  congr 1
  funext a
  match a with
  | ⟨0, _⟩ => rfl
  | ⟨1, _⟩ => rfl

/-- The value written at a padding id is the extended real zero. -/
private theorem zero_read (i : Cert.ReferenceIdeal.S100000x192.Idx) :
    Cert.ReferenceIdeal.Read.val_main_call0_v2 (F := Ideal) i = (0 : EReal) := by
  rw [Cert.ReferenceIdeal.Read.val_main_call0_v2_apply, Cert.ReferenceIdeal.Read.val_main_call0_v0_apply,
    Cert.ReferenceIdeal.Read.val_main_cst_apply]
  exact Ideal.ofBits_zero_f32

/-- The gathered row: the table's row at the wrapped id, read signed and clamped into the table. -/
private theorem emb_read (ids : IVec Cert.KernelIdeal.S100000 32) (emb : FVec Ideal Cert.KernelIdeal.S3000x192 .f32)
    (p : Fin 100000) (k : Fin 192) :
    Cert.ReferenceIdeal.Read.val_main_v9 (F := Ideal) ids emb (ij p k)
      = emb (ij (⟨min (idG ids (ixP p)).toInt.toNat (3000 - 1), by omega⟩ : Fin 3000) k) := by
  unfold Cert.ReferenceIdeal.Read.val_main_v9
  rw [idG_eq]
  exact gather_row (by omega) _ rfl rfl rfl rfl rfl emb (idG ids) p k

/-- The embedded part at (row, column): zero at a padding id, else the table's row at the wrapped, clamped id. -/
private theorem v10_read (ids : IVec Cert.KernelIdeal.S100000 32) (emb : FVec Ideal Cert.KernelIdeal.S3000x192 .f32)
    (p : Fin 100000) (k : Fin 192) :
    Cert.ReferenceIdeal.Read.val_main_v10 (F := Ideal) ids emb (ij p k) = embRow ids emb (ij p k) := by
  rw [Cert.ReferenceIdeal.Read.val_main_v10_apply, pad_read, zero_read, emb_read]
  rfl

/-- The concatenated features times the 199 weight rows are the first features. -/
theorem ref_h0 (xf : FVec Ideal Cert.KernelIdeal.S100000x7 .f32) (ids : IVec Cert.KernelIdeal.S100000 32)
    (emb : FVec Ideal Cert.KernelIdeal.S3000x192 .f32) (W0 : FVec Ideal Cert.KernelIdeal.S199x32 .f32) :
    Cert.ReferenceIdeal.Read.val_main_v39 (F := Ideal) xf ids emb W0 = h0 xf ids emb W0 := by
  funext j
  rw [Cert.ReferenceIdeal.Read.val_main_v39_apply]
  refine (sum_split 7 192 199 rfl _).trans ?_
  unfold h0
  congr 1
  · -- the first seven columns are the dense features'
    refine Finset.sum_congr rfl fun k _ => ?_
    rw [lidx_eq, ridx_eq]
    exact congrArg (· * W0 (ij (⟨k.val, by omega⟩ : Fin 199) (j 1)))
      (concat_cols_left _ xf _ (j 0) k (by omega))
  · -- the other 192 are the embedded part's
    refine Finset.sum_congr rfl fun k _ => ?_
    rw [lidx_eq, ridx_eq]
    refine congrArg (· * W0 (ij (⟨7 + k.val, by omega⟩ : Fin 199) (j 1))) ?_
    exact (concat_cols_right _ xf _ (j 0) k (by omega)).trans (v10_read ids emb (j 0) k)

end Cert.Gcn

end
-- ==== Proof.RefStages.lean ====
import proofs.«412154_j24919400252010_3_alg».proof.Proof.Gen.ReferenceIdeal.Read
import proofs.«412154_j24919400252010_3_alg».proof.Proof.Graph
import proofs.«412154_j24919400252010_3_alg».proof.Proof.Gcn
import proofs.«412154_j24919400252010_3_alg».proof.Proof.LibRowOps
import proofs.«412154_j24919400252010_3_alg».proof.Proof.RefH0
import Idealize.ShloMosaic.Lib.Pipeline.Value
import Idealize.ShloMosaic.Lib.ValueIdx

/-!
# The reference's result is the weighted arrangement

Read one operation at a time: the concatenated features times all 199 weight rows are the first features `h0` (the sum
split where the two parts join); every layer gathers the features at the sources, scales each message by
`dinv[src] * dinv[dst]`, accumulates at the destinations, adds the bias; between layers it clamps at zero and
multiplies by the next weights.
-/

set_option maxRecDepth 16384

noncomputable section

open scoped BigOperators

namespace Cert.Gcn

open Idealize.ShloMosaic Idealize.ShloMosaic.TcCoe Idealize.SL.Sem Idealize.ShloMosaic.StableHlo.Predicate

variable [Cert.KernelIdeal.Facts]

/-! ## One layer's aggregation and one node-side step, over variables -/

/-- ONE LAYER. Gather the feature rows at the sources, scale each message by the edge weight
    `dinv[src] * dinv[dst]` (a vector laid along the rows), accumulate at the destinations into zero: row by row this
    is the weighted neighbour sum. -/
private theorem layer_eq {N n C : ℕ} (hN : 0 < N)
    (sd : ScatterDims ⟨2, ![N, C]⟩ ⟨2, ![n, 1]⟩ ⟨2, ![n, C]⟩)
    (huw : sd.updateWindowDims = [1]) (hins : sd.insertedWindowDims = [0]) (hsd : sd.scatterDimsToOperandDims = [0])
    (hsivd : sd.indexVectorDim = 1)
    (gd : GatherDims ⟨2, ![N, C]⟩ ⟨2, ![n, 1]⟩ ⟨2, ![n, C]⟩)
    (hoff : gd.offsetDims = [1]) (hcoll : gd.collapsedSliceDims = [0]) (hob : gd.operandBatchingDims = [])
    (hsim : gd.startIndexMap = [0]) (hivd : gd.indexVectorDim = 1)
    (gv : GatherDims ⟨1, ![N]⟩ ⟨2, ![n, 1]⟩ ⟨1, ![n]⟩)
    (hvcoll : gv.collapsedSliceDims = [0]) (hvob : gv.operandBatchingDims = [])
    (hvsim : gv.startIndexMap = [0]) (hvivd : gv.indexVectorDim = 1)
    (hz : (⟨0, ![]⟩ : Shape).BroadcastsInDim ⟨2, ![N, C]⟩ ![])
    (h₁ : (⟨1, ![n]⟩ : Shape).BroadcastsInDim ⟨2, ![n, 1]⟩ ![0])
    (h₂ : (⟨2, ![n, 1]⟩ : Shape).BroadcastsInDim ⟨2, ![n, C]⟩ ![0, 1])
    (dS sG dG : Col n) (dinv : FVec Ideal ⟨1, ![N]⟩ .f32) (h : FVec Ideal ⟨2, ![N, C]⟩ .f32) :
    Host.scatterAdd sd (broadcastInDim ⟨2, ![N, C]⟩ ![] hz (constant (F := Ideal) ⟨0, ![]⟩ .f32 0x00000000#32)) dS
      (mulf (Host.gather gd h sG)
        (broadcastInDim ⟨2, ![n, C]⟩ ![0, 1] h₂ (broadcastInDim ⟨2, ![n, 1]⟩ ![0] h₁
          (mulf (Host.gather gv dinv sG) (Host.gather gv dinv dG)))))
      = nbrW hN dS sG dG dinv h := by
  funext j
  show Ideal.hostScatterAdd sd _ dS _ j = _
  rw [scatterAdd_row_apply sd huw hins hsd hsivd]
  unfold nbrW
  congr 1
  · rw [bcast_scalar hz (by decide), ValueIdx.constant_apply, Ideal.ofBits_zero_f32]
  · refine Finset.sum_congr rfl fun p _ => ?_
    have e1 := gather_row hN gd hoff hcoll hob hsim hivd h sG p (j 1)
    have e2 := bcast_rows h₁ h₂ (mulf (Host.gather gv dinv sG) (Host.gather gv dinv dG)) p (j 1)
    have e3 := gather_vec hN gv hvcoll hvob hvsim hvivd dinv sG p
    have e4 := gather_vec hN gv hvcoll hvob hvsim hvivd dinv dG p
    rw [ValueIdx.mulf_apply, e1, e2, ValueIdx.mulf_apply, e3, e4]

/-- The bias laid along the columns is added, and the result clamped at zero, element by element. -/
private theorem relu_bias_apply {N K : ℕ}
    (hz : (⟨0, ![]⟩ : Shape).BroadcastsInDim ⟨2, ![N, K]⟩ ![])
    (h₁ : (⟨1, ![K]⟩ : Shape).BroadcastsInDim ⟨2, ![1, K]⟩ ![1])
    (h₂ : (⟨2, ![1, K]⟩ : Shape).BroadcastsInDim ⟨2, ![N, K]⟩ ![0, 1])
    (o : FVec Ideal ⟨2, ![N, K]⟩ .f32) (b : FVec Ideal ⟨1, ![K]⟩ .f32) (p : Fin N) (k : Fin K) :
    maximumf (addf o (broadcastInDim ⟨2, ![N, K]⟩ ![0, 1] h₂ (broadcastInDim ⟨2, ![1, K]⟩ ![1] h₁ b)))
        (broadcastInDim ⟨2, ![N, K]⟩ ![] hz (constant (F := Ideal) ⟨0, ![]⟩ .f32 0x00000000#32)) (ij p k)
      = max (o (ij p k) + b (Shape.Idx.ofFin k)) 0 := by
  rw [ValueIdx.maximumf_apply, ValueIdx.addf_apply, bcast_cols h₁ h₂, bcast_scalar hz (by decide),
    ValueIdx.constant_apply, Ideal.ofBits_zero_f32]

/-- ONE NODE-SIDE STEP from its two reads: a matrix whose entries are the biased, clamped aggregate, multiplied by the
    weights. -/
private theorem rstep_of_reads {N K C : ℕ} (o : Mat N K) (b : Vct K) (W : Mat K C) (y : Mat N K) (z : Mat N C)
    (hy : ∀ (p : Fin N) (k : Fin K), y (ij p k) = max (o (ij p k) + b (Shape.Idx.ofFin k)) 0)
    (hz : ∀ j, z j = ∑ k : Fin K, y (ij (j 0) k) * W (ij k (j 1))) : z = rstep o b W := by
  funext j
  rw [hz j]
  unfold rstep
  exact Finset.sum_congr rfl fun k _ => by rw [hy (j 0) k]

/-! ## The reference, stage by stage -/

/-- A two-axis index is its two coordinates. -/
private theorem idx2_eq {n m : ℕ} (i : (⟨2, ![n, m]⟩ : Shape).Idx) (p : Fin n) (q : Fin m) (h0 : i 0 = p) (h1 : i 1 = q) :
    i = ij p q := by
  funext a
  match a with
  | ⟨0, _⟩ => exact h0
  | ⟨1, _⟩ => exact h1

/-- One layer of the reference over 32 columns, from any features `h`: the weighted neighbour sum of `h`. -/
private theorem layer32 (x2 : IVec Cert.KernelIdeal.S2x3200000 32) (h : FVec Ideal Cert.KernelIdeal.S100000x32 .f32) :
    Host.scatterAdd Cert.ReferenceIdeal.scatter_S100000x32_S3300000x1_S3300000x32_1_0_0_1
        (broadcastInDim Cert.ReferenceIdeal.S100000x32 ![] Cert.ReferenceIdeal.Facts₀.bcast_S_S100000x32 (constant (F := Ideal) Cert.ReferenceIdeal.S_ .f32 0x00000000#32))
        (dstS x2)
        (mulf (Host.gather Cert.ReferenceIdeal.gather_S100000x32_S3300000x1_S3300000x32_1_0_n_n_0_1_132 h (srcG x2))
          (broadcastInDim Cert.ReferenceIdeal.S3300000x32 ![0, 1] Cert.ReferenceIdeal.Facts₀.bcast_S3300000x1_S3300000x32_0_1
            (broadcastInDim Cert.ReferenceIdeal.S3300000x1 ![0] Cert.ReferenceIdeal.Facts₀.bcast_S3300000_S3300000x1_0
              (mulf (Host.gather Cert.ReferenceIdeal.gather_S100000_S3300000x1_S3300000_n_0_n_n_0_1_1 (dinv x2) (srcG x2))
                (Host.gather Cert.ReferenceIdeal.gather_S100000_S3300000x1_S3300000_n_0_n_n_0_1_1 (dinv x2) (dstG x2))))))
      = nbrW (N := 100000) (by decide) (dstS x2) (srcG x2) (dstG x2) (dinv x2) h :=
  layer_eq (by decide) _ rfl rfl rfl rfl _ rfl rfl rfl rfl rfl _ rfl rfl rfl rfl _ _ _ (dstS x2) (srcG x2) (dstG x2) (dinv x2) h

/-- The same over 16 columns. -/
private theorem layer16 (x2 : IVec Cert.KernelIdeal.S2x3200000 32) (h : FVec Ideal Cert.KernelIdeal.S100000x16 .f32) :
    Host.scatterAdd Cert.ReferenceIdeal.scatter_S100000x16_S3300000x1_S3300000x16_1_0_0_1
        (broadcastInDim Cert.ReferenceIdeal.S100000x16 ![] Cert.ReferenceIdeal.Facts₀.bcast_S_S100000x16 (constant (F := Ideal) Cert.ReferenceIdeal.S_ .f32 0x00000000#32))
        (dstS x2)
        (mulf (Host.gather Cert.ReferenceIdeal.gather_S100000x16_S3300000x1_S3300000x16_1_0_n_n_0_1_116 h (srcG x2))
          (broadcastInDim Cert.ReferenceIdeal.S3300000x16 ![0, 1] Cert.ReferenceIdeal.Facts₀.bcast_S3300000x1_S3300000x16_0_1
            (broadcastInDim Cert.ReferenceIdeal.S3300000x1 ![0] Cert.ReferenceIdeal.Facts₀.bcast_S3300000_S3300000x1_0
              (mulf (Host.gather Cert.ReferenceIdeal.gather_S100000_S3300000x1_S3300000_n_0_n_n_0_1_1 (dinv x2) (srcG x2))
                (Host.gather Cert.ReferenceIdeal.gather_S100000_S3300000x1_S3300000_n_0_n_n_0_1_1 (dinv x2) (dstG x2))))))
      = nbrW (N := 100000) (by decide) (dstS x2) (srcG x2) (dstG x2) (dinv x2) h :=
  layer_eq (by decide) _ rfl rfl rfl rfl _ rfl rfl rfl rfl rfl _ rfl rfl rfl rfl _ _ _ (dstS x2) (srcG x2) (dstG x2) (dinv x2) h

open Cert.ReferenceIdeal.Read in
/-- The first aggregate: the weighted neighbour sum of the first features. -/
private theorem v52_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32) :
    val_main_v52 (F := Ideal) x0 x1 x2 x3 x4
      = nbrW (N := 100000) (by decide) (dstS x2) (srcG x2) (dstG x2) (dinv x2) (h0 x0 x1 x3 x4) := by
  rw [← ref_h0]
  exact layer32 x2 _

open Cert.ReferenceIdeal.Read in
/-- The biased, clamped aggregate times the next weights is the weighted arrangement's node-side step. -/
private theorem v57_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32)
    (x5 : FVec Ideal Cert.KernelIdeal.S32 .f32) (x6 : FVec Ideal Cert.KernelIdeal.S32x32 .f32) :
    val_main_v57 (F := Ideal) x0 x1 x2 x3 x4 x5 x6 = rstep (val_main_v52 (F := Ideal) x0 x1 x2 x3 x4) x5 x6 :=
  rstep_of_reads _ x5 x6 (val_main_v56 (F := Ideal) x0 x1 x2 x3 x4 x5) _
    (fun p k => relu_bias_apply Cert.ReferenceIdeal.Facts₀.bcast_S_S100000x32 Cert.ReferenceIdeal.Facts₀.bcast_S32_S1x32_1
      Cert.ReferenceIdeal.Facts₀.bcast_S1x32_S100000x32_0_1 (val_main_v52 (F := Ideal) x0 x1 x2 x3 x4) x5 p k)
    (fun j => by
      rw [val_main_v57_apply]
      refine Finset.sum_congr rfl fun k _ => ?_
      rw [idx2_eq (lidx_main_v57 j k) (j 0) k rfl rfl, idx2_eq (ridx_main_v57 j k) k (j 1) rfl rfl])

open Cert.ReferenceIdeal.Read in
private theorem v70_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32)
    (x5 : FVec Ideal Cert.KernelIdeal.S32 .f32) (x6 : FVec Ideal Cert.KernelIdeal.S32x32 .f32) :
    val_main_v70 (F := Ideal) x0 x1 x2 x3 x4 x5 x6
      = nbrW (N := 100000) (by decide) (dstS x2) (srcG x2) (dstG x2) (dinv x2) (val_main_v57 (F := Ideal) x0 x1 x2 x3 x4 x5 x6) :=
  layer32 x2 _

open Cert.ReferenceIdeal.Read in
/-- The biased, clamped aggregate times the next weights is the weighted arrangement's node-side step. -/
private theorem v75_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32)
    (x5 : FVec Ideal Cert.KernelIdeal.S32 .f32) (x6 : FVec Ideal Cert.KernelIdeal.S32x32 .f32) (x7 : FVec Ideal Cert.KernelIdeal.S32 .f32) (x8 : FVec Ideal Cert.KernelIdeal.S32x32 .f32) :
    val_main_v75 (F := Ideal) x0 x1 x2 x3 x4 x5 x6 x7 x8 = rstep (val_main_v70 (F := Ideal) x0 x1 x2 x3 x4 x5 x6) x7 x8 :=
  rstep_of_reads _ x7 x8 (val_main_v74 (F := Ideal) x0 x1 x2 x3 x4 x5 x6 x7) _
    (fun p k => relu_bias_apply Cert.ReferenceIdeal.Facts₀.bcast_S_S100000x32 Cert.ReferenceIdeal.Facts₀.bcast_S32_S1x32_1
      Cert.ReferenceIdeal.Facts₀.bcast_S1x32_S100000x32_0_1 (val_main_v70 (F := Ideal) x0 x1 x2 x3 x4 x5 x6) x7 p k)
    (fun j => by
      rw [val_main_v75_apply]
      refine Finset.sum_congr rfl fun k _ => ?_
      rw [idx2_eq (lidx_main_v75 j k) (j 0) k rfl rfl, idx2_eq (ridx_main_v75 j k) k (j 1) rfl rfl])

open Cert.ReferenceIdeal.Read in
private theorem v88_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32)
    (x5 : FVec Ideal Cert.KernelIdeal.S32 .f32) (x6 : FVec Ideal Cert.KernelIdeal.S32x32 .f32) (x7 : FVec Ideal Cert.KernelIdeal.S32 .f32) (x8 : FVec Ideal Cert.KernelIdeal.S32x32 .f32) :
    val_main_v88 (F := Ideal) x0 x1 x2 x3 x4 x5 x6 x7 x8
      = nbrW (N := 100000) (by decide) (dstS x2) (srcG x2) (dstG x2) (dinv x2) (val_main_v75 (F := Ideal) x0 x1 x2 x3 x4 x5 x6 x7 x8) :=
  layer32 x2 _

open Cert.ReferenceIdeal.Read in
/-- The biased, clamped aggregate times the next weights is the weighted arrangement's node-side step. -/
private theorem v93_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32)
    (x5 : FVec Ideal Cert.KernelIdeal.S32 .f32) (x6 : FVec Ideal Cert.KernelIdeal.S32x32 .f32) (x7 : FVec Ideal Cert.KernelIdeal.S32 .f32) (x8 : FVec Ideal Cert.KernelIdeal.S32x32 .f32) (x9 : FVec Ideal Cert.KernelIdeal.S32 .f32) (x10 : FVec Ideal Cert.KernelIdeal.S32x16 .f32) :
    val_main_v93 (F := Ideal) x0 x1 x2 x3 x4 x5 x6 x7 x8 x9 x10 = rstep (val_main_v88 (F := Ideal) x0 x1 x2 x3 x4 x5 x6 x7 x8) x9 x10 :=
  rstep_of_reads _ x9 x10 (val_main_v92 (F := Ideal) x0 x1 x2 x3 x4 x5 x6 x7 x8 x9) _
    (fun p k => relu_bias_apply Cert.ReferenceIdeal.Facts₀.bcast_S_S100000x32 Cert.ReferenceIdeal.Facts₀.bcast_S32_S1x32_1
      Cert.ReferenceIdeal.Facts₀.bcast_S1x32_S100000x32_0_1 (val_main_v88 (F := Ideal) x0 x1 x2 x3 x4 x5 x6 x7 x8) x9 p k)
    (fun j => by
      rw [val_main_v93_apply]
      refine Finset.sum_congr rfl fun k _ => ?_
      rw [idx2_eq (lidx_main_v93 j k) (j 0) k rfl rfl, idx2_eq (ridx_main_v93 j k) k (j 1) rfl rfl])

open Cert.ReferenceIdeal.Read in
private theorem v106_eq (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32)
    (x5 : FVec Ideal Cert.KernelIdeal.S32 .f32) (x6 : FVec Ideal Cert.KernelIdeal.S32x32 .f32) (x7 : FVec Ideal Cert.KernelIdeal.S32 .f32) (x8 : FVec Ideal Cert.KernelIdeal.S32x32 .f32) (x9 : FVec Ideal Cert.KernelIdeal.S32 .f32) (x10 : FVec Ideal Cert.KernelIdeal.S32x16 .f32) :
    val_main_v106 (F := Ideal) x0 x1 x2 x3 x4 x5 x6 x7 x8 x9 x10
      = nbrW (N := 100000) (by decide) (dstS x2) (srcG x2) (dstG x2) (dinv x2) (val_main_v93 (F := Ideal) x0 x1 x2 x3 x4 x5 x6 x7 x8 x9 x10) :=
  layer16 x2 _

open Cert.ReferenceIdeal.Read in
/-- The output bias laid along the columns reads the bias at the column. -/
private theorem v108_read (x11 : FVec Ideal Cert.KernelIdeal.S16 .f32) (j : (⟨2, ![100000, 16]⟩ : Shape).Idx) :
    val_main_v108 (F := Ideal) x11 j = x11 (Shape.Idx.ofFin (j 1)) := by
  have h := bcast_cols (n := 100000) Cert.ReferenceIdeal.Facts₀.bcast_S16_S1x16_1 Cert.ReferenceIdeal.Facts₀.bcast_S1x16_S100000x16_0_1 x11 (j 0) (j 1)
  exact (congrArg (val_main_v108 (F := Ideal) x11) (ij_eta j).symm).trans h

/-- THE REFERENCE'S RESULT: the weighted arrangement over the graph side's terms of the edge list, from the first
    features, with the biases and weights as given. -/
theorem ref_value (x0 : FVec Ideal Cert.KernelIdeal.S100000x7 .f32) (x1 : IVec Cert.KernelIdeal.S100000 32)
    (x2 : IVec Cert.KernelIdeal.S2x3200000 32) (x3 : FVec Ideal Cert.KernelIdeal.S3000x192 .f32)
    (x4 : FVec Ideal Cert.KernelIdeal.S199x32 .f32) (x5 : FVec Ideal Cert.KernelIdeal.S32 .f32)
    (x6 : FVec Ideal Cert.KernelIdeal.S32x32 .f32) (x7 : FVec Ideal Cert.KernelIdeal.S32 .f32)
    (x8 : FVec Ideal Cert.KernelIdeal.S32x32 .f32) (x9 : FVec Ideal Cert.KernelIdeal.S32 .f32)
    (x10 : FVec Ideal Cert.KernelIdeal.S32x16 .f32) (x11 : FVec Ideal Cert.KernelIdeal.S16 .f32) :
    Cert.ReferenceIdeal.Read.val_main_v109 (F := Ideal) x0 x1 x2 x3 x4 x5 x6 x7 x8 x9 x10 x11
      = refOut (N := 100000) (by decide) (dstS x2) (srcG x2) (dstG x2) (dinv x2) (h0 x0 x1 x3 x4) x5 x6 x7 x8 x9 x10 x11 := by
  funext j
  -- the last operation adds the output bias to the fourth aggregate; below it layers and node-side steps alternate
  rw [Cert.ReferenceIdeal.Read.val_main_v109_apply, v108_read, v106_eq, v93_eq, v88_eq, v75_eq, v70_eq, v57_eq, v52_eq]
  rfl

end Cert.Gcn

end
-- ==== Proof.GraphFacts.lean ====
import proofs.«412154_j24919400252010_3_alg».proof.Proof.Graph
import proofs.«412154_j24919400252010_3_alg».proof.Proof.LibRowOps
import Idealize.ShloMosaic.Lib.Pipeline.Value
import Idealize.ShloMosaic.Lib.ValueIdx
import Idealize.ShloMosaic.Lib.IdealHost

/-!
# Two facts about the graph side

* An edge whose scatter index (the destination, read signed) is a row `i` of the table is not negative, so the
  wrap leaves it alone and the clamp keeps it: its destination GATHER index names the same row `i`.
* Every node has its self loop among the edges landing on it, so its degree is a positive natural number and
  `deg^(-1/2)` is a nonnegative real (never the `⊤` that `rsqrt 0` would be).
-/

noncomputable section

open scoped BigOperators

namespace Cert.Gcn

open Idealize.ShloMosaic Idealize.ShloMosaic.StableHlo.Predicate Cert.KernelIdeal Cert.KernelIdeal.Facts₀

variable [Cert.KernelIdeal.Facts]

/-- A vector laid as a column, read at row `p`, is the vector at `p`. -/
theorem col_apply (v : IVec S3300000 32) (p : Fin 3300000) : col v (ixP p) = v (Shape.Idx.ofFin p) := by
  unfold col
  exact bcast_col1 _ v p

/-- The wrap leaves a word that is not negative (read signed) alone. -/
theorem wrapN_apply_of_nonneg (v : IVec S3300000 32) (j : S3300000.Idx) (h : 0 ≤ (v j).toInt) : wrapN v j = v j := by
  have hc : cmpi .slt v (broadcastInDim S3300000 ![] bcast_S_S3300000 (constantI S_ 32 0#32)) j = 0#1 := by
    show IntOp.cmpi .slt (v j) 0#32 = 0#1
    unfold IntOp.cmpi
    have hlt : (v j).slt 0#32 = false := by
      simp only [BitVec.slt, BitVec.toInt_zero, decide_eq_false_iff_not, not_lt]
      exact h
    simp only [hlt]
    rfl
  unfold wrapN
  rw [ValueIdx.select_apply, hc, ValueIdx.select_zero]

/-- A landing edge's destination gather index names the row it lands on. -/
theorem graph_hdst (ei : IVec S2x3200000 32) (p : Fin 3300000) (i : Fin 100000)
    (h : (dstS ei (ixP p)).toInt = (i.val : ℤ)) : clampTo 100000 (by decide) (dstG ei (ixP p)) = i := by
  have hS : dstS ei (ixP p) = dstV ei (Shape.Idx.ofFin p) := col_apply _ p
  have hG : dstG ei (ixP p) = wrapN (dstV ei) (Shape.Idx.ofFin p) := col_apply _ p
  rw [hS] at h
  rw [hG, wrapN_apply_of_nonneg _ _ (by rw [h]; exact Int.natCast_nonneg _)]
  apply Fin.ext
  show min (dstV ei (Shape.Idx.ofFin p)).toInt.toNat (100000 - 1) = i.val
  rw [h, Int.toNat_natCast]
  have := i.isLt
  omega

/-- The destination of the self loop of node `i` (edge `3200000 + i`) is `i`: it lies in the second piece of the
    concatenation, the count `0, 1, …` of the nodes. -/
theorem dstV_selfLoop (ei : IVec S2x3200000 32) (i : Fin 100000) (hp : 3200000 + i.val < 3300000) :
    dstV ei (Shape.Idx.ofFin ⟨3200000 + i.val, hp⟩) = BitVec.ofNat 32 i.val := by
  have ha : (Shape.Idx.ofFin i ((0 : Fin 1).cast rfl)).val + S3200000.size ((0 : Fin 1).cast rfl)
      = (Shape.Idx.ofFin (⟨3200000 + i.val, hp⟩ : Fin 3300000) (0 : Fin 1)).val := by
    show i.val + 3200000 = 3200000 + i.val
    omega
  exact concatenate_pair_apply_right (t := S3300000) (s₁ := S3200000) (s₂ := S100000) (0 : Fin 1)
    (shapeCast S3200000 (extractStridedSlice S1x3200000 ![1, 0] ei slices_S2x3200000_S1x3200000_1_0)
      shapeCasts_S1x3200000_S3200000)
    (iotaInDim S100000 32 0) concatenates_S3200000_S100000_S3300000_d0 (Shape.Idx.ofFin ⟨3200000 + i.val, hp⟩) rfl rfl
    (Shape.Idx.ofFin i) (fun b hb => absurd (Subsingleton.elim _ _) hb) ha

/-- Every node's self loop lands on it. -/
theorem selfLoop_mem_into (ei : IVec S2x3200000 32) (i : Fin 100000) (hp : 3200000 + i.val < 3300000) :
    (⟨3200000 + i.val, hp⟩ : Fin 3300000) ∈ into (dstS ei) i.val := by
  unfold into
  rw [Finset.mem_filter]
  refine ⟨Finset.mem_univ _, ?_⟩
  have hS : dstS ei (ixP ⟨3200000 + i.val, hp⟩) = dstV ei (Shape.Idx.ofFin ⟨3200000 + i.val, hp⟩) := col_apply _ _
  rw [hS, dstV_selfLoop, toInt_ofNat_small i.val (by have := i.isLt; omega)]

/-- Ones accumulated into a zero vector at the landing rows: the entry at a row is the number of edges landing on it
    (any sizes, any scatter record of this form). -/
theorem scatterOnes_apply {N n : ℕ} (sv : ScatterDims ⟨1, ![N]⟩ ⟨2, ![n, 1]⟩ ⟨1, ![n]⟩)
    (huw : sv.updateWindowDims = []) (hins : sv.insertedWindowDims = [0]) (hsd : sv.scatterDimsToOperandDims = [0])
    (hivd : sv.indexVectorDim = 1)
    (hz : (⟨0, ![]⟩ : Shape).BroadcastsInDim ⟨1, ![N]⟩ ![]) (ho : (⟨0, ![]⟩ : Shape).BroadcastsInDim ⟨1, ![n]⟩ ![])
    (dS : Col n) (i : Fin N) :
    Host.scatterAdd sv (broadcastInDim ⟨1, ![N]⟩ ![] hz (constant (F := Ideal) ⟨0, ![]⟩ .f32 0x00000000#32)) dS
        (broadcastInDim ⟨1, ![n]⟩ ![] ho (constant (F := Ideal) ⟨0, ![]⟩ .f32 0x3F800000#32)) (Shape.Idx.ofFin i)
      = (((into dS i.val).card : ℕ) : EReal) := by
  have h1 : Ideal.ofBits .f32 0x3F800000#32 = 1 := IdealRules.sign_bit.ideal_onePat .f32
  have hx : broadcastInDim ⟨1, ![N]⟩ ![] hz (constant (F := Ideal) ⟨0, ![]⟩ .f32 0x00000000#32) (Shape.Idx.ofFin i)
      = (0 : EReal) := Ideal.ofBits_zero_f32
  have hu : ∀ p : Fin n,
      broadcastInDim ⟨1, ![n]⟩ ![] ho (constant (F := Ideal) ⟨0, ![]⟩ .f32 0x3F800000#32) (Shape.Idx.ofFin p)
        = (1 : EReal) := fun _ => h1
  show Ideal.hostScatterAdd sv _ dS _ (Shape.Idx.ofFin i) = _
  rw [scatterAdd_vec_apply sv huw hins hsd hivd, hx]
  simp only [hu]
  rw [Finset.sum_const, zero_add, EReal.nsmul_eq_mul, mul_one]

/-- The inverse square root of a positive natural number is a nonnegative real. -/
theorem rsqrt_natCast_pos (k : ℕ) (hk : 0 < k) : ∃ r : ℝ, 0 ≤ r ∧ Ideal.rsqrt ((k : ℕ) : EReal) = (r : EReal) := by
  have hk' : (0 : ℝ) < (k : ℝ) := by exact_mod_cast hk
  refine ⟨(Real.sqrt (k : ℝ))⁻¹, inv_nonneg.mpr (Real.sqrt_nonneg _), ?_⟩
  rw [← EReal.coe_natCast, Ideal.rsqrt_coe, if_neg (not_lt.mpr hk'.le), if_neg hk'.ne']

/-- The host's inverse square root of an array, read at an index, is the inverse square root of the entry. -/
theorem hostRsqrt_apply {s : Shape} (x : FVec Ideal s .f32) (j : s.Idx) : Host.rsqrt x j = Ideal.rsqrt (x j) := rfl

/-- The in-degree at a node is the number of edges landing on it. -/
theorem deg_apply (ei : IVec S2x3200000 32) (i : Fin 100000) :
    deg ei (Shape.Idx.ofFin i) = (((into (dstS ei) i.val).card : ℕ) : EReal) := by
  unfold deg
  exact scatterOnes_apply scatter_S100000_S3300000x1_S3300000_n_0_0_1 rfl rfl rfl rfl bcast_S_S100000 bcast_S_S3300000
    (dstS ei) i

/-- `deg^(-1/2)` is a nonnegative real at every node. -/
theorem graph_hdinv (ei : IVec S2x3200000 32) (i : Fin 100000) :
    ∃ r : ℝ, 0 ≤ r ∧ dinv ei (Shape.Idx.ofFin i) = (r : EReal) := by
  have hp : 3200000 + i.val < 3300000 := by have := i.isLt; omega
  have hpos : 0 < (into (dstS ei) i.val).card := Finset.card_pos.mpr ⟨_, selfLoop_mem_into ei i hp⟩
  obtain ⟨r, hr, he⟩ := rsqrt_natCast_pos _ hpos
  have hdi : dinv ei (Shape.Idx.ofFin i) = Ideal.rsqrt (deg ei (Shape.Idx.ofFin i)) := by
    unfold dinv
    exact hostRsqrt_apply (deg ei) (Shape.Idx.ofFin i)
  exact ⟨r, hr, by rw [hdi, deg_apply, he]⟩

end Cert.Gcn

end
-- ==== Proof.Layer0.lean ====
import proofs.«412154_j24919400252010_3_alg».proof.Proof.Graph
import proofs.«412154_j24919400252010_3_alg».proof.Proof.Gcn
import proofs.«412154_j24919400252010_3_alg».proof.Proof.LibRowOps
import proofs.«412154_j24919400252010_3_alg».proof.Proof.KRead
import Idealize.ShloMosaic.Lib.Pipeline.Value
import Idealize.ShloMosaic.Lib.ValueIdx
import Idealize.ShloMosaic.PureOps.Ideal.Laws

/-!
# The first layer, in the arrangement that multiplies the embedding table before the lookup

`(emb · W0[7:])[id]` is `emb[id] · W0[7:]`, row by row (a gather of rows commutes with a product on the right), and the
padding id's zero row times anything is zero; the first seven weight rows are the slice the dense features meet. So
the first node-side step is the first features `h0` scaled by `dinv`.
-/

noncomputable section

open scoped BigOperators

namespace Cert.Gcn

open Idealize.ShloMosaic Idealize.ShloMosaic.StableHlo.Predicate Cert.KernelIdeal Cert.KernelIdeal.Facts₀

variable [Cert.KernelIdeal.Facts]

/-- The slice of the first seven weight rows, in the matrix unit's format, reads back as the weights: entry `(k, c)`
    of the slice is entry `(k, c)` of `W0`, and the format change is the identity on extended reals. -/
private theorem w0a_apply (W0 : FVec Ideal S199x32 .f32) (k : Fin 7) (c : Fin 32) :
    w0a W0 (ij k c) = W0 (ij (⟨k.val, by omega⟩ : Fin 199) c) := by
  unfold w0a
  rw [ValueIdx.truncf_apply]
  exact extractStridedSlice_apply _ W0 slices_S199x32_S7x32_0_0 _ _ (fun a => match a with
    | ⟨0, _⟩ => by show k.val = 0 + k.val; omega
    | ⟨1, _⟩ => by show c.val = 0 + c.val; omega)

/-- The slice of the other 192 weight rows: entry `(k, c)` of the slice is entry `(7 + k, c)` of `W0`. -/
private theorem w0b_apply (W0 : FVec Ideal S199x32 .f32) (k : Fin 192) (c : Fin 32) :
    extractStridedSlice S192x32 ![7, 0] W0 slices_S199x32_S192x32_7_0 (ij k c)
      = W0 (ij (⟨7 + k.val, by omega⟩ : Fin 199) c) :=
  extractStridedSlice_apply _ W0 slices_S199x32_S192x32_7_0 _ _ (fun a => match a with
    | ⟨0, _⟩ => rfl
    | ⟨1, _⟩ => by show c.val = 0 + c.val; omega)

/-! The operand indices of the `[3000, 192] × [192, 32]` product at an output entry and a contraction index: the left
operand is read at (output row, contraction index), the right at (contraction index, output column). -/

/-- The product contracts over one axis. -/
private theorem tab_rank : dot_S3000x192_S192x32_S3000x32_1_0_0_1_n_n.contr.rank = 1 := rfl

private theorem tab_lhs_0 (i : S3000x32.Idx) (q : dot_S3000x192_S192x32_S3000x32_1_0_0_1_n_n.contr.Idx) :
    (dot_S3000x192_S192x32_S3000x32_1_0_0_1_n_n.lhsIdx i q 0).val = (i 0).val := by
  unfold DotDims.lhsIdx
  rw [dif_neg (show ¬(0 : Fin S3000x192.rank) ∈ dot_S3000x192_S192x32_S3000x32_1_0_0_1_n_n.lhsBatch from List.not_mem_nil), dif_pos (show (0 : Fin S3000x192.rank) ∈ dot_S3000x192_S192x32_S3000x32_1_0_0_1_n_n.lhsNonContracting from List.mem_singleton.mpr rfl)]
  rfl
private theorem tab_lhs_1 (i : S3000x32.Idx) (q : dot_S3000x192_S192x32_S3000x32_1_0_0_1_n_n.contr.Idx) :
    (dot_S3000x192_S192x32_S3000x32_1_0_0_1_n_n.lhsIdx i q 1).val = (q ⟨0, lt_of_lt_of_eq Nat.one_pos tab_rank.symm⟩).val :=
  dot_S3000x192_S192x32_S3000x32_1_0_0_1_n_n.lhsIdx_val_of_single rfl i q
private theorem tab_rhs_0 (i : S3000x32.Idx) (q : dot_S3000x192_S192x32_S3000x32_1_0_0_1_n_n.contr.Idx) :
    (dot_S3000x192_S192x32_S3000x32_1_0_0_1_n_n.rhsIdx i q 0).val = (q ⟨0, lt_of_lt_of_eq Nat.one_pos tab_rank.symm⟩).val :=
  dot_S3000x192_S192x32_S3000x32_1_0_0_1_n_n.rhsIdx_val_of_single rfl i q
private theorem tab_rhs_1 (i : S3000x32.Idx) (q : dot_S3000x192_S192x32_S3000x32_1_0_0_1_n_n.contr.Idx) :
    (dot_S3000x192_S192x32_S3000x32_1_0_0_1_n_n.rhsIdx i q 1).val = (i 1).val := by
  unfold DotDims.rhsIdx
  rw [dif_neg (show ¬(1 : Fin S192x32.rank) ∈ dot_S3000x192_S192x32_S3000x32_1_0_0_1_n_n.rhsBatch from List.not_mem_nil), dif_pos (show (1 : Fin S192x32.rank) ∈ dot_S3000x192_S192x32_S3000x32_1_0_0_1_n_n.rhsNonContracting from List.mem_singleton.mpr rfl)]
  rfl

/-- The product of a `[3000, 192]` table with a `[192, 32]` matrix, read at an entry: the sum over the 192 shared
    indices of the products. -/
private theorem dot_apply (emb : FVec Ideal S3000x192 .f32) (R : FVec Ideal S192x32 .f32) (v : Fin 3000) (c : Fin 32) :
    Host.dotGeneral dot_S3000x192_S192x32_S3000x32_1_0_0_1_n_n none emb R (ij v c)
      = ∑ k : Fin 192, emb (ij v k) * R (ij k c) := by
  simp only [Host.dotGeneral]
  rw [Ideal.dotGeneral_apply, ← Equiv.sum_comp (ValueIdx.contrEquiv1 dot_S3000x192_S192x32_S3000x32_1_0_0_1_n_n 192 rfl rfl).symm]
  refine Finset.sum_congr rfl fun k _ => ?_
  have hk := ValueIdx.contrEquiv1_symm_val dot_S3000x192_S192x32_S3000x32_1_0_0_1_n_n 192 rfl rfl k
  have el : dot_S3000x192_S192x32_S3000x32_1_0_0_1_n_n.lhsIdx (ij v c) ((ValueIdx.contrEquiv1 dot_S3000x192_S192x32_S3000x32_1_0_0_1_n_n 192 rfl rfl).symm k) = ij v k := funext fun a => Fin.ext (by
    match a with
    | ⟨0, _⟩ => exact tab_lhs_0 _ _
    | ⟨1, _⟩ => exact (tab_lhs_1 _ _).trans hk)
  have er : dot_S3000x192_S192x32_S3000x32_1_0_0_1_n_n.rhsIdx (ij v c) ((ValueIdx.contrEquiv1 dot_S3000x192_S192x32_S3000x32_1_0_0_1_n_n 192 rfl rfl).symm k) = ij k c := funext fun a => Fin.ext (by
    match a with
    | ⟨0, _⟩ => exact (tab_rhs_0 _ _).trans hk
    | ⟨1, _⟩ => exact tab_rhs_1 _ _)
  rw [el, er]

/-- `emb · W0[7:]` at `(v, c)` is `∑ k, emb (v, k) * W0 (7 + k, c)`. -/
private theorem tab_apply (emb : FVec Ideal S3000x192 .f32) (W0 : FVec Ideal S199x32 .f32) (v : Fin 3000) (c : Fin 32) :
    Host.dotGeneral dot_S3000x192_S192x32_S3000x32_1_0_0_1_n_n none emb
        (extractStridedSlice S192x32 ![7, 0] W0 slices_S199x32_S192x32_7_0) (ij v c)
      = ∑ k : Fin 192, emb (ij v k) * W0 (ij (⟨7 + k.val, by omega⟩ : Fin 199) c) := by
  rw [dot_apply]
  exact Finset.sum_congr rfl fun k _ => by rw [w0b_apply]

/-- The embedding's contribution at `(p, q)`: zero when node `p`'s id is the padding id, else row `id` (wrapped,
    clamped into the table) of `emb · W0[7:]`, at column `q`. -/
private theorem embContrib_ij (ids : IVec S100000 32) (emb : FVec Ideal S3000x192 .f32) (W0 : FVec Ideal S199x32 .f32)
    (p : Fin 100000) (q : Fin 32) :
    embContrib ids emb W0 (ij p q) = Scalar.select (idIsPad ids (ixP p)) (0 : EReal)
      (∑ k : Fin 192, emb (ij (clampTo 3000 (by decide) (idG ids (ixP p))) k) * W0 (ij (⟨7 + k.val, by omega⟩ : Fin 199) q)) := by
  unfold embContrib
  rw [ValueIdx.select_apply, bcast_of_col, bcast_scalar _ (by decide),
    gather_row (N := 3000) (by decide) gather_S3000x32_S100000x1_S100000x32_1_0_n_n_0_1_132 rfl rfl rfl rfl rfl,
    tab_apply, id_eq, ValueIdx.constant_apply, Ideal.ofBits_zero_f32]

/-- THE LOOKUP COMMUTES WITH THE PRODUCT. Zero at a padding id, else row `id` of `emb · W0[7:]`, is the looked-up
    row (zero at a padding id, else row `id` of `emb`) times `W0[7:]`: at a padding id both sides are zero (a sum of
    `0 * _`), elsewhere they are the same sum. -/
private theorem embContrib_eq (ids : IVec S100000 32) (emb : FVec Ideal S3000x192 .f32) (W0 : FVec Ideal S199x32 .f32)
    (p : Fin 100000) (q : Fin 32) :
    embContrib ids emb W0 (ij p q)
      = ∑ k : Fin 192, embRow ids emb (ij p k) * W0 (ij (⟨7 + k.val, by omega⟩ : Fin 199) q) := by
  rw [embContrib_ij]
  by_cases hb : idIsPad ids (ixP p) = 1#1
  · have hr : ∀ k : Fin 192, embRow ids emb (ij p k) = 0 := fun k => by
      show Scalar.select (idIsPad ids (ixP p)) (0 : EReal) _ = 0
      rw [hb, ValueIdx.select_one]
    rw [hb, ValueIdx.select_one]
    simp only [hr, zero_mul, Finset.sum_const_zero]
  · have hz := ValueIdx.eq_zero_of_ne_one hb
    have hr : ∀ k : Fin 192, embRow ids emb (ij p k)
        = emb (ij (clampTo 3000 (by decide) (idG ids (ixP p))) k) := fun k => by
      show Scalar.select (idIsPad ids (ixP p)) (0 : EReal) _ = _
      rw [hz, ValueIdx.select_zero]
      rfl
    rw [hz, ValueIdx.select_zero]
    simp only [hr]

/-- The first node-side step of the plain arrangement is the first features scaled by `dinv`. -/
theorem kfirst_eq (ei : IVec S2x3200000 32) (xf : FVec Ideal S100000x7 .f32) (ids : IVec S100000 32)
    (emb : FVec Ideal S3000x192 .f32) (W0 : FVec Ideal S199x32 .f32) (j : S100000x32.Idx) :
    kfirst xf (embContrib ids emb W0) (w0a W0) (dinv2 ei) j = h0 xf ids emb W0 j * dinv ei (Shape.Idx.ofFin (j 0)) := by
  have hA : ∀ k : Fin 7, w0a W0 (ij k (j 1)) = W0 (ij (⟨k.val, by omega⟩ : Fin 199) (j 1)) :=
    fun k => w0a_apply W0 k (j 1)
  have hB := (congrArg (embContrib ids emb W0) (ij_eta j)).symm.trans (embContrib_eq ids emb W0 (j 0) (j 1))
  have hD : dinv2 ei (ixP (j 0)) = dinv ei (Shape.Idx.ofFin (j 0)) := dinv2_apply ei (j 0)
  unfold kfirst h0
  rw [hD, hB]
  simp only [hA]

end Cert.Gcn

end
-- ==== Proof.lean ====
/-
  A four-layer graph convolution (embedding lookup and dense features into 32 hidden channels, three hidden layers,
  16 output channels) over 100000 nodes and 3200000 edges plus one self loop per node, with the symmetric
  normalisation `deg^(-1/2) · A · deg^(-1/2)`.

  The reference scales every message on its edge by `dinv[src] * dinv[dst]` and accumulates. The kernel program
  scales the features once per NODE by `dinv` inside its four tiled matrix-product kernels, accumulates the plain
  messages on the host with the same gather and accumulating scatter, and applies the destination's `dinv` after the
  sum, in the next kernel or in the last host line; it also multiplies the embedding table by its 192 weight rows
  BEFORE the lookup instead of after.

  At the ideal instance both are the same function of the arguments, whatever the integer inputs hold:
  * a gather of rows commutes with a matrix product on the right, and the padding id's zero row gives zero either way;
  * an edge that lands on a row `i` of the table has a destination index that is not negative, so its gather index
    (wrapped, clamped) names `i` too, and `dinv[dst]` is the constant `dinv[i]` over the edges landing on `i`;
  * every node has its self loop, so `deg ≥ 1` and `dinv` is a nonnegative REAL, by which multiplication distributes
    over the finite sum of extended reals (it would not for `rsqrt 0 = ⊤`).
  The frames of the two kernel programs are the generated ones; the reference's frame is its generated run with the
  result dropped; the ideal pass rewrote nothing, so `preserves` is trivial.
-/
import proofs.«412154_j24919400252010_3_alg».proof.Defs
import proofs.«412154_j24919400252010_3_alg».proof.Proof.Gen.Kernel
import proofs.«412154_j24919400252010_3_alg».proof.Proof.Gen.Kernel.Skeleton
import proofs.«412154_j24919400252010_3_alg».proof.Proof.Gen.Kernel.Launch
import proofs.«412154_j24919400252010_3_alg».proof.Proof.Gen.Kernel.Points
import proofs.«412154_j24919400252010_3_alg».proof.Proof.Gen.Kernel.Frame
import proofs.«412154_j24919400252010_3_alg».proof.Proof.Gen.KernelIdeal
import proofs.«412154_j24919400252010_3_alg».proof.Proof.Gen.KernelIdeal.Skeleton
import proofs.«412154_j24919400252010_3_alg».proof.Proof.Gen.KernelIdeal.Launch
import proofs.«412154_j24919400252010_3_alg».proof.Proof.Gen.KernelIdeal.Points
import proofs.«412154_j24919400252010_3_alg».proof.Proof.Gen.KernelIdeal.Frame
import proofs.«412154_j24919400252010_3_alg».proof.Proof.Gen.ReferenceIdeal
import proofs.«412154_j24919400252010_3_alg».proof.Proof.Gen.ReferenceIdeal.Run
import proofs.«412154_j24919400252010_3_alg».proof.Proof.Gen.ReferenceIdeal.Read
import proofs.«412154_j24919400252010_3_alg».proof.Proof.Gen.Pre_finite_inputs
import proofs.«412154_j24919400252010_3_alg».proof.Proof.KRun
import proofs.«412154_j24919400252010_3_alg».proof.Proof.KValue
import proofs.«412154_j24919400252010_3_alg».proof.Proof.RefStages
import proofs.«412154_j24919400252010_3_alg».proof.Proof.GraphFacts
import proofs.«412154_j24919400252010_3_alg».proof.Proof.Layer0
import proofs.«412154_j24919400252010_3_alg».proof.Proof.Gcn
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)
theorem preserves : Cert.preserves_Kernel_KernelIdeal := trivial

/-- Both programs end at the plain arrangement's value of the arguments: the kernel program by its regions and host
    stretches read in order, the reference through the weighted arrangement, which is the plain one. -/
theorem algebraic : Cert.algebraic_KernelIdeal_ReferenceIdeal := by
  intro m ρ m' ρ' _ hagree
  refine ⟨fun c => Cert.Gcn.kerOut (N := 100000) (by decide) (Cert.Gcn.dstS (m ((c.tc : Thread Cert.KernelIdeal.nD Cert.KernelIdeal.τ).loc Cert.KernelIdeal.main_arg2))) (Cert.Gcn.srcG (m ((c.tc : Thread Cert.KernelIdeal.nD Cert.KernelIdeal.τ).loc Cert.KernelIdeal.main_arg2)))
      (Cert.Gcn.dinv (m ((c.tc : Thread Cert.KernelIdeal.nD Cert.KernelIdeal.τ).loc Cert.KernelIdeal.main_arg2))) (Cert.Gcn.hp0Of m c) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1.trans (Cert.Gcn.kernel_value m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v109_eq, e0, e1, e2, e3, e4, e5, e6, e7, e8, e9, e10, e11, Cert.Gcn.ref_value]
    exact (Cert.Gcn.kerOut_eq_refOut (N := 100000) (by decide) _ _ _ _
      (fun p i h => Cert.Gcn.graph_hdst _ p i h) (fun i => Cert.Gcn.graph_hdinv _ i) _ _
      (fun j => Cert.Gcn.kfirst_eq _ _ _ _ _ j) _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
